-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S600000x3 : Shape := ⟨2, ![600000, 3]⟩
abbrev S3x8x128 : Shape := ⟨3, ![3, 8, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x8x128 : S_.BroadcastsInDim S3x8x128 (![] : Fin 0 → Fin S3x8x128.rank)
  reducesTo_S3x8x128_S_d0_1_2 : S3x8x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S600000 : S_.BroadcastsInDim S600000 (![] : Fin 0 → Fin S600000.rank)
  reducesTo_S600000_S_d0 : S600000.ReducesTo [0] S_
  bcast_S_S600000x3 : S_.BroadcastsInDim S600000x3 (![] : Fin 0 → Fin S600000x3.rank)
  reducesTo_S600000x3_S_d0_1 : S600000x3.ReducesTo [0, 1] S_

variable [Facts]

def fn_part1 {F : FTy → Type} [FloatOps F] (main_arg1 : IVec S600000 32) (main_arg3 : IVec S600000x3 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S600000 32 := broadcastInDim S600000 ![] bcast_S_S600000 main_c_6
  let main_v20 : IVec S600000 1 := cmpi .sge main_arg1 main_v19
  let main_c_7 : IVec S_ 32 := constantI S_ 32 50000#32
  let main_v21 : IVec S600000 32 := broadcastInDim S600000 ![] bcast_S_S600000 main_c_7
  let main_v22 : IVec S600000 1 := cmpi .slt main_arg1 main_v21
  let main_v23 : IVec S600000 1 := andi main_v20 main_v22
  let main_c_8 : IVec S_ 1 := constantI S_ 1 1#1
  let main_v24 : IVec S_ 1 := (fun x v => Host.reduce IntOp.andi x v reducesTo_S600000_S_d0 h_S_) main_v23 main_c_8
  let main_v25 : IVec S_ 1 := andi main_v18 main_v24
  let main_c_9 : IVec S_ 32 := constantI S_ 32 0#32
  let main_v26 : IVec S600000x3 32 := broadcastInDim S600000x3 ![] bcast_S_S600000x3 main_c_9
  let main_v27 : IVec S600000x3 1 := cmpi .sge main_arg3 main_v26
  let main_c_10 : IVec S_ 32 := constantI S_ 32 8#32
  let main_v28 : IVec S600000x3 32 := broadcastInDim S600000x3 ![] bcast_S_S600000x3 main_c_10
  let main_v29 : IVec S600000x3 1 := cmpi .slt main_arg3 main_v28
  let main_v30 : IVec S600000x3 1 := andi main_v27 main_v29
  let main_c_11 : IVec S_ 1 := constantI S_ 1 1#1
  let main_v31 : IVec S_ 1 := (fun x v => Host.reduce IntOp.andi x v reducesTo_S600000x3_S_d0_1 h_S_) main_v30 main_c_11
  let main_v32 : IVec S_ 1 := andi main_v25 main_v31
  main_v32

def fn {F : FTy → Type} [FloatOps F] (main_arg0 : FVec F S50000x128 .f32) (main_arg1 : IVec S600000 32) (main_arg2 : IVec S600000 32) (main_arg3 : IVec S600000x3 32) (main_arg4 : FVec F S3x8x128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x8x128 .f32 := Host.absf main_arg4
  let main_cst_0 : FVec F S_ .f32 := constant S_ .f32 0x7F800000#32
  let main_v5 : FVec F S3x8x128 .f32 := broadcastInDim S3x8x128 ![] bcast_S_S3x8x128 main_cst_0
  let main_v6 : IVec S3x8x128 1 := cmpf .olt main_v4 main_v5
  let main_c_1 : IVec S_ 1 := constantI S_ 1 1#1
  let main_v7 : IVec S_ 1 := (fun x v => Host.reduce IntOp.andi x v reducesTo_S3x8x128_S_d0_1_2 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg3 main_v13 main_v16
-- ==== Kernel.lean ====
abbrev S50000x128 : Shape := ⟨2, ![50000, 128]⟩
abbrev S600000 : Shape := ⟨1, ![600000]⟩
abbrev S600000x3 : Shape := ⟨2, ![600000, 3]⟩
abbrev S3x8x128 : Shape := ⟨3, ![3, 8, 128]⟩
abbrev S128x128 : Shape := ⟨2, ![128, 128]⟩
abbrev S128 : Shape := ⟨1, ![128]⟩
abbrev S_ : Shape := ⟨0, ![]⟩
abbrev S51200x128 : Shape := ⟨2, ![51200, 128]⟩
abbrev S128x51200 : Shape := ⟨2, ![128, 51200]⟩
abbrev S600064 : Shape := ⟨1, ![600064]⟩
abbrev S600064x3 : Shape := ⟨2, ![600064, 3]⟩
abbrev S1x600064 : Shape := ⟨2, ![1, 600064]⟩
abbrev S600064x1 : Shape := ⟨2, ![600064, 1]⟩
abbrev S3x600064 : Shape := ⟨2, ![3, 600064]⟩
abbrev S24x128 : Shape := ⟨2, ![24, 128]⟩
abbrev S128x24 : Shape := ⟨2, ![128, 24]⟩
abbrev S50000 : Shape := ⟨1, ![50000]⟩
abbrev S600000x1 : Shape := ⟨2, ![600000, 1]⟩
abbrev S51200 : Shape := ⟨1, ![51200]⟩
abbrev S1x51200 : Shape := ⟨2, ![1, 51200]⟩
abbrev S128x1 : Shape := ⟨2, ![128, 1]⟩
abbrev S128x600064 : Shape := ⟨2, ![128, 600064]⟩
abbrev S1x2048 : Shape := ⟨2, ![1, 2048]⟩
abbrev S3x2048 : Shape := ⟨2, ![3, 2048]⟩
abbrev S128x2048 : Shape := ⟨2, ![128, 2048]⟩
abbrev S2048x1 : Shape := ⟨2, ![2048, 1]⟩
abbrev S2048x2048 : Shape := ⟨2, ![2048, 2048]⟩
abbrev S24x2048 : Shape := ⟨2, ![24, 2048]⟩

abbrev nBuf : Space → Nat
  | .hbm => 47
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000x3, .i32⟩
  | .hbm, ⟨4, _⟩ => ⟨S3x8x128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S_, .f32⟩
  | .hbm, ⟨9, _⟩ => ⟨S51200x128, .f32⟩
  | .hbm, ⟨10, _⟩ => ⟨S128x51200, .f32⟩
  | .hbm, ⟨11, _⟩ => ⟨S128x51200, .bf16⟩
  | .hbm, ⟨12, _⟩ => ⟨S_, .i32⟩
  | .hbm, ⟨13, _⟩ => ⟨S_, .i32⟩
  | .hbm, ⟨14, _⟩ => ⟨S600064, .i32⟩
  | .hbm, ⟨15, _⟩ => ⟨S_, .i32⟩
  | .hbm, ⟨16, _⟩ => ⟨S_, .i32⟩
  | .hbm, ⟨17, _⟩ => ⟨S600064, .i32⟩
  | .hbm, ⟨18, _⟩ => ⟨S_, .i32⟩
  | .hbm, ⟨19, _⟩ => ⟨S_, .i32⟩
  | .hbm, ⟨20, _⟩ => ⟨S600064x3, .i32⟩
  | .hbm, ⟨21, _⟩ => ⟨S1x600064, .i32⟩
  | .hbm, ⟨22, _⟩ => ⟨S600064x1, .i32⟩
  | .hbm, ⟨23, _⟩ => ⟨S3x600064, .i32⟩
  | .hbm, ⟨24, _⟩ => ⟨S24x128, .f32⟩
  | .hbm, ⟨25, _⟩ => ⟨S128x24, .f32⟩
  | .hbm, ⟨26, _⟩ => ⟨S128x24, .bf16⟩
  | .hbm, ⟨27, _⟩ => ⟨S_, .f32⟩
  | .hbm, ⟨28, _⟩ => ⟨S600000, .f32⟩
  | .hbm, ⟨29, _⟩ => ⟨S_, .f32⟩
  | .hbm, ⟨30, _⟩ => ⟨S50000, .f32⟩
  | .hbm, ⟨31, _⟩ => ⟨S600000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .f32⟩
  | .hbm, ⟨37, _⟩ => ⟨S_, .f32⟩
  | .hbm, ⟨38, _⟩ => ⟨S51200, .f32⟩
  | .hbm, ⟨39, _⟩ => ⟨S1x51200, .f32⟩
  | .hbm, ⟨40, _⟩ => ⟨S128x128, .f32⟩
  | .hbm, ⟨41, _⟩ => ⟨S128x128, .bf16⟩
  | .hbm, ⟨42, _⟩ => ⟨S128x1, .f32⟩
  | .hbm, ⟨43, _⟩ => ⟨S128x600064, .bf16⟩
  | .hbm, ⟨44, _⟩ => ⟨S128x51200, .f32⟩
  | .hbm, ⟨45, _⟩ => ⟨S51200x128, .f32⟩
  | .hbm, ⟨46, _⟩ => ⟨S50000x128, .f32⟩
  | .local _ .vmem, ⟨0, _⟩ => ⟨S1x2048, .i32⟩
  | .local _ .vmem, ⟨1, _⟩ => ⟨S1x2048, .i32⟩
  | .local _ .vmem, ⟨2, _⟩ => ⟨S3x2048, .i32⟩
  | .local _ .vmem, ⟨3, _⟩ => ⟨S3x2048, .i32⟩
  | .local _ .vmem, ⟨4, _⟩ => ⟨S128x24, .bf16⟩
  | .local _ .vmem, ⟨5, _⟩ => ⟨S128x51200, .bf16⟩
  | .local _ .vmem, ⟨6, _⟩ => ⟨S128x2048, .bf16⟩
  | .local _ .vmem, ⟨7, _⟩ => ⟨S128x2048, .bf16⟩
  | .local _ .vmem, ⟨8, _⟩ => ⟨S128x2048, .f32⟩
  | .local _ .vmem, ⟨9, _⟩ => ⟨S2048x1, .i32⟩
  | .local _ .vmem, ⟨10, _⟩ => ⟨S2048x1, .i32⟩
  | .local _ .vmem, ⟨11, _⟩ => ⟨S128x2048, .bf16⟩
  | .local _ .vmem, ⟨12, _⟩ => ⟨S128x2048, .bf16⟩
  | .local _ .vmem, ⟨13, _⟩ => ⟨S128x2048, .f32⟩
  | .local _ .vmem, ⟨14, _⟩ => ⟨S128x2048, .f32⟩
  | .local _ .vmem, ⟨15, _⟩ => ⟨S1x2048, .f32⟩
  | .local _ .vmem, ⟨16, _⟩ => ⟨S1x2048, .f32⟩
  | .local _ .vmem, ⟨17, _⟩ => ⟨S128x128, .bf16⟩
  | .local _ .vmem, ⟨18, _⟩ => ⟨S128x1, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_c_1 : Ref sig .tc := ⟨.hbm, 15, rfl⟩
abbrev main_call2_v0 : Ref sig .tc := ⟨.hbm, 16, rfl⟩
abbrev main_v4 : Ref sig .tc := ⟨.hbm, 17, rfl⟩
abbrev main_c_2 : Ref sig .tc := ⟨.hbm, 18, rfl⟩
abbrev main_call3_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_v17 : Ref sig .tc := ⟨.hbm, 35, rfl⟩
abbrev main_cst_5 : Ref sig .tc := ⟨.hbm, 36, rfl⟩
abbrev main_call4_v0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨2, ![293, 25], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let c0_2 : Index := 0#32
  let arg1 : BitVec 32 := BitVec.ofNat 32 (i 1).val
  let c2048_i32 : BitVec 32 := 2048#32
  let v3 : BitVec 32 := Scalar.muli arg1 c2048_i32
  let v15 : BitVec 32 := v3
  let v16 : Index := Scalar.indexCast v15
  ![0, v16.toNat]
def k0_cond2 (i : grid0.Coords) : BitVec 1 :=
  let arg1 : BitVec 32 := BitVec.ofNat 32 (i 1).val
  let c24_i32 : BitVec 32 := 24#32
  let v25 : BitVec 1 := Scalar.cmpi .eq arg1 c24_i32
  let v26 : BitVec 32 := Scalar.extui v25
  let c0_i32_7 : BitVec 32 := 0#32
  let v27 : BitVec 1 := Scalar.cmpi .ne v26 c0_i32_7
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x24 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x51200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![25, 293], ![false, false]⟩

def k1_cond2 (i : grid1.Coords) : BitVec 1 :=
  let arg1 : BitVec 32 := BitVec.ofNat 32 (i 1).val
  let c292_i32 : BitVec 32 := 292#32
  let v34 : BitVec 1 := Scalar.cmpi .eq arg1 c292_i32
  let v35 : BitVec 32 := Scalar.extui v34
  let c0_i32_9 : BitVec 32 := 0#32
  let v36 : BitVec 1 := Scalar.cmpi .ne v35 c0_i32_9
  v36

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S2048x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S128x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  pads_S50000x128_S51200x128_012000_000 : S50000x128.Pads (![0, 0] : Fin 2 → Nat) ![1200, 0] ![0, 0] S51200x128
  h_S_ : 0 < S_.numel
  transposes_S51200x128_S128x51200_1_0 : S51200x128.Transposes [1, 0] S128x51200
  bitsLt_bf16_f32 : FTy.bits .bf16 < FTy.bits .f32
  pads_S600000_S600064_0640 : S600000.Pads (![0] : Fin 1 → Nat) ![64] ![0] S600064
  pads_S600000x3_S600064x3_0640_000 : S600000x3.Pads (![0, 0] : Fin 2 → Nat) ![64, 0] ![0, 0] S600064x3
  shapeCasts_S600064_S1x600064 : S600064.ShapeCasts S1x600064
  shapeCasts_S600064_S600064x1 : S600064.ShapeCasts S600064x1
  transposes_S600064x3_S3x600064_1_0 : S600064x3.Transposes [1, 0] S3x600064
  shapeCasts_S3x8x128_S24x128 : S3x8x128.ShapeCasts S24x128
  transposes_S24x128_S128x24_1_0 : S24x128.Transposes [1, 0] S128x24
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  pads_S50000_S51200_012000 : S50000.Pads (![0] : Fin 1 → Nat) ![1200] ![0] S51200
  shapeCasts_S51200_S1x51200 : S51200.ShapeCasts S1x51200
  transposes_S128x128_S128x128_1_0 : S128x128.Transposes [1, 0] S128x128
  shapeCasts_S128_S128x1 : S128.ShapeCasts S128x1
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  iota_S2048x1_d0_w32 : S2048x1.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2048x1_S2048x2048 : S2048x1.Broadcasts S2048x2048
  broadcasts_S1x2048_S2048x2048 : S1x2048.Broadcasts S2048x2048
  natLt_1_32 : 1 < 32
  inb_S3x2048_S3x2048_0_0 : ∀ a, (![0, 0] : Fin 2 → Nat) a + S3x2048.size a ≤ S3x2048.size a
  h_S3x2048 : 0 < S3x2048.numel
  shapeCasts_S3x2048_S3x2048 : S3x2048.ShapeCasts S3x2048
  iota_S24x2048_d0_w32 : S24x2048.Iotas .tc 32 [0]
  slices_S3x2048_o0_0_S1x2048 : S3x2048.Slices ![0, 0] S1x2048
  broadcasts_S1x2048_S24x2048 : S1x2048.Broadcasts S24x2048
  slices_S3x2048_o1_0_S1x2048 : S3x2048.Slices ![1, 0] S1x2048
  slices_S3x2048_o2_0_S1x2048 : S3x2048.Slices ![2, 0] S1x2048
  inb_S128x24_S128x24_0_0 : ∀ a, (![0, 0] : Fin 2 → Nat) a + S128x24.size a ≤ S128x24.size a
  h_S128x24 : 0 < S128x24.numel
  shapeCasts_S128x24_S128x24 : S128x24.ShapeCasts S128x24
  packedbf16_S128x2048_S128x2048_0_0 : (Rect.unit (s := S128x2048) ![0, 0] S128x2048.size inb_S128x2048_S128x2048_0_0).PackedRows (EltTy.packing .bf16)
  iota_S1x2048_d1_w32 : S1x2048.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S1x2048_S128x2048 : S1x2048.Broadcasts S128x2048
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x2048 : S128x1.Broadcasts S128x2048
  transposes_S128x51200_S51200x128_1_0 : S128x51200.Transposes [1, 0] S51200x128
  slices_S51200x128_S50000x128_0_0 : S51200x128.Slices ![0, 0] S50000x128
  scatter_S50000_S600000x1_S600000_n_0_0_1_wf : ScatterDims.WF S50000 S600000x1 S600000 [] [0] [0] 1
  dot_S128x2048_S2048x2048_S128x2048_1_0_0_1_n_n_wf : DotDims.WF S128x2048 S2048x2048 S128x2048 [1] [0] [0] [1] [] []
  dot_S128x24_S24x2048_S128x2048_1_0_0_1_n_n_wf : DotDims.WF S128x24 S24x2048 S128x2048 [1] [0] [0] [1] [] []
  dot_S128x128_S128x2048_S128x2048_1_0_0_1_n_n_wf : DotDims.WF S128x128 S128x2048 S128x2048 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S128x2048.size a ≤ S128x51200.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x600064.size a
  hwx0_0 : ∀ i : grid0.Coords, EltTy.bits .i32 = 32 ∨ (Rect.block (s := S1x600064) S1x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x2048.size a ≤ S3x600064.size a
  hwx0_1 : ∀ i : grid0.Coords, EltTy.bits .i32 = 32 ∨ (Rect.block (s := S3x600064) S3x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x24.size a ≤ S128x24.size a
  hwx0_2 : ∀ i : grid0.Coords, EltTy.bits .bf16 = 32 ∨ (Rect.block (s := S128x24) S128x24.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x51200.size a ≤ S128x51200.size a
  hwx0_3 : ∀ i : grid0.Coords, EltTy.bits .bf16 = 32 ∨ (Rect.block (s := S128x51200) S128x51200.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x2048.size a ≤ S128x600064.size a
  hwx0_4 : ∀ i : grid0.Coords, EltTy.bits .bf16 = 32 ∨ (Rect.block (s := S128x600064) S128x2048.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1.size a ≤ S600064x1.size a
  hwx1_0 : ∀ i : grid1.Coords, EltTy.bits .i32 = 32 ∨ (Rect.block (s := S600064x1) S2048x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x2048.size a ≤ S128x600064.size a
  hwx1_1 : ∀ i : grid1.Coords, EltTy.bits .bf16 = 32 ∨ (Rect.block (s := S128x600064) S128x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x2048.size a ≤ S128x51200.size a
  hwx1_2 : ∀ i : grid1.Coords, EltTy.bits .f32 = 32 ∨ (Rect.block (s := S128x51200) S128x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x51200.size a
  hwx1_3 : ∀ i : grid1.Coords, EltTy.bits .f32 = 32 ∨ (Rect.block (s := S1x51200) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x1.size a ≤ S128x1.size a
  hwx1_5 : ∀ i : grid1.Coords, EltTy.bits .f32 = 32 ∨ (Rect.block (s := S128x1) S128x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x2048.size a ≤ S128x51200.size a
  hwx1_6 : ∀ i : grid1.Coords, EltTy.bits .f32 = 32 ∨ (Rect.block (s := S128x51200) S128x2048.size (cc1_transform_6 i) (hinb1_6 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf
def dot_S128x24_S24x2048_S128x2048_1_0_0_1_n_n : DotDims S128x24 S24x2048 S128x2048 where
  lhsContracting := [1]
  rhsContracting := [0]
  lhsNonContracting := [0]
  rhsNonContracting := [1]
  lhsBatch := []
  rhsBatch := []
  wf := dot_S128x24_S24x2048_S128x2048_1_0_0_1_n_n_wf
def dot_S128x128_S128x2048_S128x2048_1_0_0_1_n_n : DotDims S128x128 S128x2048 S128x2048 where
  lhsContracting := [1]
  rhsContracting := [0]
  lhsNonContracting := [0]
  rhsNonContracting := [1]
  lhsBatch := []
  rhsBatch := []
  wf := dot_S128x128_S128x2048_S128x2048_1_0_0_1_n_n_wf

abbrev win0_0 : Pipeline.Window sig grid0 :=
  Pipeline.Window.ofSpec (Memref.whole main_v6) S1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x51200.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S128x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v7) S2048x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S128x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S128x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S128x2048.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S50000x128 : Shape := ⟨2, ![50000, 128]⟩
abbrev S600000 : Shape := ⟨1, ![600000]⟩
abbrev S600000x3 : Shape := ⟨2, ![600000, 3]⟩
abbrev S3x8x128 : Shape := ⟨3, ![3, 8, 128]⟩
abbrev S128x128 : Shape := ⟨2, ![128, 128]⟩
abbrev S128 : Shape := ⟨1, ![128]⟩
abbrev S3 : Shape := ⟨1, ![3]⟩
abbrev S1x3 : Shape := ⟨2, ![1, 3]⟩
abbrev S_ : Shape := ⟨0, ![]⟩
abbrev S600000x3x1 : Shape := ⟨3, ![600000, 3, 1]⟩
abbrev S600000x3x2 : Shape := ⟨3, ![600000, 3, 2]⟩
abbrev S600000x3x128 : Shape := ⟨3, ![600000, 3, 128]⟩
abbrev S600000x128 : Shape := ⟨2, ![600000, 128]⟩
abbrev S600000x1 : Shape := ⟨2, ![600000, 1]⟩
abbrev S50000 : Shape := ⟨1, ![50000]⟩
abbrev S50000x1 : Shape := ⟨2, ![50000, 1]⟩
abbrev S1x128 : Shape := ⟨2, ![1, 128]⟩

abbrev nBuf : Space → Nat
  | .hbm => 61
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000x3, .i32⟩
  | .hbm, ⟨4, _⟩ => ⟨S3x8x128, .f32⟩
  | .hbm, ⟨5, _⟩ => ⟨S128x128, .f32⟩
  | .hbm, ⟨6, _⟩ => ⟨S128, .f32⟩
  | .hbm, ⟨7, _⟩ => ⟨S3, .i32⟩
  | .hbm, ⟨8, _⟩ => ⟨S1x3, .i32⟩
  | .hbm, ⟨9, _⟩ => ⟨S_, .i32⟩
  | .hbm, ⟨10, _⟩ => ⟨S1x3, .i32⟩
  | .hbm, ⟨11, _⟩ => ⟨S1x3, .i1⟩
  | .hbm, ⟨12, _⟩ => ⟨S_, .i32⟩
  | .hbm, ⟨13, _⟩ => ⟨S1x3, .i32⟩
  | .hbm, ⟨14, _⟩ => ⟨S1x3, .i32⟩
  | .hbm, ⟨15, _⟩ => ⟨S1x3, .i32⟩
  | .hbm, ⟨16, _⟩ => ⟨S_, .i32⟩
  | .hbm, ⟨17, _⟩ => ⟨S600000x3, .i32⟩
  | .hbm, ⟨18, _⟩ => ⟨S600000x3, .i1⟩
  | .hbm, ⟨19, _⟩ => ⟨S_, .i32⟩
  | .hbm, ⟨20, _⟩ => ⟨S600000x3, .i32⟩
  | .hbm, ⟨21, _⟩ => ⟨S600000x3, .i32⟩
  | .hbm, ⟨22, _⟩ => ⟨S600000x3, .i32⟩
  | .hbm, ⟨23, _⟩ => ⟨S600000x3, .i32⟩
  | .hbm, ⟨24, _⟩ => ⟨S600000x3x1, .i32⟩
  | .hbm, ⟨25, _⟩ => ⟨S600000x3x1, .i32⟩
  | .hbm, ⟨26, _⟩ => ⟨S600000x3x2, .i32⟩
  | .hbm, ⟨27, _⟩ => ⟨S600000x3x128, .f32⟩
  | .hbm, ⟨28, _⟩ => ⟨S_, .f32⟩
  | .hbm, ⟨29, _⟩ => ⟨S600000x128, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S600000x128, .f32⟩
  | .hbm, ⟨40, _⟩ => ⟨S_, .f32⟩
  | .hbm, ⟨41, _⟩ => ⟨S50000x128, .f32⟩
  | .hbm, ⟨42, _⟩ => ⟨S600000x1, .i32⟩
  | .hbm, ⟨43, _⟩ => ⟨S50000x128, .f32⟩
  | .hbm, ⟨44, _⟩ => ⟨S_, .f32⟩
  | .hbm, ⟨45, _⟩ => ⟨S600000, .f32⟩
  | .hbm, ⟨46, _⟩ => ⟨S_, .f32⟩
  | .hbm, ⟨47, _⟩ => ⟨S50000, .f32⟩
  | .hbm, ⟨48, _⟩ => ⟨S600000x1, .i32⟩
  | .hbm, ⟨49, _⟩ => ⟨S50000, .f32⟩
  | .hbm, ⟨50, _⟩ => ⟨S_, .f32⟩
  | .hbm, ⟨51, _⟩ => ⟨S50000, .f32⟩
  | .hbm, ⟨52, _⟩ => ⟨S50000, .f32⟩
  | .hbm, ⟨53, _⟩ => ⟨S50000x128, .f32⟩
  | .hbm, ⟨54, _⟩ => ⟨S50000x1, .f32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]

class Facts₀ : Prop where
  bcast_S3_S1x3_1 : S3.BroadcastsInDim S1x3 (![1] : Fin 1 → Fin S1x3.rank)
  bcast_S_S1x3 : S_.BroadcastsInDim S1x3 (![] : Fin 0 → Fin S1x3.rank)
  bcast_S_S600000x3 : S_.BroadcastsInDim S600000x3 (![] : Fin 0 → Fin S600000x3.rank)
  bcast_S1x3_S600000x3_0_1 : S1x3.BroadcastsInDim S600000x3 (![0, 1] : Fin 2 → Fin S600000x3.rank)
  bcast_S600000x3_S600000x3x1_0_1 : S600000x3.BroadcastsInDim S600000x3x1 (![0, 1] : Fin 2 → Fin S600000x3x1.rank)
  concatenates_S600000x3x1_S600000x3x1_S600000x3x2_d2 : Shape.Concatenates [S600000x3x1, S600000x3x1] S600000x3x2 2
  reducesTo_S600000x3x128_S600000x128_d1 : S600000x3x128.ReducesTo [1] S600000x128
  h_S_ : 0 < S_.numel
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S3x8x128_S600000x3x2_S600000x3x128_2_01_n_n_01_2_11128_wf : GatherDims.WF S3x8x128 S600000x3x2 S600000x3x128 [2] [0, 1] [] [0, 1] [] 2 ![1, 1, 128]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []

variable [Facts₀]

def gather_S3x8x128_S600000x3x2_S600000x3x128_2_01_n_n_01_2_11128 : GatherDims S3x8x128 S600000x3x2 S600000x3x128 where
  offsetDims := [2]
  collapsedSliceDims := [0, 1]
  operandBatchingDims := []
  startIndicesBatchingDims := []
  startIndexMap := [0, 1]
  indexVectorDim := 2
  sliceSizes := ![1, 1, 128]
  wf := gather_S3x8x128_S600000x3x2_S600000x3x128_2_01_n_n_01_2_11128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KI.R0Defs.lean ====
/-
  The gather launch (the program's first pallas_call), as pure data: the blocks its windows read, the running
  partial product it keeps in its scratch accumulator, the block it writes back, and the proof data of its pipeline.

  Grid point t = 25·e + k handles edge tile e and node tile k.  The accumulator after point t holds
  Σ_{k' ≤ k} N[:, tile k'] · onehot(tile k', src tile e): it is reset to zero at k = 0 and receives one product per point.
  At k = 24 the edge-embedding product is added and the sum is written to the output block of tile e.
-/
import proofs.«413313_j22084721836888_2_alg».proof.Proof.Gen.KernelIdeal.Launch
import proofs.«413313_j22084721836888_2_alg».proof.Proof.Gen.KernelIdeal.Skeleton
import proofs.«413313_j22084721836888_2_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's unscoped buffers when the launch is entered
variable (V : (c : Dev nD) → (b : Ref sig .tc) → Buf (Elt F) ((c : Thread nD τ).loc b))

/-- Window `w`'s block at grid point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 2048 node columns of the resident feature table multiplied at grid point `i`. -/
abbrev ncols0 (i : grid0.Coords) : Rect S128x51200 := Rect.unit (s := S128x51200) (k0_off1 i) S128x2048.size (k0_off1_inb i)

/-- One accumulation step at point `t`: the accumulator `acc` plus the product of the node tile with the one-hot
    comparison of node ids against the source ids of the edge tile. -/
def step0 (c : Dev nD) (t : Fin cfg0.N) (acc : Vec F S128x2048 .f32) : Vec F S128x2048 .f32 :=
  k0_pay2 (grid0.coords t) (iblk0 V c 0 t) (View.ld (iblk0 V c 3 t) (ncols0 (grid0.coords t))) acc

/-- The scratch accumulator after grid point `n`: restarted from zero at the first node tile of each edge tile. -/
def acc0 (c : Dev nD) : (n : ℕ) → n < cfg0.N → Vec F S128x2048 .f32
  | 0, h => step0 V c ⟨0, h⟩ (k0_pay1 (F := F))
  | n + 1, h =>
    if (n + 1) % 25 = 0 then step0 V c ⟨n + 1, h⟩ (k0_pay1 (F := F))
    else step0 V c ⟨n + 1, h⟩ (acc0 c n (Nat.lt_of_succ_lt h))

/-- The block the body stores into the output window at point `t` (it does so at the last node tile only): the
    accumulator plus the edge-embedding product. -/
def out0 (c : Dev nD) (t : Fin cfg0.N) : Vec F S128x2048 .bf16 :=
  k0_pay3 (iblk0 V c 1 t) (iblk0 V c 2 t) (acc0 V c t.val t.isLt)

/-- The scratch operand as a memref. -/
abbrev scM0 : Memref sig .tc .vmem S128x2048 .f32 := Memref.whole cc0_scratch0

/-- The scoped buffers of the core that this launch neither stages nor uses (the second launch's), at any contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- The invariant between points: before the first point nothing is known of the scratch; after point `n` it holds
    `acc0 n`. The other scoped buffers and the generator register ride along. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ rest0 (F := F) c ∗ (∃ r, prngReg c r))

/-- The proof data of the gather pipeline: arrays as found; every input window's buffer keeps its block; the output
    window's buffer is left at `out0`; the invariant tracks the accumulator; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]

end Cert.KernelIdeal.Hand

end
-- ==== Proof.KI.R1Defs.lean ====
/-
  The scatter-and-project launch (the program's second pallas_call), as pure data: the blocks its windows read, the
  running segment sum it keeps in its scratch accumulator, the block it writes back, and its pipeline's proof data.

  Grid point t = 293·n + k handles node tile n and edge tile k.  The accumulator after point t holds
  Σ_{k' ≤ k} M[:, tile k'] · (onehot(dst tile k', node tile n) · valid(tile k')): reset to zero at k = 0, one product per
  point.  At k = 292 the sum is added to the node features, divided by the degrees, projected and biased, and
  written to the output block of node tile n.
-/
import proofs.«413313_j22084721836888_2_alg».proof.Proof.Gen.KernelIdeal.Launch
import proofs.«413313_j22084721836888_2_alg».proof.Proof.Gen.KernelIdeal.Skeleton
import proofs.«413313_j22084721836888_2_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's unscoped buffers when the launch is entered
variable (V : (c : Dev nD) → (b : Ref sig .tc) → Buf (Elt F) ((c : Thread nD τ).loc b))

/-- Window `w`'s block at grid point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One accumulation step at point `t`: the accumulator plus the product of the message tile with the masked
    one-hot comparison of destination ids against node ids. -/
def step1 (c : Dev nD) (t : Fin cfg1.N) (acc : Vec F S128x2048 .f32) : Vec F S128x2048 .f32 :=
  k1_pay2 (grid1.coords t) (iblk1 V c 0 t) (iblk1 V c 1 t) acc

/-- The scratch accumulator after grid point `n`: restarted from zero at the first edge tile of each node tile. -/
def acc1 (c : Dev nD) : (n : ℕ) → n < cfg1.N → Vec F S128x2048 .f32
  | 0, h => step1 V c ⟨0, h⟩ (k1_pay1 (F := F))
  | n + 1, h =>
    if (n + 1) % 293 = 0 then step1 V c ⟨n + 1, h⟩ (k1_pay1 (F := F))
    else step1 V c ⟨n + 1, h⟩ (acc1 c n (Nat.lt_of_succ_lt h))

/-- The block the body stores into the output window at point `t` (at the last edge tile only): node features plus
    the segment sum, over the degrees, projected by the weights, plus the bias. -/
def out1 (c : Dev nD) (t : Fin cfg1.N) : Vec F S128x2048 .f32 :=
  k1_pay3 (iblk1 V c 2 t) (acc1 V c t.val t.isLt) (iblk1 V c 3 t) (iblk1 V c 4 t) (iblk1 V c 5 t)

/-- The scratch operand as a memref. -/
abbrev scM1 : Memref sig .tc .vmem S128x2048 .f32 := Memref.whole cc1_scratch0

/-- The scoped buffers of the core that this launch neither stages nor uses (the first launch's), at any contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The invariant between points: before the first point nothing is known of the scratch; after point `n` it holds
    `acc1 n`. The other scoped buffers and the generator register ride along. -/
def PhiS1 (c : Dev nD) : (n : ℕ) → n ≤ cfg1.N → sProp 𝕄
  | 0, _ => Pipeline.ΦA spec1 c
  | n + 1, hn => iprop(owns (c : Thread nD τ) scM1 fullShare (acc1 V c n hn) ∗ rest1 (F := F) c ∗ (∃ r, prngReg c r))

/-- The proof data of the scatter pipeline: arrays as found; every input window's buffer keeps its block; the output
    window's buffer is left at `out1`; the invariant tracks the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1 V c t := by dsimp only [dat1]

end Cert.KernelIdeal.Hand

end
-- ==== Proof.KI.Vals.lean ====
/-
  The contents of the core's buffers around the two launches, as a chain: what the host operations before the
  first launch leave, then the message matrix the first launch writes, then the output the second launch writes,
  then the host operations after it (a transpose and a slice).
-/
import proofs.«413313_j22084721836888_2_alg».proof.Proof.Gen.KernelIdeal.Regions
import proofs.«413313_j22084721836888_2_alg».proof.Proof.KI.R0Defs
import proofs.«413313_j22084721836888_2_alg».proof.Proof.KI.R1Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- The buffers as the first launch finds them: the launch memory after the eleven host stretches before it. -/
abbrev E0 : (c : Dev nD) → (b : Ref sig .tc) → Buf (Elt F) ((c : Thread nD τ).loc b) := fun c b => Gen.V11 m c b

/-- The message matrix the first launch leaves in its output array. -/
def mTarr (c : Dev nD) : Buf (Elt F) ((c : Thread nD τ).loc main_v23) := (dat0 (E0 m) c).arrAt 4 cfg0.N

/-- The buffers after the first launch. -/
abbrev W12 (c : Dev nD) : Valuation τ sig (Elt F) := Function.update (Gen.V11 m c) main_v23 (mTarr m c)

/-- The buffers as the second launch finds them. -/
abbrev E1 : (c : Dev nD) → (b : Ref sig .tc) → Buf (Elt F) ((c : Thread nD τ).loc b) := fun c b => W12 m c b

/-- The transposed output the second launch leaves in its output array. -/
def oTarr (c : Dev nD) : Buf (Elt F) ((c : Thread nD τ).loc main_v24) := (dat1 (E1 m) c).arrAt 6 cfg1.N

/-- The buffers after the second launch. -/
abbrev W13 (c : Dev nD) : Valuation τ sig (Elt F) := Function.update (W12 m c) main_v24 (oTarr m c)

/-- The buffers at the end of the program: after the transpose and the slice. -/
abbrev W14 (c : Dev nD) : Valuation τ sig (Elt F) := StableHlo.after hostOps2 (W13 m c)

end Cert.KernelIdeal.Hand

end
-- ==== Proof.Spec.lean ====
/-
  The mathematics of the layer, stated once over plain index functions (no program is imported here).

  A graph-convolution layer: every edge e carries the message  msg e = x[src e] + Σ_col emb[col, idx[e, col]];  node n
  receives the sum of the messages of the edges whose destination is n;  the layer returns, row by row,
  ((x[n] + received n) / deg n) · W + b.

  The kernel computes the same thing feature-major, with one-hot products in place of gathers and scatters:
  * `msgT`   — the message matrix, transposed: for feature d and edge e, Σ over ALL node ids of x[node, d]·[node = src e],
                plus Σ over the 24 table rows of table[d, row]·([row = idx₀ e] + [row = 8 + idx₁ e] + [row = 16 + idx₂ e]);
  * `aggT`   — the received sums, transposed: Σ over ALL (padded) edges of msgT[d, e]·([dst e = n]·[e is a real edge]);
  * `outT`   — the layer's output, transposed.
  `layer` is the reference's reading of the same layer.
-/
import Idealize.ShloMosaic.PureOps.Ideal
import Idealize.ShloMosaic.Lib.ValueIdx

noncomputable section

open scoped BigOperators

namespace Cert.Spec

open Idealize.ShloMosaic Idealize.ShloMosaic.ValueIdx

/-- The rank-2 shape a × b. -/
abbrev Sh2 (a b : Nat) : Shape := ⟨2, ![a, b]⟩
/-- The rank-1 shape of length a. -/
abbrev Sh1 (a : Nat) : Shape := ⟨1, ![a]⟩
/-- The rank-3 shape a × b × c. -/
abbrev Sh3 (a b c : Nat) : Shape := ⟨3, ![a, b, c]⟩

/-- The indicator of equality of two words, as an extended real. -/
def oh (a b : BitVec 32) : EReal := if a = b then 1 else 0

/-- The indicator of a proposition, as an extended real. -/
def ind (p : Prop) [Decidable p] : EReal := if p then 1 else 0

/-- Node id 2048·k + r of node tile k. -/
def nodeIx (k : Fin 25) (r : Fin 2048) : Fin 51200 := ⟨2048 * k.val + r.val, by omega⟩
/-- Edge id 2048·k + r of edge tile k. -/
def edgeIx (k : Fin 293) (r : Fin 2048) : Fin 600064 := ⟨2048 * k.val + r.val, by omega⟩

/-- The transposed message matrix as the one-hot products compute it (padded to 600064 edges, 51200 nodes). -/
def msgT (srcRow : (Sh2 1 600064).Idx → BitVec 32) (idxT : (Sh2 3 600064).Idx → BitVec 32)
    (tabT : (Sh2 128 24).Idx → EReal) (nfT : (Sh2 128 51200).Idx → EReal) (d : Fin 128) (e : Fin 600064) : EReal :=
  (∑ k : Fin 25, ∑ r : Fin 2048,
      nfT (ix2 d (nodeIx k r)) * oh (BitVec.ofNat 32 (nodeIx k r).val) (srcRow (ix2 (0 : Fin 1) e)))
    + ∑ r : Fin 24, tabT (ix2 d r)
        * (oh (BitVec.ofNat 32 r.val) (idxT (ix2 (0 : Fin 3) e))
            + oh (BitVec.ofNat 32 r.val) (8#32 + idxT (ix2 (1 : Fin 3) e))
            + oh (BitVec.ofNat 32 r.val) (16#32 + idxT (ix2 (2 : Fin 3) e)))

/-- The transposed received sums as the masked one-hot products compute them. -/
def aggT (dstCol : (Sh2 600064 1).Idx → BitVec 32) (mT : (Sh2 128 600064).Idx → EReal) (d : Fin 128) (n : Fin 51200) : EReal :=
  ∑ k : Fin 293, ∑ r : Fin 2048,
    mT (ix2 d (edgeIx k r))
      * (oh (dstCol (ix2 (edgeIx k r) (0 : Fin 1))) (BitVec.ofNat 32 n.val) * ind ((edgeIx k r).val < 600000))

/-- The transposed output block: (x + received) / degree, projected by the transposed weights, plus the bias column. -/
def outT (dstCol : (Sh2 600064 1).Idx → BitVec 32) (mT : (Sh2 128 600064).Idx → EReal)
    (nfT : (Sh2 128 51200).Idx → EReal) (degRow : (Sh2 1 51200).Idx → EReal)
    (wT : (Sh2 128 128).Idx → EReal) (bCol : (Sh2 128 1).Idx → EReal) (d' : Fin 128) (n : Fin 51200) : EReal :=
  (∑ d : Fin 128, wT (ix2 d' d) * Ideal.div (nfT (ix2 d n) + aggT dstCol mT d n) (degRow (ix2 (0 : Fin 1) n)))
    + bCol (ix2 d' (0 : Fin 1))

/-- The source node of edge e as an index (node 0 if the word is out of range; the precondition excludes that). -/
def srcIx (src : (Sh1 600000).Idx → BitVec 32) (e : Fin 600000) : Fin 50000 :=
  if h : (src (ix1 e)).toNat < 50000 then ⟨_, h⟩ else ⟨0, by omega⟩
/-- The vocabulary entry of column col of edge e as an index (entry 0 if out of range; excluded by the precondition). -/
def vocIx (idx : (Sh2 600000 3).Idx → BitVec 32) (e : Fin 600000) (col : Fin 3) : Fin 8 :=
  if h : (idx (ix2 e col)).toNat < 8 then ⟨_, h⟩ else ⟨0, by omega⟩

/-- The message of edge e at feature d. -/
def msg (x : (Sh2 50000 128).Idx → EReal) (src : (Sh1 600000).Idx → BitVec 32) (idx : (Sh2 600000 3).Idx → BitVec 32)
    (emb : (Sh3 3 8 128).Idx → EReal) (e : Fin 600000) (d : Fin 128) : EReal :=
  x (ix2 (srcIx src e) d) + ∑ col : Fin 3, emb (ix3 col (vocIx idx e col) d)

/-- The degree normaliser of node n: one plus the number of edges whose destination is n. -/
def degOf (dst : (Sh1 600000).Idx → BitVec 32) (n : Fin 50000) : EReal :=
  (∑ e : Fin 600000, ind (dst (ix1 e) = BitVec.ofNat 32 n.val)) + 1

/-- The layer, row n and output feature d'. `deg` is the degree vector (computed the same way by both programs). -/
def layer (x : (Sh2 50000 128).Idx → EReal) (src dst : (Sh1 600000).Idx → BitVec 32)
    (idx : (Sh2 600000 3).Idx → BitVec 32) (emb : (Sh3 3 8 128).Idx → EReal) (W : (Sh2 128 128).Idx → EReal)
    (b : (Sh1 128).Idx → EReal) (deg : Fin 50000 → EReal) (n : Fin 50000) (d' : Fin 128) : EReal :=
  (∑ d : Fin 128,
      Ideal.div (x (ix2 n d) + ∑ e : Fin 600000, ind (dst (ix1 e) = BitVec.ofNat 32 n.val) * msg x src idx emb e d)
          (deg n)
        * W (ix2 d d'))
    + b (ix1 d')

end Cert.Spec

end
-- ==== Proof.KI.Host.lean ====
/-
  What the host operations around the two launches compute, read at an index: before the first launch the pads with
  zero, the reshapes and the transposes of the arguments, and the degree count (ones added up by destination id, plus
  one, padded with one); after the second launch a transpose and a slice.  Floats are extended reals here, and a change
  of float format is the identity.
-/
import proofs.«413313_j22084721836888_2_alg».proof.Proof.KI.Vals
import proofs.«413313_j22084721836888_2_alg».proof.Proof.Spec
import Idealize.ShloMosaic.Lib.StableHlo.Run
import Idealize.ShloMosaic.Lib.Pipeline.Value
import Idealize.ShloMosaic.Lib.ValueIdx
import Idealize.ShloMosaic.Lib.ValueIdxRank1
import Idealize.ShloMosaic.Lib.ValueLayout
import Idealize.ShloMosaic.Lib.KernelVsHost
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)
open Cert.Spec Idealize.ShloMosaic.ValueIdx
open scoped BigOperators

variable (m : (ℓ : Loc nD τ sig) → Buf (Elt Ideal) ℓ) (c : Dev nD)

/-! ## Padding read at an index -/

section Generic
variable {α : Type}

/-- A vector padded at its high end reads, at entry `j`, the operand's entry `j` when there is one and the padding value past it. -/
theorem pad1_apply {n M k : Nat} (x : (⟨1, ![n]⟩ : Shape).Idx → α) {u : Shape} (v : u.Idx → α)
    (h : (⟨1, ![n]⟩ : Shape).Pads (![0] : Fin 1 → Nat) ![k] ![0] ⟨1, ![M]⟩) (hu : 0 < u.numel) (j : Fin M) :
    pad ⟨1, ![M]⟩ ![0] ![k] ![0] x v h hu (ix1 j)
      = if hj : j.val < n then x (ix1 ⟨j.val, hj⟩) else v (Shape.Idx.first hu) := by
  by_cases hj : j.val < n
  · rw [dif_pos hj]
    exact pad_apply_of_inside _ _ _ x v h hu _ (ix1 (⟨j.val, hj⟩ : Fin n)) (by
      intro a
      have ha : a = 0 := Subsingleton.elim _ _
      subst ha
      show j.val = 0 + j.val * (0 + 1); omega)
  · rw [dif_neg hj]
    exact pad_apply_of_not_inside _ _ _ x v h hu _ (0 : Fin 1) (by
      intro hin
      have e : (j.val - 0) / (0 + 1) < n := hin.2.2
      omega)

/-- A matrix padded with rows at its high end reads, at `(j, l)`, the operand's entry `(j, l)` when row `j` is one of
    the operand's and the padding value past them. -/
theorem pad2_rows_apply {n M k w : Nat} (x : (⟨2, ![n, w]⟩ : Shape).Idx → α) {u : Shape} (v : u.Idx → α)
    (h : (⟨2, ![n, w]⟩ : Shape).Pads (![0, 0] : Fin 2 → Nat) ![k, 0] ![0, 0] ⟨2, ![M, w]⟩) (hu : 0 < u.numel)
    (j : Fin M) (l : Fin w) :
    pad ⟨2, ![M, w]⟩ ![0, 0] ![k, 0] ![0, 0] x v h hu (ix2 j l)
      = if hj : j.val < n then x (ix2 ⟨j.val, hj⟩ l) else v (Shape.Idx.first hu) := by
  by_cases hj : j.val < n
  · rw [dif_pos hj]
    exact pad_apply_of_inside _ _ _ x v h hu _ (ix2 (⟨j.val, hj⟩ : Fin n) l) (fun a => match a with
      | ⟨0, _⟩ => by show j.val = 0 + j.val * (0 + 1); omega
      | ⟨1, _⟩ => by show l.val = 0 + l.val * (0 + 1); omega)
  · rw [dif_neg hj]
    exact pad_apply_of_not_inside _ _ _ x v h hu _ (0 : Fin 2) (by
      intro hin
      have e : (j.val - 0) / (0 + 1) < n := hin.2.2
      omega)

end Generic

section Generic2
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Generic2

/-- The integer zero converted to a float is zero. -/
theorem sitofp_zero (i : S_.Idx) : (sitofp (F := Ideal) .f32 (constantI S_ 32 0#32)) i = (0 : EReal) := by
  show ((((0#32 : BitVec 32).toInt : ℝ)) : EReal) = 0
  simp

/-! ## The buffers the host operations fill before the first launch, as terms of the launch contents -/

/-- The source ids: padded with zeros to 600064 entries, then laid out as one row. -/
theorem v6_term : (Gen.V11 m c main_v6 : (⟨S1x600064, .i32⟩ : BufTy).Contents (Elt Ideal))
    = shapeCast S1x600064 (pad S600064 ![0] ![64] ![0] (m ((c.tc : Thread nD τ).loc main_arg1)) (constantI S_ 32 0#32)
        pads_S600000_S600064_0640 h_S_) shapeCasts_S600064_S1x600064 := by
  rw [Gen.V11_of m c main_v6 (by decide), Gen.V10_of m c main_v6 (by decide)]
  dsimp only [Gen.V9, Gen.hostOps0_8]
  after_results
  funext i
  show shapeCast S1x600064 _ shapeCasts_S600064_S1x600064 i = _
  rfl

/-- The destination ids: padded with zeros to 600064 entries, then laid out as one column. -/
theorem v7_term : (Gen.V11 m c main_v7 : (⟨S600064x1, .i32⟩ : BufTy).Contents (Elt Ideal))
    = shapeCast S600064x1 (pad S600064 ![0] ![64] ![0] (m ((c.tc : Thread nD τ).loc main_arg2)) (constantI S_ 32 0#32)
        pads_S600000_S600064_0640 h_S_) shapeCasts_S600064_S600064x1 := by
  rw [Gen.V11_of m c main_v7 (by decide), Gen.V10_of m c main_v7 (by decide)]
  dsimp only [Gen.V9, Gen.hostOps0_8]
  after_results
  funext i
  show shapeCast S600064x1 _ shapeCasts_S600064_S600064x1 i = _
  rfl

/-- The edge-feature ids: padded with zero rows to 600064 rows, then transposed. -/
theorem v8_term : (Gen.V11 m c main_v8 : (⟨S3x600064, .i32⟩ : BufTy).Contents (Elt Ideal))
    = transpose S3x600064 [1, 0] (pad S600064x3 ![0, 0] ![64, 0] ![0, 0] (m ((c.tc : Thread nD τ).loc main_arg3))
        (constantI S_ 32 0#32) pads_S600000x3_S600064x3_0640_000 h_S_) transposes_S600064x3_S3x600064_1_0 := by
  rw [Gen.V11_of m c main_v8 (by decide), Gen.V10_of m c main_v8 (by decide)]
  dsimp only [Gen.V9, Gen.hostOps0_8]
  after_results
  rfl

/-- The embedding tables: stacked into 24 rows, transposed, converted. -/
theorem v11_term : (Gen.V11 m c main_v11 : (⟨S128x24, .bf16⟩ : BufTy).Contents (Elt Ideal))
    = truncf (F := Ideal) .bf16 (transpose S128x24 [1, 0] (shapeCast S24x128
          (m ((c.tc : Thread nD τ).loc main_arg4) : (⟨S3x8x128, .f32⟩ : BufTy).Contents (Elt Ideal)) shapeCasts_S3x8x128_S24x128)
        transposes_S24x128_S128x24_1_0) bitsLt_bf16_f32 := by
  rw [Gen.V11_of m c main_v11 (by decide), Gen.V10_of m c main_v11 (by decide)]
  dsimp only [Gen.V9, Gen.hostOps0_8]
  after_results
  funext i
  show transpose S128x24 [1, 0] (shapeCast S24x128 _ shapeCasts_S3x8x128_S24x128) transposes_S24x128_S128x24_1_0 i = _
  rfl

/-- The node features: padded with zero rows to 51200 rows, then transposed. -/
theorem v1_term : (Gen.V11 m c main_v1 : (⟨S128x51200, .f32⟩ : BufTy).Contents (Elt Ideal))
    = transpose S128x51200 [1, 0] (pad S51200x128 ![0, 0] ![1200, 0] ![0, 0]
        (m ((c.tc : Thread nD τ).loc main_arg0) : (⟨S50000x128, .f32⟩ : BufTy).Contents (Elt Ideal))
        (sitofp (F := Ideal) .f32 (constantI S_ 32 0#32)) pads_S50000x128_S51200x128_012000_000 h_S_) transposes_S51200x128_S128x51200_1_0 := by
  rw [Gen.V11_of m c main_v1 (by decide), Gen.V10_of m c main_v1 (by decide), Gen.V9_of m c main_v1 (by decide),
    Gen.V8_of m c main_v1 (by decide), Gen.V7_of m c main_v1 (by decide), Gen.V6_of m c main_v1 (by decide),
    Gen.V5_of m c main_v1 (by decide), Gen.V4_of m c main_v1 (by decide)]
  dsimp only [Gen.V3, Gen.hostOps0_2]
  after_results
  rfl

/-- The same, converted. -/
theorem v2_term : (Gen.V11 m c main_v2 : (⟨S128x51200, .bf16⟩ : BufTy).Contents (Elt Ideal))
    = truncf (F := Ideal) .bf16 (transpose S128x51200 [1, 0] (pad S51200x128 ![0, 0] ![1200, 0] ![0, 0]
        (m ((c.tc : Thread nD τ).loc main_arg0) : (⟨S50000x128, .f32⟩ : BufTy).Contents (Elt Ideal))
        (sitofp (F := Ideal) .f32 (constantI S_ 32 0#32)) pads_S50000x128_S51200x128_012000_000 h_S_) transposes_S51200x128_S128x51200_1_0)
        bitsLt_bf16_f32 := by
  rw [Gen.V11_of m c main_v2 (by decide), Gen.V10_of m c main_v2 (by decide), Gen.V9_of m c main_v2 (by decide),
    Gen.V8_of m c main_v2 (by decide), Gen.V7_of m c main_v2 (by decide), Gen.V6_of m c main_v2 (by decide),
    Gen.V5_of m c main_v2 (by decide), Gen.V4_of m c main_v2 (by decide)]
  dsimp only [Gen.V3, Gen.hostOps0_2]
  after_results
  rfl

/-- The weights: transposed, converted. -/
theorem v21_term : (Gen.V11 m c main_v21 : (⟨S128x128, .bf16⟩ : BufTy).Contents (Elt Ideal))
    = truncf (F := Ideal) .bf16 (transpose S128x128 [1, 0]
          (m ((c.tc : Thread nD τ).loc main_arg5) : (⟨S128x128, .f32⟩ : BufTy).Contents (Elt Ideal)) transposes_S128x128_S128x128_1_0)
        bitsLt_bf16_f32 := by
  dsimp only [Gen.V11, Gen.hostOps0_10]
  after_results

/-- The bias, laid out as one column. -/
theorem v22_term : (Gen.V11 m c main_v22 : (⟨S128x1, .f32⟩ : BufTy).Contents (Elt Ideal))
    = shapeCast S128x1 (m ((c.tc : Thread nD τ).loc main_arg6)) shapeCasts_S128_S128x1 := by
  dsimp only [Gen.V11, Gen.hostOps0_10]
  after_results
  funext i
  show shapeCast S128x1 _ shapeCasts_S128_S128x1 i = _
  rfl

/-- The degree row: ones added up by destination id, plus one; padded with ones to 51200 entries; laid out as one row. -/
theorem v19_term : (Gen.V11 m c main_v19 : (⟨S1x51200, .f32⟩ : BufTy).Contents (Elt Ideal))
    = shapeCast S1x51200 (pad S51200 ![0] ![1200] ![0]
        (addf (F := Ideal) (Host.scatterAdd (F := Ideal) scatter_S50000_S600000x1_S600000_n_0_0_1
            (broadcastInDim S50000 ![] bcast_S_S50000 (constant (F := Ideal) S_ .f32 0x00000000#32))
            (broadcastInDim S600000x1 ![0] bcast_S600000_S600000x1_0
              (m ((c.tc : Thread nD τ).loc main_arg2) : (⟨S600000, .i32⟩ : BufTy).Contents (Elt Ideal)))
            (broadcastInDim S600000 ![] bcast_S_S600000 (constant (F := Ideal) S_ .f32 0x3F800000#32)))
          (broadcastInDim S50000 ![] bcast_S_S50000 (constant (F := Ideal) S_ .f32 0x3F800000#32)))
        (constant (F := Ideal) S_ .f32 0x3F800000#32) pads_S50000_S51200_012000 h_S_) shapeCasts_S51200_S1x51200 := by
  dsimp only [Gen.V11, Gen.hostOps0_10]
  after_results
  funext i
  show shapeCast S1x51200 _ shapeCasts_S51200_S1x51200 i = _
  rfl

/-! ## The buffers the first launch reads, at an index -/

theorem host_src (e : Fin 600064) : E0 m c main_v6 (ix2 (0 : Fin 1) e)
    = if h : e.val < 600000 then m ((c.tc : Thread nD τ).loc main_arg1) (ix1 ⟨e.val, h⟩) else 0#32 := by
  show (Gen.V11 m c main_v6 : (⟨S1x600064, .i32⟩ : BufTy).Contents (Elt Ideal)) (ix2 (0 : Fin 1) e) = _
  rw [v6_term, shapeCast_a_1a_apply, pad1_apply]
  rfl

theorem host_idx (col : Fin 3) (e : Fin 600064) : E0 m c main_v8 (ix2 col e)
    = if h : e.val < 600000 then m ((c.tc : Thread nD τ).loc main_arg3) (ix2 ⟨e.val, h⟩ col) else 0#32 := by
  show (Gen.V11 m c main_v8 : (⟨S3x600064, .i32⟩ : BufTy).Contents (Elt Ideal)) (ix2 col e) = _
  rw [v8_term, transpose_ix2_apply, pad2_rows_apply]
  rfl

theorem host_tab (d : Fin 128) (r : Fin 24) : E0 m c main_v11 (ix2 d r)
    = m ((c.tc : Thread nD τ).loc main_arg4) (ix3 (⟨r.val / 8, by omega⟩ : Fin 3) (⟨r.val % 8, by omega⟩ : Fin 8) d) := by
  show (Gen.V11 m c main_v11 : (⟨S128x24, .bf16⟩ : BufTy).Contents (Elt Ideal)) (ix2 d r) = _
  rw [v11_term, truncf_apply, transpose_ix2_apply]
  exact shapeCast_apply _ _ _ (ix3 (⟨r.val / 8, by omega⟩ : Fin 3) (⟨r.val % 8, by omega⟩ : Fin 8) d) (by
    rw [Shape.rowMajor_val_three, Shape.rowMajor_val_two]
    show (r.val / 8 * 8 + r.val % 8) * 128 + d.val = r.val * 128 + d.val
    omega)

theorem host_nfT16 (d : Fin 128) (n : Fin 51200) : (E0 m c main_v2 (ix2 d n) : EReal)
    = if h : n.val < 50000 then m ((c.tc : Thread nD τ).loc main_arg0) (ix2 ⟨n.val, h⟩ d) else (0 : EReal) := by
  show (Gen.V11 m c main_v2 : (⟨S128x51200, .bf16⟩ : BufTy).Contents (Elt Ideal)) (ix2 d n) = _
  rw [v2_term, truncf_apply, transpose_ix2_apply, pad2_rows_apply]
  by_cases h : n.val < 50000
  · rw [dif_pos h, dif_pos h]
  · rw [dif_neg h, dif_neg h]; exact sitofp_zero _

/-! ## The buffers the second launch reads, at an index -/

/-- The first launch writes the message matrix only. -/
theorem E1_of_ne (b : Ref sig .tc) (h : b ≠ main_v23) : E1 m c b = Gen.V11 m c b := by
  show Function.update (Gen.V11 m c) (Proc.devRef .tc main_v23) (mTarr m c) (Proc.devRef .tc b) = _
  exact Function.update_of_ne (StableHlo.devRef_ne_of_ne h) _ _

theorem host_dst (e : Fin 600064) : E1 m c main_v7 (ix2 e (0 : Fin 1))
    = if h : e.val < 600000 then m ((c.tc : Thread nD τ).loc main_arg2) (ix1 ⟨e.val, h⟩) else 0#32 := by
  rw [E1_of_ne m c main_v7 (by decide)]
  show (Gen.V11 m c main_v7 : (⟨S600064x1, .i32⟩ : BufTy).Contents (Elt Ideal)) (ix2 e (0 : Fin 1)) = _
  rw [v7_term, shapeCast_a_a1_apply, pad1_apply]
  rfl

theorem host_mT : E1 m c main_v23 = mTarr m c :=
  Function.update_self _ _ _

theorem host_nfT32 (d : Fin 128) (n : Fin 51200) : (E1 m c main_v1 (ix2 d n) : EReal)
    = if h : n.val < 50000 then m ((c.tc : Thread nD τ).loc main_arg0) (ix2 ⟨n.val, h⟩ d) else (0 : EReal) := by
  rw [E1_of_ne m c main_v1 (by decide)]
  show (Gen.V11 m c main_v1 : (⟨S128x51200, .f32⟩ : BufTy).Contents (Elt Ideal)) (ix2 d n) = _
  rw [v1_term, transpose_ix2_apply, pad2_rows_apply]
  by_cases h : n.val < 50000
  · rw [dif_pos h, dif_pos h]
  · rw [dif_neg h, dif_neg h]; exact sitofp_zero _

theorem host_wT (d' d : Fin 128) : E1 m c main_v21 (ix2 d' d) = m ((c.tc : Thread nD τ).loc main_arg5) (ix2 d d') := by
  rw [E1_of_ne m c main_v21 (by decide)]
  show (Gen.V11 m c main_v21 : (⟨S128x128, .bf16⟩ : BufTy).Contents (Elt Ideal)) (ix2 d' d) = _
  rw [v21_term, truncf_apply, transpose_ix2_apply]

theorem host_b (d' : Fin 128) : E1 m c main_v22 (ix2 d' (0 : Fin 1)) = m ((c.tc : Thread nD τ).loc main_arg6) (ix1 d') := by
  rw [E1_of_ne m c main_v22 (by decide)]
  show (Gen.V11 m c main_v22 : (⟨S128x1, .f32⟩ : BufTy).Contents (Elt Ideal)) (ix2 d' (0 : Fin 1)) = _
  rw [v22_term, shapeCast_a_a1_apply]

/-! ## The degree count: which updates a float scatter-add lands on node `n` -/

/-- A 32-bit word read signed is the small number `n` exactly when it is the word of `n`. -/
theorem toInt_eq_iff (x : BitVec 32) (n : Nat) (hn : n < 50000) : x.toInt = (n : Int) ↔ x = BitVec.ofNat 32 n := by
  have hx := x.isLt
  constructor
  · intro h
    apply BitVec.eq_of_toNat_eq
    rw [BitVec.toNat_ofNat, Nat.mod_eq_of_lt (by omega)]
    rw [BitVec.toInt_eq_toNat_cond] at h
    split at h <;> omega
  · rintro rfl
    rw [BitVec.toInt_eq_toNat_cond, BitVec.toNat_ofNat, Nat.mod_eq_of_lt (by omega)]
    rw [if_pos (by omega)]

/-- The start of update `j`'s window on the one node axis: the `j`-th scatter index, read signed. -/
theorem scatter_start (idx : IVec S600000x1 32) (j : S600000.Idx) (a : Fin S50000.rank) :
    scatter_S50000_S600000x1_S600000_n_0_0_1.start j idx a = (idx (ix2 (j 0) (0 : Fin 1))).toInt := by
  match a with
  | ⟨0, h0⟩ =>
    have hmem : (⟨0, h0⟩ : Fin S50000.rank) ∈ scatter_S50000_S600000x1_S600000_n_0_0_1.scatterDimsToOperandDims := by
      show (⟨0, h0⟩ : Fin S50000.rank) ∈ [(0 : Fin S50000.rank)]
      exact List.mem_singleton.2 rfl
    unfold ScatterDims.start
    rw [dif_pos hmem]
    refine congrArg (fun k => (idx k).toInt) (funext fun b => ?_)
    match b with
    | ⟨0, _⟩ => rfl
    | ⟨1, _⟩ => rfl

/-- The update is one element: its window coordinate is zero. -/
theorem scatter_window (j : S600000.Idx) (a : Fin S50000.rank) :
    scatter_S50000_S600000x1_S600000_n_0_0_1.window j a = 0 := by
  match a with
  | ⟨0, _⟩ => rfl

/-- Update `j` lands on node `n` exactly when the `j`-th scatter index is the word of `n`: an index outside the
    nodes, read signed, drops its update. -/
theorem scatter_lands (idx : IVec S600000x1 32) (j : S600000.Idx) (n : Fin 50000) :
    scatter_S50000_S600000x1_S600000_n_0_0_1.resultIdx? j idx = some (ix1 n)
      ↔ idx (ix2 (j 0) (0 : Fin 1)) = BitVec.ofNat 32 n.val := by
  rw [← toInt_eq_iff _ n.val n.isLt]
  have hn := n.isLt
  unfold ScatterDims.resultIdx?
  split
  · rename_i h
    have h0 := h ⟨0, by decide⟩
    rw [scatter_start, scatter_window] at h0
    constructor
    · intro e
      have e' := congrArg Fin.val (congrFun (Option.some.inj e) ⟨0, by decide⟩)
      simp only [scatter_start, scatter_window] at e'
      have e'' : ((idx (ix2 (j 0) (0 : Fin 1))).toInt + ((0 : Nat) : Int)).toNat = n.val := e'
      omega
    · intro e
      refine congrArg some (funext fun a => ?_)
      match a with
      | ⟨0, _⟩ =>
        apply Fin.ext
        show (scatter_S50000_S600000x1_S600000_n_0_0_1.start j idx ⟨0, _⟩
          + (scatter_S50000_S600000x1_S600000_n_0_0_1.window j ⟨0, _⟩ : Int)).toNat = n.val
        rw [scatter_start, scatter_window]
        omega
  · rename_i h
    constructor
    · intro e; exact absurd e (by simp)
    · intro e
      exfalso
      apply h
      intro a
      rw [scatter_start, scatter_window]
      match a with
      | ⟨0, _⟩ =>
        show 0 ≤ (idx (ix2 (j 0) (0 : Fin 1))).toInt + ((0 : Nat) : Int)
          ∧ (idx (ix2 (j 0) (0 : Fin 1))).toInt + ((0 : Nat) : Int) < ((50000 : Nat) : Int)
        omega

/-- The scatter indices: the destination ids as a column. -/
theorem dstCol_apply (dst : (⟨S600000, .i32⟩ : BufTy).Contents (Elt Ideal)) (e : Fin 600000) :
    broadcastInDim S600000x1 ![0] bcast_S600000_S600000x1_0 dst (ix2 e (0 : Fin 1)) = dst (ix1 e) :=
  broadcastInDim_apply _ _ dst _ (ix1 e) (fun a => match a with
    | ⟨0, _⟩ => by show e.val = if (600000 : Nat) = 1 then 0 else e.val; rw [if_neg (by decide)])

/-- The count of node `n`: zero, plus a one for every edge whose destination id is the word of `n`. -/
theorem scatter_count (dst : (⟨S600000, .i32⟩ : BufTy).Contents (Elt Ideal)) (n : Fin 50000) :
    Host.scatterAdd (F := Ideal) scatter_S50000_S600000x1_S600000_n_0_0_1
        (broadcastInDim S50000 ![] bcast_S_S50000 (constant (F := Ideal) S_ .f32 0x00000000#32))
        (broadcastInDim S600000x1 ![0] bcast_S600000_S600000x1_0 dst)
        (broadcastInDim S600000 ![] bcast_S_S600000 (constant (F := Ideal) S_ .f32 0x3F800000#32)) (ix1 n)
      = ∑ e : Fin 600000, ind (dst (ix1 e) = BitVec.ofNat 32 n.val) := by
  show Ideal.hostScatterAdd scatter_S50000_S600000x1_S600000_n_0_0_1 _ _ _ (ix1 n) = _
  unfold Ideal.hostScatterAdd
  rw [broadcastInDim_scalar_apply, constant_apply, Ideal.ofBits_zero_f32, zero_add, Finset.sum_filter,
    ← Equiv.sum_comp (idxEquiv1 (n := 600000)).symm]
  refine Finset.sum_congr rfl fun e _ => ?_
  rw [broadcastInDim_scalar_apply, constant_apply, Ideal.ofBits_one_f32]
  have hl := scatter_lands (broadcastInDim S600000x1 ![0] bcast_S600000_S600000x1_0 dst) ((idxEquiv1 (n := 600000)).symm e) n
  rw [show (broadcastInDim S600000x1 ![0] bcast_S600000_S600000x1_0 dst) (ix2 (((idxEquiv1 (n := 600000)).symm e) 0) (0 : Fin 1))
      = dst (ix1 e) from dstCol_apply dst e] at hl
  unfold ind
  by_cases hq : dst (ix1 e) = BitVec.ofNat 32 n.val
  · rw [if_pos hq, if_pos (hl.2 hq)]
  · rw [if_neg hq, if_neg (fun h => hq (hl.1 h))]

theorem host_deg (n : Fin 51200) : (E1 m c main_v19 (ix2 (0 : Fin 1) n) : EReal)
    = if h : n.val < 50000 then degOf (m ((c.tc : Thread nD τ).loc main_arg2)) ⟨n.val, h⟩ else (1 : EReal) := by
  rw [E1_of_ne m c main_v19 (by decide)]
  show (Gen.V11 m c main_v19 : (⟨S1x51200, .f32⟩ : BufTy).Contents (Elt Ideal)) (ix2 (0 : Fin 1) n) = _
  rw [v19_term, shapeCast_a_1a_apply, pad1_apply]
  by_cases h : n.val < 50000
  · rw [dif_pos h, dif_pos h, addf_apply, scatter_count, broadcastInDim_scalar_apply, constant_apply, Ideal.ofBits_one_f32]
    rfl
  · rw [dif_neg h, dif_neg h, constant_apply, Ideal.ofBits_one_f32]

/-! ## The result, after the second launch -/

/-- The result: the second launch's transposed output, transposed back and cut to the 50000 nodes. -/
theorem v26_term : (W14 m c main_v26 : (⟨S50000x128, .f32⟩ : BufTy).Contents (Elt Ideal))
    = extractStridedSlice S50000x128 ![0, 0] (transpose S51200x128 [1, 0] (oTarr m c) transposes_S128x51200_S51200x128_1_0)
        slices_S51200x128_S50000x128_0_0 := by
  dsimp only [W14, Gen.hostOps2]
  after_results
  rw [show W13 m c (Proc.devRef .tc main_v24) = oTarr m c from Function.update_self _ _ _]

theorem host_out (n : Fin 50000) (d' : Fin 128) : W14 m c main_v26 (ix2 n d') = oTarr m c (ix2 d' (⟨n.val, by omega⟩ : Fin 51200)) := by
  show (W14 m c main_v26 : (⟨S50000x128, .f32⟩ : BufTy).Contents (Elt Ideal)) (ix2 n d') = _
  rw [v26_term, slice2_axis0_apply 0 _ _ n d' (⟨n.val, by omega⟩ : Fin 51200) (by show n.val = 0 + n.val; omega),
    transpose_ix2_apply]

end Cert.KernelIdeal.Hand

end
-- ==== Proof.PreRanges.lean ====
/-
  The precondition `finite_inputs`, read back at its two integer conjuncts. The printed function is a chain of
  `and`s of seven `jnp.all` reductions; the claim that its one result is 1 says each reduction is 1, and a reduction by
  `and` that is 1 met a 1 at every element. The element of the sixth reduction at edge e is
  `(0 ≤ src[e]) ∧ (src[e] < 50000)`, signed; of the seventh at (e, col), `(0 ≤ efeat_idx[e, col]) ∧ (efeat_idx[e, col] < 8)`.
  A 32-bit word in [0, n) signed, n below 2³¹, has its sign bit clear, so its unsigned value is its signed value: it is
  below n unsigned.
-/
import proofs.«413313_j22084721836888_2_alg».proof.Pre_finite_inputs
import proofs.«413313_j22084721836888_2_alg».proof.Proof.Gen.Pre_finite_inputs
import Idealize.ShloMosaic.Lib.ReduceAll
import Idealize.ShloMosaic.Lib.StableHlo.Predicate
import Idealize.ShloMosaic.Lib.ValueIdx

noncomputable section

namespace Cert.PreHand

open Idealize.ShloMosaic Idealize.ShloMosaic.ValueIdx

/-- The scalar shape has one index. -/
instance subsingleton_scalar_idx : Subsingleton Cert.Pre_finite_inputs.S_.Idx := ⟨fun a b => funext fun d => d.elim0⟩

/-- A word w with 0 ≤ w and w < n signed, n below 2³¹, is below n unsigned: 0 ≤ w signed says the sign bit is clear,
    so the signed value is the unsigned one. -/
theorem toNat_lt_of_signed (w : BitVec 32) (n : Nat) (hn : n < 2 ^ 31) (h0 : IntOp.cmpi .sge w (0#32) = 1#1)
    (hlt : IntOp.cmpi .slt w (BitVec.ofNat 32 n) = 1#1) : w.toNat < n := by
  unfold IntOp.cmpi at h0 hlt
  rw [StableHlo.Predicate.ofBool_eq_one_iff] at h0 hlt
  simp only [BitVec.slt, BitVec.sle, decide_eq_true_eq] at h0 hlt
  have hw := w.isLt
  have hz : (0#32 : BitVec 32).toInt = 0 := by decide
  have hnn : (BitVec.ofNat 32 n).toInt = n := StableHlo.Predicate.toInt_ofNat_small n hn
  rw [hz] at h0
  rw [hnn] at hlt
  rw [BitVec.toInt_eq_toNat_cond] at h0 hlt
  split at h0 <;> omega

theorem ranges_of_pre [hP : Cert.Pre_finite_inputs.Facts] (x0 : (⟨⟨2, ![50000, 128]⟩, .f32⟩ : BufTy).Contents (Elt Ideal)) (x1 x2 : (⟨⟨1, ![600000]⟩, .i32⟩ : BufTy).Contents (Elt Ideal)) (x3 : (⟨⟨2, ![600000, 3]⟩, .i32⟩ : BufTy).Contents (Elt Ideal)) (x4 : (⟨⟨3, ![3, 8, 128]⟩, .f32⟩ : BufTy).Contents (Elt Ideal)) (x5 : (⟨⟨2, ![128, 128]⟩, .f32⟩ : BufTy).Contents (Elt Ideal)) (x6 : (⟨⟨1, ![128]⟩, .f32⟩ : BufTy).Contents (Elt Ideal))
    (h : Cert.Pre_finite_inputs.fn (F := Ideal) x0 x1 x2 x3 x4 x5 x6 = fun _ => 1#1) :
    (∀ e : Fin 600000, (x1 (ix1 e)).toNat < 50000) ∧ (∀ (e : Fin 600000) (col : Fin 3), (x3 (ix2 e col)).toNat < 8) := by
  have e := congrFun h ValueIdx.ix0
  unfold Cert.Pre_finite_inputs.fn Cert.Pre_finite_inputs.fn_part1 at e
  dsimp only at e
  -- the chain of `and`s: ((… ∧ all(src in range)) ∧ all(efeat_idx in range))
  rw [show ∀ (a b : IVec Cert.Pre_finite_inputs.S_ 1) (i), andi a b i = IntOp.andi (a i) (b i) from fun _ _ _ => rfl] at e
  obtain ⟨e25, e31⟩ := IntOp.andi_eq_one.1 e
  rw [show ∀ (a b : IVec Cert.Pre_finite_inputs.S_ 1) (i), andi a b i = IntOp.andi (a i) (b i) from fun _ _ _ => rfl] at e25
  obtain ⟨-, e24⟩ := IntOp.andi_eq_one.1 e25
  refine ⟨fun ed => ?_, fun ed col => ?_⟩
  · have a := Host.reduce_andi_all _ _ _ _ _ e24 (ix1 ed)
    obtain ⟨a0, a1⟩ := IntOp.andi_eq_one.1 a
    exact toNat_lt_of_signed _ 50000 (by decide) a0 a1
  · have a := Host.reduce_andi_all _ _ _ _ _ e31 (ix2 ed col)
    obtain ⟨a0, a1⟩ := IntOp.andi_eq_one.1 a
    exact toNat_lt_of_signed _ 8 (by decide) a0 a1

end Cert.PreHand

end
-- ==== Proof.Ref.lean ====
/-
  The reference program read at one output element.

  The reference is a graph-convolution layer written with gathers and segment sums: an edge's message is the row of x at
  its source node plus the sum over the three feature columns of the embedding-table row its vocabulary word names; a node
  receives the sum of the messages of the edges whose destination word is that node; the output row is
  ((x[n] + received n) / (in-degree n + 1)) · W + b.

  The stages that move no data by value are read through the stage-by-stage `_apply` lemmas. The five that do are read here at
  one symbolic index: the concatenation that pairs each column number with its vocabulary word, the two gathers (their
  start indices read signed and clamped: in range, so the word itself), and the two accumulating scatters (an update lands
  at an operand index exactly when its signed start plus its window coordinate is that index, so the filtered sum over the
  updates is the sum over the edges of the indicator "destination = n" times the update).
-/
import proofs.«413313_j22084721836888_2_alg».proof.Proof.Gen.ReferenceIdeal.Read
import proofs.«413313_j22084721836888_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.Hand

open Cert.ReferenceIdeal Cert.ReferenceIdeal.Gen Cert.ReferenceIdeal.Read Cert.Spec Idealize.ShloMosaic Idealize.ShloMosaic.ValueIdx

/-- A word below 2^31 is not negative as a signed number: the signed comparison with zero is the bit 0. -/
theorem slt_zero_of_small (w : BitVec 32) (h : w.toNat < 2 ^ 31) : IntOp.cmpi .slt w 0#32 = 0#1 := by
  unfold IntOp.cmpi
  have : w.slt 0#32 = false := by
    rw [BitVec.slt_eq_decide]
    have hti : w.toInt = w.toNat := BitVec.toInt_eq_toNat_of_lt (by omega)
    simp [hti]
  simp [this]

/-- The signed value of a word below 2^31 is its unsigned value. -/
theorem toInt_toNat_of_small (w : BitVec 32) (h : w.toNat < 2 ^ 31) : w.toInt.toNat = w.toNat := by
  rw [BitVec.toInt_eq_toNat_of_lt (by omega)]; simp

/-- A source word in range is not negative, so the wrap of negative indices leaves it alone. -/
theorem v22_apply (x1 : (Sh1 600000).Idx → BitVec 32) (e : Fin 600000) (h : (x1 (ix1 e)).toNat < 50000) :
    val_main_v22 (F := Ideal) x1 (ix1 e) = x1 (ix1 e) := by
  rw [val_main_v22_apply, val_main_v19_apply, val_main_v18_apply, val_main_c_3_apply,
    slt_zero_of_small _ (by omega), select_zero]

/-- The gather of source rows, read at edge e and feature d: row (src e) of x, feature d. The start index, read signed,
    is the source word itself and the clamp to [0, 49999] does not bind; feature d is the offset coordinate. -/
theorem v24_apply (x0 : (Sh2 50000 128).Idx → EReal) (x1 : (Sh1 600000).Idx → BitVec 32)
    (hsrc : ∀ e : Fin 600000, (x1 (ix1 e)).toNat < 50000) (e : Fin 600000) (d : Fin 128) :
    val_main_v24 (F := Ideal) x0 x1 (ix2 e d) = x0 (ix2 (srcIx x1 e) d) := by
  unfold val_main_v24 Host.gather
  congr 1
  set D := gather_S50000x128_S600000x1_S600000x128_1_0_n_n_0_1_1128 with hD
  have h0 : D.start (ix2 e d) (val_main_v23 (F := Ideal) x1) (0 : Fin 2) + D.batchCoord (ix2 e d) (0 : Fin 2)
      + D.offCoord (ix2 e d) (0 : Fin 2) = (srcIx x1 e).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ D.startIndexMap from List.mem_singleton.mpr rfl)]
    have hsi : D.siIdx (ix2 e d) ⟨List.idxOf (0 : Fin 2) D.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi, val_main_v23_apply]
    have e1 : idx_main_v23 (ix2 e (0 : Fin 1)) = ix1 e := funext fun a => Fin.ext (by match a with | ⟨0, _⟩ => rfl)
    rw [e1, v22_apply x1 e (hsrc e), toInt_toNat_of_small _ (by have := hsrc e; omega)]
    have hs := hsrc e
    show min (x1 (ix1 e)).toNat (50000 - 1) = (srcIx x1 e).val
    unfold srcIx
    rw [dif_pos hs]
    simp only []
    omega
  have h1 : D.start (ix2 e d) (val_main_v23 (F := Ideal) x1) (1 : Fin 2) + D.batchCoord (ix2 e d) (1 : Fin 2)
      + D.offCoord (ix2 e d) (1 : Fin 2) = d.val := by
    rw [GatherDims.batchCoord_eq_zero _ _ _ List.not_mem_nil]
    unfold GatherDims.start
    rw [dif_neg (show ¬ (1 : Fin 2) ∈ D.startIndexMap by decide)]
    unfold GatherDims.offCoord
    rw [dif_pos (show (1 : Fin 2) ∈ D.sKept by decide)]
    have hk : List.idxOf (1 : Fin 2) D.sKept = 0 := by decide
    simp only [hk, Nat.zero_add]
    rfl
  funext a
  refine Fin.ext ?_
  match a with
  | ⟨0, _⟩ => exact h0
  | ⟨1, _⟩ => exact h1

/-- A vocabulary word in range is not negative, so the wrap of negative indices leaves it alone. -/
theorem v11_apply (x3 : (Sh2 600000 3).Idx → BitVec 32) (e : Fin 600000) (col : Fin 3) (h : (x3 (ix2 e col)).toNat < 8) :
    val_main_v11 (F := Ideal) x3 (ix2 e col) = x3 (ix2 e col) := by
  rw [val_main_v11_apply, val_main_v8_apply, val_main_v7_apply, val_main_c_1_apply,
    slt_zero_of_small _ (by omega), select_zero]

/-- The column numbers 0, 1, 2 are not negative, so their wrap leaves them alone: entry col is the word col. -/
theorem v6_apply (col : Fin 3) : val_main_v6 (F := Ideal) (ix2 (0 : Fin 1) col) = BitVec.ofNat 32 col.val := by
  rw [val_main_v6_apply, val_main_v3_apply, val_main_v2_apply, val_main_c_apply, val_main_v1_apply, val_main_v0_apply]
  have hc : (BitVec.ofNat 32 (idx_main_v1 (ix2 (0 : Fin 1) col) 0).val).toNat < 2 ^ 31 := by
    show (BitVec.ofNat 32 col.val).toNat < 2 ^ 31
    rw [BitVec.toNat_ofNat]; have := col.isLt; omega
  rw [slt_zero_of_small _ hc, select_zero]

/-- The start-index pairs (col, idx[e, col]): component 0 of the pair at (e, col) is the column number … -/
theorem v15_left (x3 : (Sh2 600000 3).Idx → BitVec 32) (e : Fin 600000) (col : Fin 3) :
    val_main_v15 (F := Ideal) x3 (ix3 e col (0 : Fin 2)) = BitVec.ofNat 32 col.val := by
  unfold val_main_v15
  rw [concatenate_pair_apply_left (s₁ := S600000x3x1) (s₂ := S600000x3x1) (2 : Fin 3) _ _ _ (ix3 e col (0 : Fin 2)) rfl
    (ix3 e col (0 : Fin 1))
    (fun b => by match b with | ⟨0, _⟩ => rfl | ⟨1, _⟩ => rfl | ⟨2, _⟩ => rfl)]
  rw [val_main_v13_apply, val_main_v12_apply]
  have e1 : idx_main_v12 (idx_main_v13 (ix3 e col (0 : Fin 1))) = ix2 (0 : Fin 1) col :=
    funext fun a => Fin.ext (by match a with | ⟨0, _⟩ => rfl | ⟨1, _⟩ => rfl)
  rw [e1, v6_apply]

/-- … and component 1 is the vocabulary word idx[e, col]. -/
theorem v15_right (x3 : (Sh2 600000 3).Idx → BitVec 32) (e : Fin 600000) (col : Fin 3) (h : (x3 (ix2 e col)).toNat < 8) :
    val_main_v15 (F := Ideal) x3 (ix3 e col (1 : Fin 2)) = x3 (ix2 e col) := by
  unfold val_main_v15
  rw [concatenate_pair_apply_right (s₁ := S600000x3x1) (s₂ := S600000x3x1) (2 : Fin 3) _ _ _ (ix3 e col (1 : Fin 2)) rfl rfl
    (ix3 e col (0 : Fin 1))
    (fun b hb => by match b with | ⟨0, _⟩ => rfl | ⟨1, _⟩ => rfl | ⟨2, _⟩ => exact absurd rfl hb) rfl]
  rw [val_main_v14_apply]
  have e1 : idx_main_v14 (ix3 e col (0 : Fin 1)) = ix2 e col :=
    funext fun a => Fin.ext (by match a with | ⟨0, _⟩ => rfl | ⟨1, _⟩ => rfl)
  rw [e1, v11_apply x3 e col h]

/-- The gather of table rows, read at edge e, column col and feature d: emb[col, idx[e, col], d]. Both start components,
    read signed, are in range (col < 3, the vocabulary word < 8), so neither clamp binds; feature d is the offset. -/
theorem v16_apply (x3 : (Sh2 600000 3).Idx → BitVec 32) (x4 : (Sh3 3 8 128).Idx → EReal)
    (hidx : ∀ (e : Fin 600000) (col : Fin 3), (x3 (ix2 e col)).toNat < 8) (e : Fin 600000) (col : Fin 3) (d : Fin 128) :
    val_main_v16 (F := Ideal) x3 x4 (ix3 e col d) = x4 (ix3 col (vocIx x3 e col) d) := by
  unfold val_main_v16 Host.gather
  congr 1
  set D := gather_S3x8x128_S600000x3x2_S600000x3x128_2_01_n_n_01_2_11128 with hD
  have h0 : D.start (ix3 e col d) (val_main_v15 (F := Ideal) x3) (0 : Fin 3) + D.batchCoord (ix3 e col d) (0 : Fin 3)
      + D.offCoord (ix3 e col d) (0 : Fin 3) = col.val := by
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 3) ∈ D.startIndexMap by decide)]
    have hsi : D.siIdx (ix3 e col d) ⟨List.idxOf (0 : Fin 3) D.startIndexMap,
        List.idxOf_lt_length_iff.2 (by decide)⟩ = ix3 e col (0 : Fin 2) := by
      funext b; refine Fin.ext ?_
      match b with
      | ⟨0, _⟩ => rfl
      | ⟨1, _⟩ => rfl
      | ⟨2, _⟩ => rfl
    rw [hsi, v15_left, toInt_toNat_of_small _ (by rw [BitVec.toNat_ofNat]; have := col.isLt; omega), BitVec.toNat_ofNat]
    show min (col.val % 2 ^ 32) (3 - 1) = col.val
    have := col.isLt
    omega
  have h1 : D.start (ix3 e col d) (val_main_v15 (F := Ideal) x3) (1 : Fin 3) + D.batchCoord (ix3 e col d) (1 : Fin 3)
      + D.offCoord (ix3 e col d) (1 : Fin 3) = (vocIx x3 e col).val := by
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ D.startIndexMap by decide)]
    have hsi : D.siIdx (ix3 e col d) ⟨List.idxOf (1 : Fin 3) D.startIndexMap,
        List.idxOf_lt_length_iff.2 (by decide)⟩ = ix3 e col (1 : Fin 2) := by
      funext b; refine Fin.ext ?_
      match b with
      | ⟨0, _⟩ => rfl
      | ⟨1, _⟩ => rfl
      | ⟨2, _⟩ => rfl
    have hs := hidx e col
    rw [hsi, v15_right x3 e col hs, toInt_toNat_of_small _ (by omega)]
    show min (x3 (ix2 e col)).toNat (8 - 1) = (vocIx x3 e col).val
    unfold vocIx
    rw [dif_pos hs]
    simp only []
    omega
  have h2 : D.start (ix3 e col d) (val_main_v15 (F := Ideal) x3) (2 : Fin 3) + D.batchCoord (ix3 e col d) (2 : Fin 3)
      + D.offCoord (ix3 e col d) (2 : Fin 3) = d.val := by
    rw [GatherDims.batchCoord_eq_zero _ _ _ List.not_mem_nil]
    unfold GatherDims.start
    rw [dif_neg (show ¬ (2 : Fin 3) ∈ D.startIndexMap by decide)]
    unfold GatherDims.offCoord
    rw [dif_pos (show (2 : Fin 3) ∈ D.sKept by decide)]
    have hk : List.idxOf (2 : Fin 3) D.sKept = 0 := by decide
    simp only [hk, Nat.zero_add]
    rfl
  funext a
  refine Fin.ext ?_
  match a with
  | ⟨0, _⟩ => exact h0
  | ⟨1, _⟩ => exact h1
  | ⟨2, _⟩ => exact h2

/-- The message of edge e at feature d, as the reference computes it: the gathered source row plus the three gathered
    table rows, summed from zero. -/
theorem v25_apply (x0 : (Sh2 50000 128).Idx → EReal) (x1 : (Sh1 600000).Idx → BitVec 32)
    (x3 : (Sh2 600000 3).Idx → BitVec 32) (x4 : (Sh3 3 8 128).Idx → EReal)
    (hsrc : ∀ e : Fin 600000, (x1 (ix1 e)).toNat < 50000)
    (hidx : ∀ (e : Fin 600000) (col : Fin 3), (x3 (ix2 e col)).toNat < 8) (e : Fin 600000) (d : Fin 128) :
    val_main_v25 (F := Ideal) x0 x1 x3 x4 (ix2 e d) = msg x0 x1 x3 x4 e d := by
  rw [val_main_v25_apply, v24_apply x0 x1 hsrc, val_main_v17_apply, val_main_cst_apply]
  unfold msg
  show x0 (ix2 (srcIx x1 e) d) + (Ideal.ofBits .f32 0x00000000#32 + _) = _
  rw [Ideal.ofBits_zero_f32, zero_add]
  congr 1
  refine Finset.sum_congr rfl fun col _ => ?_
  have e1 : idx_main_v17 (ix2 e d) col = ix3 e col d :=
    funext fun a => Fin.ext (by match a with | ⟨0, _⟩ => rfl | ⟨1, _⟩ => rfl | ⟨2, _⟩ => rfl)
  rw [e1, v16_apply x3 x4 hidx]

/-- An update lands at operand index i exactly when, on every axis, its signed start plus its window coordinate is i's
    coordinate. -/
theorem resultIdx?_eq_some_iff {s si u : Shape} (D : ScatterDims s si u) {w : Nat} (j : u.Idx) (idx : IVec si w) (i : s.Idx) :
    D.resultIdx? j idx = some i ↔ ∀ a, D.start j idx a + (D.window j a : Int) = ((i a).val : Int) := by
  unfold ScatterDims.resultIdx?
  split
  · next h =>
    rw [Option.some.injEq]
    constructor
    · intro hfg a
      have h2 := h a
      have h3 : (D.start j idx a + (D.window j a : Int)).toNat = (i a).val := congrArg Fin.val (congrFun hfg a)
      omega
    · intro hh
      funext a
      apply Fin.ext
      show (D.start j idx a + (D.window j a : Int)).toNat = (i a).val
      have := hh a
      omega
  · next h =>
    constructor
    · intro hh; cases hh
    · intro hh
      exfalso
      apply h
      intro a
      have := hh a
      have := (i a).isLt
      omega

/-- A 32-bit word's signed value is the number n < 2^31 exactly when the word is n. -/
theorem toInt_eq_iff (w : BitVec 32) (n : Nat) (hn : n < 2 ^ 31) : w.toInt = (n : Int) ↔ w = BitVec.ofNat 32 n := by
  constructor
  · intro h
    apply BitVec.eq_of_toNat_eq
    rw [BitVec.toNat_ofNat]
    rw [BitVec.toInt_eq_toNat_cond] at h
    have := w.isLt
    split at h <;> omega
  · intro h
    subst h
    rw [BitVec.toInt_eq_toNat_of_lt (by rw [BitVec.toNat_ofNat]; omega), BitVec.toNat_ofNat]
    have : n % 2 ^ 32 = n := Nat.mod_eq_of_lt (by omega)
    omega

/-- The row scatter: the update at edge e, feature d' lands at row n, feature d exactly when d' = d and the destination
    word of e is n. -/
theorem res28 (x2 : (Sh1 600000).Idx → BitVec 32) (e : Fin 600000) (d' : Fin 128) (n : Fin 50000) (d : Fin 128) :
    scatter_S50000x128_S600000x1_S600000x128_1_0_0_1.resultIdx? (ix2 e d') (val_main_v27 (F := Ideal) x2) = some (ix2 n d)
      ↔ (d' = d ∧ x2 (ix1 e) = BitVec.ofNat 32 n.val) := by
  rw [resultIdx?_eq_some_iff]
  set D := scatter_S50000x128_S600000x1_S600000x128_1_0_0_1 with hD
  have hs0 : D.start (ix2 e d') (val_main_v27 (F := Ideal) x2) (0 : Fin 2) = (x2 (ix1 e)).toInt := by
    unfold ScatterDims.start
    rw [dif_pos (show (0 : Fin 2) ∈ D.scatterDimsToOperandDims by decide)]
    have hsi : D.siIdx (ix2 e d') ⟨List.idxOf (0 : Fin 2) D.scatterDimsToOperandDims,
        List.idxOf_lt_length_iff.2 (by decide)⟩ = ix2 e (0 : Fin 1) := by
      funext b; refine Fin.ext ?_
      match b with
      | ⟨0, _⟩ => rfl
      | ⟨1, _⟩ => rfl
    rw [hsi, val_main_v27_apply]
    have e1 : idx_main_v27 (ix2 e (0 : Fin 1)) = ix1 e := funext fun a => Fin.ext (by match a with | ⟨0, _⟩ => rfl)
    rw [e1]
  have hw0 : D.window (ix2 e d') (0 : Fin 2) = 0 := by
    unfold ScatterDims.window
    rw [dif_neg (show ¬ (0 : Fin 2) ∈ D.sKept by decide)]
  have hs1 : D.start (ix2 e d') (val_main_v27 (F := Ideal) x2) (1 : Fin 2) = 0 := by
    unfold ScatterDims.start
    rw [dif_neg (show ¬ (1 : Fin 2) ∈ D.scatterDimsToOperandDims by decide)]
  have hw1 : D.window (ix2 e d') (1 : Fin 2) = d'.val := by
    unfold ScatterDims.window
    rw [dif_pos (show (1 : Fin 2) ∈ D.sKept by decide)]
    have hk : List.idxOf (1 : Fin 2) D.sKept = 0 := by decide
    simp only [hk]
    rfl
  rw [Fin.forall_fin_two, hs0, hw0, hs1, hw1]
  show ((x2 (ix1 e)).toInt + ((0 : Nat) : Int) = (n.val : Int) ∧ (0 : Int) + (d'.val : Int) = (d.val : Int)) ↔ _
  rw [← toInt_eq_iff _ n.val (by have := n.isLt; omega)]
  constructor
  · rintro ⟨h1, h2⟩
    exact ⟨Fin.ext (by omega), by omega⟩
  · rintro ⟨h1, h2⟩
    subst h1
    exact ⟨by omega, by omega⟩

/-- The segment sum of the messages: row n, feature d of the row scatter into zeros. -/
theorem v28_apply (x0 : (Sh2 50000 128).Idx → EReal) (x1 x2 : (Sh1 600000).Idx → BitVec 32)
    (x3 : (Sh2 600000 3).Idx → BitVec 32) (x4 : (Sh3 3 8 128).Idx → EReal)
    (hsrc : ∀ e : Fin 600000, (x1 (ix1 e)).toNat < 50000)
    (hidx : ∀ (e : Fin 600000) (col : Fin 3), (x3 (ix2 e col)).toNat < 8) (n : Fin 50000) (d : Fin 128) :
    val_main_v28 (F := Ideal) x0 x1 x2 x3 x4 (ix2 n d)
      = ∑ e : Fin 600000, ind (x2 (ix1 e) = BitVec.ofNat 32 n.val) * msg x0 x1 x3 x4 e d := by
  unfold val_main_v28 Host.scatterAdd
  rw [Ideal.hostScatterAdd_def]
  unfold Ideal.hostScatterAdd
  rw [val_main_v26_apply, val_main_cst_5_apply, Ideal.ofBits_def, Ideal.ofBits_zero_f32, zero_add, Finset.sum_filter,
    sum_idx2]
  refine Finset.sum_congr rfl fun e _ => ?_
  simp only [res28]
  by_cases hq : x2 (ix1 e) = BitVec.ofNat 32 n.val
  · simp only [hq, and_true, Finset.sum_ite_eq', Finset.mem_univ, if_true]
    unfold ind
    rw [if_pos trivial, one_mul, v25_apply x0 x1 x3 x4 hsrc hidx]
  · simp only [hq, and_false, if_false, Finset.sum_const_zero]
    unfold ind
    rw [if_neg not_false, zero_mul]

/-- The f32 pattern 0x3F800000 is the number one. -/
theorem ofBits_one_f32 : Ideal.ofBits .f32 0x3F800000#32 = 1 := by
  simp [Ideal.ofBits, Ideal.ieee]
  rw [← EReal.coe_mul]
  norm_num

/-- A rank-1 index set is its coordinate range. -/
def idxEquivR1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquivR1 (n := n)).symm f]
  rfl

/-- The degree scatter: the update at edge e lands at node n exactly when the destination word of e is n. -/
theorem res32 (x2 : (Sh1 600000).Idx → BitVec 32) (e : Fin 600000) (n : Fin 50000) :
    scatter_S50000_S600000x1_S600000_n_0_0_1.resultIdx? (ix1 e) (val_main_v31 (F := Ideal) x2) = some (ix1 n)
      ↔ x2 (ix1 e) = BitVec.ofNat 32 n.val := by
  rw [resultIdx?_eq_some_iff]
  set D := scatter_S50000_S600000x1_S600000_n_0_0_1 with hD
  have hs0 : D.start (ix1 e) (val_main_v31 (F := Ideal) x2) (0 : Fin 1) = (x2 (ix1 e)).toInt := by
    unfold ScatterDims.start
    rw [dif_pos (show (0 : Fin 1) ∈ D.scatterDimsToOperandDims by decide)]
    have hsi : D.siIdx (ix1 e) ⟨List.idxOf (0 : Fin 1) D.scatterDimsToOperandDims,
        List.idxOf_lt_length_iff.2 (by decide)⟩ = ix2 e (0 : Fin 1) := by
      funext b; refine Fin.ext ?_
      match b with
      | ⟨0, _⟩ => rfl
      | ⟨1, _⟩ => rfl
    rw [hsi, val_main_v31_apply]
    have e1 : idx_main_v31 (ix2 e (0 : Fin 1)) = ix1 e := funext fun a => Fin.ext (by match a with | ⟨0, _⟩ => rfl)
    rw [e1]
  have hw0 : D.window (ix1 e) (0 : Fin 1) = 0 := by
    unfold ScatterDims.window
    rw [dif_neg (show ¬ (0 : Fin 1) ∈ D.sKept by decide)]
  rw [Fin.forall_fin_one, hs0, hw0]
  show (x2 (ix1 e)).toInt + ((0 : Nat) : Int) = (n.val : Int) ↔ _
  rw [← toInt_eq_iff _ n.val (by have := n.isLt; omega)]
  constructor <;> intro h <;> omega

/-- The in-degree of node n: element n of the scatter of ones into zeros. -/
theorem v32_apply (x2 : (Sh1 600000).Idx → BitVec 32) (n : Fin 50000) :
    val_main_v32 (F := Ideal) x2 (ix1 n) = ∑ e : Fin 600000, ind (x2 (ix1 e) = BitVec.ofNat 32 n.val) := by
  unfold val_main_v32 Host.scatterAdd
  rw [Ideal.hostScatterAdd_def]
  unfold Ideal.hostScatterAdd
  rw [val_main_v30_apply, val_main_cst_7_apply, Ideal.ofBits_def, Ideal.ofBits_zero_f32, zero_add, Finset.sum_filter,
    sum_idx1]
  refine Finset.sum_congr rfl fun e _ => ?_
  rw [val_main_v29_apply, val_main_cst_6_apply, Ideal.ofBits_def, ofBits_one_f32]
  simp only [res32]
  rfl

/-- THE REFERENCE READ AT ROW n, OUTPUT FEATURE d': the layer. Under the two range hypotheses the negative-index wraps are
    the identity and neither gather's clamp binds, so the reference is, literally, the projection of the degree-normalised
    sum of the node's own row and the messages it receives, plus the bias. -/
theorem ref_value (x0 : (Sh2 50000 128).Idx → EReal) (x1 x2 : (Sh1 600000).Idx → BitVec 32) (x3 : (Sh2 600000 3).Idx → BitVec 32)
    (x4 : (Sh3 3 8 128).Idx → EReal) (x5 : (Sh2 128 128).Idx → EReal) (x6 : (Sh1 128).Idx → EReal)
    (hsrc : ∀ e : Fin 600000, (x1 (ix1 e)).toNat < 50000) (hidx : ∀ (e : Fin 600000) (col : Fin 3), (x3 (ix2 e col)).toNat < 8)
    (n : Fin 50000) (d' : Fin 128) :
    Cert.ReferenceIdeal.Read.val_main_v42 (F := Ideal) x0 x1 x2 x3 x4 x5 x6 (ix2 n d')
      = layer x0 x1 x2 x3 x4 x5 x6 (degOf x2) n d' := by
  rw [val_main_v42_apply, val_main_v39_apply, val_main_v41_apply, val_main_v40_apply, Ideal.addf_def]
  unfold layer
  refine congrArg₂ (· + ·) ?_ ?_
  · refine Finset.sum_congr rfl fun k _ => ?_
    have el : lidx_main_v39 (ix2 n d') k = ix2 n k :=
      funext fun a => Fin.ext (by match a with | ⟨0, _⟩ => rfl | ⟨1, _⟩ => rfl)
    have er : ridx_main_v39 (ix2 n d') k = ix2 k d' :=
      funext fun a => Fin.ext (by match a with | ⟨0, _⟩ => rfl | ⟨1, _⟩ => rfl)
    have e37 : idx_main_v36 (idx_main_v37 (ix2 n k)) = ix1 n :=
      funext fun a => Fin.ext (by match a with | ⟨0, _⟩ => rfl)
    rw [el, er, val_main_v38_apply, val_main_v35_apply, val_main_v37_apply, val_main_v36_apply, val_main_v34_apply, e37,
      v32_apply, v28_apply x0 x1 x2 x3 x4 hsrc hidx, val_main_v33_apply, val_main_cst_8_apply, Ideal.ofBits_def,
      ofBits_one_f32, Ideal.hostDivf_def, Ideal.addf_def, Ideal.addf_def]
    rfl
  · have e41 : idx_main_v40 (idx_main_v41 (ix2 n d')) = ix1 d' :=
      funext fun a => Fin.ext (by match a with | ⟨0, _⟩ => rfl)
    rw [e41]

end Cert.ReferenceIdeal.Hand

end
-- ==== Proof.KI.Run.lean ====
/-
  The launch of the whole program: @main's fourteen items run in order on the core — eleven stretches of host
  operations, the gather launch, the scatter launch, and a last stretch (a transpose and a slice) — from the launch
  memory to a final memory in which every unscoped buffer holds the last valuation of the chain of contents
  (the launch memory, then each stretch applied, then each launch's output array replaced by what its pipeline
  leaves there).  Each launch is a region of the library's several-regions launch theorem: its arrays are split out of the unscoped
  buffers at entry and put back at exit, the generator register and the unstaged scoped buffers go through the
  region invariant and come back.
-/
import proofs.«413313_j22084721836888_2_alg».proof.Proof.KI.Vals
import Idealize.ShloMosaic.Lib.Pipeline.RegionsLoop
import Idealize.ShloMosaic.Lib.Pipeline.FrameSuffix
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each launch and the last stretch leave unchanged -/

/-- The gather launch changes only its output array. -/
theorem W12_of (c : Dev nD) (r : Ref sig .tc) (h : r ≠ main_v23) : W12 m c r = V11 m c r :=
  Function.update_of_ne (StableHlo.devRef_ne_of_ne h) _ _
/-- Its output array holds the message matrix. -/
theorem W12_self (c : Dev nD) : W12 m c main_v23 = mTarr m c := Function.update_self _ _ _
/-- The scatter launch changes only its output array. -/
theorem W13_of (c : Dev nD) (r : Ref sig .tc) (h : r ≠ main_v24) : W13 m c r = W12 m c r :=
  Function.update_of_ne (StableHlo.devRef_ne_of_ne h) _ _
/-- Its output array holds the transposed output. -/
theorem W13_self (c : Dev nD) : W13 m c main_v24 = oTarr m c := Function.update_self _ _ _
/-- The last stretch changes only the two buffers it writes. -/
theorem W14_of (c : Dev nD) (r : Ref sig .tc) (h : r ∉ hostOps2_W) : W14 m c r = W13 m c r :=
  StableHlo.after_of_writes_sub hostOps2 _ hostOps2_writes h

/-- A buffer no item writes reaches the end as launched: the chain of contents walks back to the launch memory. -/
theorem W14_untouched (c : Dev nD) (r : Ref sig .tc) (h14 : r ∉ hostOps2_W) (h13 : r ≠ main_v24) (h12 : r ≠ main_v23)
    (h11 : r ∉ hostOps0_10_W) (h10 : r ∉ hostOps0_9_W) (h9 : r ∉ hostOps0_8_W) (h8 : r ∉ hostOps0_7_W)
    (h7 : r ∉ hostOps0_6_W) (h6 : r ∉ hostOps0_5_W) (h5 : r ∉ hostOps0_4_W) (h4 : r ∉ hostOps0_3_W)
    (h3 : r ∉ hostOps0_2_W) (h2 : r ∉ hostOps0_1_W) (h1 : r ∉ hostOps0_W) :
    W14 m c r = m ((c : Thread nD τ).loc r) :=
  (W14_of m c r h14).trans <| (W13_of m c r h13).trans <| (W12_of m c r h12).trans <| (V11_of m c r h11).trans <|
    (V10_of m c r h10).trans <| (V9_of m c r h9).trans <| (V8_of m c r h8).trans <| (V7_of m c r h7).trans <|
    (V6_of m c r h6).trans <| (V5_of m c r h5).trans <| (V4_of m c r h4).trans <| (V3_of m c r h3).trans <|
    (V2_of m c r h2).trans <| (V1_of m c r h1).trans rfl

theorem W14_main_arg0 (c : Dev nD) : W14 m c main_arg0 = m ((c : Thread nD τ).loc main_arg0) :=
  W14_untouched m c main_arg0 (by decide) (by decide) (by decide) (by decide) (by decide) (by decide) (by decide) (by decide) (by decide) (by decide) (by decide) (by decide) (by decide) (by decide)
theorem W14_main_arg1 (c : Dev nD) : W14 m c main_arg1 = m ((c : Thread nD τ).loc main_arg1) :=
  W14_untouched m c main_arg1 (by decide) (by decide) (by decide) (by decide) (by decide) (by decide) (by decide) (by decide) (by decide) (by decide) (by decide) (by decide) (by decide) (by decide)
theorem W14_main_arg2 (c : Dev nD) : W14 m c main_arg2 = m ((c : Thread nD τ).loc main_arg2) :=
  W14_untouched m c main_arg2 (by decide) (by decide) (by decide) (by decide) (by decide) (by decide) (by decide) (by decide) (by decide) (by decide) (by decide) (by decide) (by decide) (by decide)
theorem W14_main_arg3 (c : Dev nD) : W14 m c main_arg3 = m ((c : Thread nD τ).loc main_arg3) :=
  W14_untouched m c main_arg3 (by decide) (by decide) (by decide) (by decide) (by decide) (by decide) (by decide) (by decide) (by decide) (by decide) (by decide) (by decide) (by decide) (by decide)
theorem W14_main_arg4 (c : Dev nD) : W14 m c main_arg4 = m ((c : Thread nD τ).loc main_arg4) :=
  W14_untouched m c main_arg4 (by decide) (by decide) (by decide) (by decide) (by decide) (by decide) (by decide) (by decide) (by decide) (by decide) (by decide) (by decide) (by decide) (by decide)
theorem W14_main_arg5 (c : Dev nD) : W14 m c main_arg5 = m ((c : Thread nD τ).loc main_arg5) :=
  W14_untouched m c main_arg5 (by decide) (by decide) (by decide) (by decide) (by decide) (by decide) (by decide) (by decide) (by decide) (by decide) (by decide) (by decide) (by decide) (by decide)
theorem W14_main_arg6 (c : Dev nD) : W14 m c main_arg6 = m ((c : Thread nD τ).loc main_arg6) :=
  W14_untouched m c main_arg6 (by decide) (by decide) (by decide) (by decide) (by decide) (by decide) (by decide) (by decide) (by decide) (by decide) (by decide) (by decide) (by decide) (by decide)

/-! ## The arrays of each launch at its exit -/

/-- The buffers after the second launch, read at the core's references. -/
abbrev E2 : (c : Dev nD) → (b : Ref sig .tc) → Buf (Elt F) ((c : Thread nD τ).loc b) := fun c b => W13 m c b

/-- At the gather launch's exit every array of its pipeline holds what the valuation after it says: an input array is
    never written back, so it holds its entry contents, which the update at the output array leaves alone; the output
    array holds the folded write-backs, which is the message matrix by definition. -/
theorem hF0 (c : Dev nD) : ∀ w : Fin 5, (dat0 (E0 m) c).arrAt w cfg0.N = E1 m c (Pipeline.arrRef spec0 w)
  | ⟨0, _⟩ => (((dat0 (E0 m) c).arrAt_in 0 rfl _).trans (A_eq0 (E0 m) c 0)).trans (W12_of m c main_v6 (by decide)).symm
  | ⟨1, _⟩ => (((dat0 (E0 m) c).arrAt_in 1 rfl _).trans (A_eq0 (E0 m) c 1)).trans (W12_of m c main_v8 (by decide)).symm
  | ⟨2, _⟩ => (((dat0 (E0 m) c).arrAt_in 2 rfl _).trans (A_eq0 (E0 m) c 2)).trans (W12_of m c main_v11 (by decide)).symm
  | ⟨3, _⟩ => (((dat0 (E0 m) c).arrAt_in 3 rfl _).trans (A_eq0 (E0 m) c 3)).trans (W12_of m c main_v2 (by decide)).symm
  | ⟨4, _⟩ => (W12_self m c).symm
/-- Every other unscoped buffer holds what it held at entry. -/
theorem hrest0 (c : Dev nD) : ∀ b, b ∉ Finset.univ.image (Pipeline.arrRef spec0) → E1 m c b = E0 m c b :=
  fun b hb => W12_of m c b fun e => hb (Finset.mem_image.mpr ⟨(4 : Fin 5), Finset.mem_univ _, e.symm⟩)

/-- The same for the scatter launch: six input arrays (the message matrix among them), one output array. -/
theorem hF1 (c : Dev nD) : ∀ w : Fin 7, (dat1 (E1 m) c).arrAt w cfg1.N = E2 m c (Pipeline.arrRef spec1 w)
  | ⟨0, _⟩ => (((dat1 (E1 m) c).arrAt_in 0 rfl _).trans (A_eq1 (E1 m) c 0)).trans (W13_of m c main_v7 (by decide)).symm
  | ⟨1, _⟩ => (((dat1 (E1 m) c).arrAt_in 1 rfl _).trans (A_eq1 (E1 m) c 1)).trans (W13_of m c main_v23 (by decide)).symm
  | ⟨2, _⟩ => (((dat1 (E1 m) c).arrAt_in 2 rfl _).trans (A_eq1 (E1 m) c 2)).trans (W13_of m c main_v1 (by decide)).symm
  | ⟨3, _⟩ => (((dat1 (E1 m) c).arrAt_in 3 rfl _).trans (A_eq1 (E1 m) c 3)).trans (W13_of m c main_v19 (by decide)).symm
  | ⟨4, _⟩ => (((dat1 (E1 m) c).arrAt_in 4 rfl _).trans (A_eq1 (E1 m) c 4)).trans (W13_of m c main_v21 (by decide)).symm
  | ⟨5, _⟩ => (((dat1 (E1 m) c).arrAt_in 5 rfl _).trans (A_eq1 (E1 m) c 5)).trans (W13_of m c main_v22 (by decide)).symm
  | ⟨6, _⟩ => (W13_self m c).symm
theorem hrest1 (c : Dev nD) : ∀ b, b ∉ Finset.univ.image (Pipeline.arrRef spec1) → E2 m c b = E1 m c b :=
  fun b hb => W13_of m c b fun e => hb (Finset.mem_image.mpr ⟨(6 : Fin 7), Finset.mem_univ _, e.symm⟩)

/-! ## The proof data family and the thread state -/

/-- Every pipeline's proof data, each at its launch's entry contents — a literal match, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
/-- No body variant. -/
abbrev 𝒱n : Variants := Variants.none
/-- No core owes another anything: no level is assigned. -/
abbrev Lz : GSem nD τ sig → Finset Unit := fun _ => ∅
abbrev lvz : GSem nD τ sig → Unit → ℕ := fun _ _ => 0
/-- What rides beside the buffers through every item: the core's generator register at some state and its dues, at
    nothing. -/
abbrev Rst (c : Dev nD) : sProp 𝕄 := iprop((∃ r, prngReg c r) ∗ ∃ W, owes (c : Thread nD τ) (0 : CellTallies nD τ sig Unit) W)
/-- The same rest between any two items. -/
abbrev Ez : Fin 3 → Dev nD → sProp 𝕄 := fun _ c => Rst c

/-! ## The two launches as regions -/

-- `iapply` of a library lemma stated over the pinned configuration unifies with the printed one only when unification
-- may unfold plain definitions in a metavariable's type
set_option backward.isDefEq.respectTransparency.types false in
/-- The gather launch as a region over the thread state: entered from every unscoped buffer at the contents before
    it, left at those contents with its output array replaced.  Its arrays are split out of the unscoped buffers and
    put back at their exit contents; the generator register goes into the region invariant and comes back; the core
    owes nothing throughout; the kernel has no semaphore of its own. -/
def reg0 (hbody0 : ∀ c : Dev nD, BodyObligation (dat0 (F := F) (E0 m) c) (defs₀ (F := F)) Variants.none () Set.univ)
    (hin0 : ∀ c : Dev nD, (Pipeline.ΦA spec0 c : sProp 𝕄) ⊢ (dat0 (E0 m) c).Φ 0)
    (hout0 : ∀ c : Dev nD, (dat0 (E0 m) c).Φ (Fin.last cfg0.N) ⊢ (Pipeline.ΦA spec0 c : sProp 𝕄)) :
    Pipeline.RegionSeg (pcfgs (F := F)) adm (pdats m) () defs₀ 𝒱n Lz lvz 0 where
  win := launch0.win.to₀
  block_pos := launch0.block_pos
  stage_whole := launch0.stage_whole
  K := PEmpty
  osem k := k.elim
  ho := Pipeline.OwnSemFacts.none _
  hbody c := (hbody0 c).loose
  hwaits := Pipeline.hwaits_of_owed_zero _ _ _ _ Lz lvz 0 fun _ _ => rfl
  pre c := iprop(StableHlo.held (c : Thread nD τ) (Pipeline.ucRefs τ sig) (V11 m c) ∗ Rst c)
  post c := iprop(StableHlo.held (c : Thread nD τ) (Pipeline.ucRefs τ sig) (W12 m c) ∗ Rst c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- the class invariant from the register and the unstaged scoped buffers, then the given entailment into the
    -- region's own invariant at the first point
    refine (show _ ⊢ (Pipeline.ΦA spec0 c : sProp 𝕄) from ?_).trans (hin0 c)
    unfold Pipeline.ΦA
    iintro ⟨Hp, -, Hr⟩
    isplitl [Hr]; · iexact Hr
    iexact Hp
  hout c := by
    -- the region's own invariant at the last point gives the class invariant back, which is the register and the
    -- unstaged scoped buffers
    refine (hout0 c).trans (show (Pipeline.ΦA spec0 c : sProp 𝕄) ⊢ _ from ?_)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with the printed one only when unification
-- may unfold plain definitions in a metavariable's type
set_option backward.isDefEq.respectTransparency.types false in
/-- The scatter launch as a region over the thread state: entered from every unscoped buffer at the contents before
    it, left at those contents with its output array replaced.  Its arrays are split out of the unscoped buffers and
    put back at their exit contents; the generator register goes into the region invariant and comes back; the core
    owes nothing throughout; the kernel has no semaphore of its own. -/
def reg1 (hbody1 : ∀ c : Dev nD, BodyObligation (dat1 (F := F) (E1 m) c) (defs₀ (F := F)) Variants.none () Set.univ)
    (hin1 : ∀ c : Dev nD, (Pipeline.ΦA spec1 c : sProp 𝕄) ⊢ (dat1 (E1 m) c).Φ 0)
    (hout1 : ∀ c : Dev nD, (dat1 (E1 m) c).Φ (Fin.last cfg1.N) ⊢ (Pipeline.ΦA spec1 c : sProp 𝕄)) :
    Pipeline.RegionSeg (pcfgs (F := F)) adm (pdats m) () defs₀ 𝒱n Lz lvz 1 where
  win := launch1.win.to₀
  block_pos := launch1.block_pos
  stage_whole := launch1.stage_whole
  K := PEmpty
  osem k := k.elim
  ho := Pipeline.OwnSemFacts.none _
  hbody c := (hbody1 c).loose
  hwaits := Pipeline.hwaits_of_owed_zero _ _ _ _ Lz lvz 1 fun _ _ => rfl
  pre c := iprop(StableHlo.held (c : Thread nD τ) (Pipeline.ucRefs τ sig) (W12 m c) ∗ Rst c)
  post c := iprop(StableHlo.held (c : Thread nD τ) (Pipeline.ucRefs τ sig) (W13 m c) ∗ Rst c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- the class invariant from the register and the unstaged scoped buffers, then the given entailment into the
    -- region's own invariant at the first point
    refine (show _ ⊢ (Pipeline.ΦA spec1 c : sProp 𝕄) from ?_).trans (hin1 c)
    unfold Pipeline.ΦA
    iintro ⟨Hp, -, Hr⟩
    isplitl [Hr]; · iexact Hr
    iexact Hp
  hout c := by
    -- the region's own invariant at the last point gives the class invariant back, which is the register and the
    -- unstaged scoped buffers
    refine (hout1 c).trans (show (Pipeline.ΦA spec1 c : sProp 𝕄) ⊢ _ from ?_)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last stretch (the transpose and the slice) over the unscoped buffers from the contents after the second
    launch, the rest riding along. -/
def seg13H : Pipeline.HostSeg (Ix := Unit) (Name := ℕ) (U := UR sig nD τ) (Lvl := ℕ) (pcfgs (F := F)) defs₀ 𝒱n Lz lvz :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W13 m) (fun c => Rst c)

/-- @main's fourteen items in order: the eleven stretches before the launches from the chain of contents, the two
    regions, the last stretch. -/
abbrev segsH (R0 : Pipeline.RegionSeg (pcfgs (F := F)) adm (pdats m) () defs₀ 𝒱n Lz lvz 0)
    (R1 : Pipeline.RegionSeg (pcfgs (F := F)) adm (pdats m) () defs₀ 𝒱n Lz lvz 1) :
    List (Pipeline.Seg (pcfgs (F := F)) adm (pdats m) () defs₀ 𝒱n Lz lvz) :=
  [.host (seg0 m 𝒱n Lz lvz Ez), .host (seg1 m 𝒱n Lz lvz Ez), .host (seg2 m 𝒱n Lz lvz Ez), .host (seg3 m 𝒱n Lz lvz Ez),
   .host (seg4 m 𝒱n Lz lvz Ez), .host (seg5 m 𝒱n Lz lvz Ez), .host (seg6 m 𝒱n Lz lvz Ez), .host (seg7 m 𝒱n Lz lvz Ez),
   .host (seg8 m 𝒱n Lz lvz Ez), .host (seg9 m 𝒱n Lz lvz Ez), .host (seg10 m 𝒱n Lz lvz Ez), .region R0, .region R1,
   .host (seg13H m)]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- THE RUN.  From any launch memory with zero counters, given each launch's body obligation and the two entailments
    between its own invariant and the class invariant, every weakly fair execution of @main terminates, and at the end
    the result buffer holds what the last valuation of the chain says and every argument its launch contents. -/
theorem run_main_of (m : (ℓ : Loc nD τ sig) → Buf (Elt F) ℓ) (ρ : Dev nD → PrngReg)
    (hbody0 : ∀ c : Dev nD, BodyObligation (dat0 (F := F) (E0 m) c) (defs₀ (F := F)) Variants.none () Set.univ)
    (hin0 : ∀ c : Dev nD, (Pipeline.ΦA spec0 c : sProp 𝕄) ⊢ (dat0 (E0 m) c).Φ 0)
    (hout0 : ∀ c : Dev nD, (dat0 (E0 m) c).Φ (Fin.last cfg0.N) ⊢ (Pipeline.ΦA spec0 c : sProp 𝕄))
    (hbody1 : ∀ c : Dev nD, BodyObligation (dat1 (F := F) (E1 m) c) (defs₀ (F := F)) Variants.none () Set.univ)
    (hin1 : ∀ c : Dev nD, (Pipeline.ΦA spec1 c : sProp 𝕄) ⊢ (dat1 (E1 m) c).Φ 0)
    (hout1 : ∀ c : Dev nD, (dat1 (E1 m) c).Φ (Fin.last cfg1.N) ⊢ (Pipeline.ΦA spec1 c : sProp 𝕄)) :
    θ_run defs (onTc (τ := τ) (main (F := F))) ⟨m, fun _ => 0, ρ⟩ (fun r => ∀ c : Dev nD,
      r.2.mem ((c.tc : Thread nD τ).loc main_v26) = W14 m c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm (pdats m) () cellOf_inj emb₁ defs₀ 𝒱n Lz lvz m ρ main
    (fun _ => segsH m (reg0 m hbody0 hin0 hout0) (reg1 m hbody1 hin1 hout1))
    (fun c Q => by
      rewrite [main_chain c, Pipeline.Seg.run_eq_chain,
        show (segsH m (reg0 m hbody0 hin0 hout0) (reg1 m hbody1 hin1 hout1)).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          Prog.lift (.customCall (Pipeline.entry 0) ()),
          Prog.lift (.customCall (Pipeline.entry 1) ()),
          StableHlo.seq hostOps2 ] from rfl]
      exact .rfl)
    (fun c => by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ Rst c))
    (Tₙ := fun c => StableHlo.held (c : Thread nD τ) (Pipeline.ucRefs τ sig) (W14 m c))
    (hch := fun c => ⟨.rfl, .rfl, .rfl, .rfl, .rfl, .rfl, .rfl, .rfl, .rfl, .rfl, .rfl, .rfl, .rfl, .rfl,
      sep_mono .rfl (by iintro ⟨-, H⟩; iexact H)⟩)
    (hinit := ?_)
    (QY := fun c s => s.mem ((c.tc : Thread nD τ).loc main_v26) = W14 m c main_v26
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6))
    (hfin := fun c s' => ?_) (hQ := fun _ h => h)
  · -- the launch element is the pipeline library's own; no further ghost resource per core
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the launch: each core's unscoped buffers are held at the launch memory; its register and its dues make the rest
    refine Pipeline.initEach Lz lvz fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result buffer and each argument's buffer read off the last valuation
    unfold StableHlo.held
    iintro ⟨Hh, HSI⟩
    ihave Hr := (pointsTo_read_all (Pipeline.ucRefs τ sig) (fun b => ((c : Thread nD τ).1, b)) (W14 m c) s') $$ [Hh HSI]
    · isplitl [Hh] <;> iassumption
    icases Hr with ⟨%h, HSI⟩
    imodintro
    isplitr
    · ipureintro
      exact ⟨h (Proc.devRef .tc main_v26) (mem_uc main_v26 (by decide)),
        (h (Proc.devRef .tc main_arg0) (mem_uc main_arg0 (by decide))).trans (W14_main_arg0 m c),
        (h (Proc.devRef .tc main_arg1) (mem_uc main_arg1 (by decide))).trans (W14_main_arg1 m c),
        (h (Proc.devRef .tc main_arg2) (mem_uc main_arg2 (by decide))).trans (W14_main_arg2 m c),
        (h (Proc.devRef .tc main_arg3) (mem_uc main_arg3 (by decide))).trans (W14_main_arg3 m c),
        (h (Proc.devRef .tc main_arg4) (mem_uc main_arg4 (by decide))).trans (W14_main_arg4 m c),
        (h (Proc.devRef .tc main_arg5) (mem_uc main_arg5 (by decide))).trans (W14_main_arg5 m c),
        (h (Proc.devRef .tc main_arg6) (mem_uc main_arg6 (by decide))).trans (W14_main_arg6 m c)⟩
    · iexact HSI

end Cert.KernelIdeal.Hand

end
-- ==== Proof.KI.V1.lean ====
/-
  The value of the scatter-and-project launch (the program's second pallas_call) at the ideal instance: the array it
  leaves in its output, read at feature d' and node n, is `Cert.Spec.outT` of its six input arrays,

      outT[d', n] = Σ_d  W[d', d] · ((X[d, n] + agg[d, n]) / deg[n])  +  b[d'],
      agg[d, n]   = Σ_e  M[d, e] · ([dst e = n] · [e < 600000]).

  The grid is 25 node tiles × 293 edge tiles; point t = 293·a + k handles node tile a and edge tile k. The steps:

  * the three payloads at an index. The accumulation step adds, at (d, j), the product of row d of the message tile
    with column j of the masked one-hot matrix: entry (r, j) of that matrix is 1 exactly when edge 2048·k + r has
    destination word 2048·a + j and is a real edge (its number is below 600000), else 0 — a one-bit compare, widened
    and converted, is the indicator; the tile base plus the offset does not overflow a 32-bit word, and for such small
    words the signed compare is the compare of numbers. The reset stores zeros. The output payload is the weights' row
    against the column (features + accumulator) / degree, plus the bias (a change of float format is the identity here).
  * the blocks: a block's element sits in its array at block index × block size + its coordinate inside the block, and
    the block indices are the grid coordinates (edge tile for the ids and messages, node tile for the features, degrees
    and output; the weights and the bias are whole).
  * the accumulator after point 293·a + k is the sum of the contributions of edge tiles 0 … k, by induction on k;
    at k = 292 it is the whole sum over the 293 edge tiles, which is `aggT` at node 2048·a + j.
  * the output window writes back at k = 292 only; every column n lies in the block written at 293·(n / 2048) + 292,
    so the array ends holding `outT` everywhere.

  Over the extended reals only 0 + x = x and the reindexing of finite sums are used; no finiteness is needed.
-/
import proofs.«413313_j22084721836888_2_alg».proof.Proof.KI.R1Defs
import proofs.«413313_j22084721836888_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec Idealize.ShloMosaic.ValueIdx
open scoped BigOperators

/-! ## Words -/

/-- A one-bit word, widened to 32 bits and converted, is 1 or 0. -/
theorem sitofp_bit (p : Bool) :
    (FloatOps.sitofp (F := Ideal) .f32 ((BitVec.ofBool p).setWidth 32) : EReal) = if p then 1 else 0 := by
  cases p
  · show (((0#32 : BitVec 32).toInt : ℝ) : EReal) = 0
    simp
  · show (((1#32 : BitVec 32).toInt : ℝ) : EReal) = 1
    simp

/-- A tile's base plus an offset inside the tile, computed on 32-bit words, is the word of the number. -/
theorem tile_word (a j : Nat) (ha : a < 2048) (hj : j < 2048) :
    IntOp.addi (Scalar.muli (BitVec.ofNat 32 a) 2048#32) (BitVec.ofNat 32 j) = BitVec.ofNat 32 (2048 * a + j) := by
  apply BitVec.eq_of_toNat_eq
  simp only [IntOp.addi, Scalar.muli, IntOp.muli, BitVec.toNat_add, BitVec.toNat_mul, BitVec.toNat_ofNat]
  omega

/-- For a small number the signed compare with 600000 is the compare of numbers. -/
theorem slt_word (n : Nat) (hn : n < 2 ^ 31) :
    (BitVec.ofNat 32 n).slt 600000#32 = decide (n < 600000) := by
  have h1 : (BitVec.ofNat 32 n).toInt = (n : Int) := by
    rw [BitVec.toInt_eq_toNat_cond, BitVec.toNat_ofNat]
    have : n % 2 ^ 32 = n := Nat.mod_eq_of_lt (by omega)
    rw [this, if_pos (by omega)]
  have h2 : (600000#32 : BitVec 32).toInt = 600000 := by decide
  unfold BitVec.slt
  rw [h1, h2]
  exact decide_eq_decide.mpr (by omega)

/-! ## Layout: a column broadcast along the rows, and the integer compare, read at an index -/

/-- An `[a, 1]` array broadcast to `[a, b]` reads, at `(p, c)`, the operand's one column at `p`. -/
theorem bcast_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An integer compare at an index compares the elements. -/
theorem cmpi_apply {s : Shape} {w : Nat} (p : CmpIPredicate) (x y : IVec s w) (i : s.Idx) :
    cmpi p x y i = IntOp.cmpi p (x i) (y i) := rfl

/-- An integer sum at an index adds the elements. -/
theorem addi_apply {s : Shape} {w : Nat} (x y : IVec s w) (i : s.Idx) : addi x y i = IntOp.addi (x i) (y i) := rfl

/-! ## The accumulation step's payload at an index -/

theorem lhs_acc_0 (y : S128x2048.Idx) (q : dot_S128x2048_S2048x2048_S128x2048_1_0_0_1_n_n.contr.Idx) :
    (dot_S128x2048_S2048x2048_S128x2048_1_0_0_1_n_n.lhsIdx y q 0).val = (y 0).val := by
  unfold DotDims.lhsIdx
  rw [dif_neg (show ¬(0 : Fin S128x2048.rank) ∈ dot_S128x2048_S2048x2048_S128x2048_1_0_0_1_n_n.lhsBatch by decide), dif_pos (show (0 : Fin S128x2048.rank) ∈ dot_S128x2048_S2048x2048_S128x2048_1_0_0_1_n_n.lhsNonContracting by decide)]
  rfl
theorem lhs_acc_1 (y : S128x2048.Idx) (q : dot_S128x2048_S2048x2048_S128x2048_1_0_0_1_n_n.contr.Idx) :
    (dot_S128x2048_S2048x2048_S128x2048_1_0_0_1_n_n.lhsIdx y q 1).val = (q ⟨0, by decide⟩).val :=
  dot_S128x2048_S2048x2048_S128x2048_1_0_0_1_n_n.lhsIdx_val_of_single rfl y q
theorem rhs_acc_0 (y : S128x2048.Idx) (q : dot_S128x2048_S2048x2048_S128x2048_1_0_0_1_n_n.contr.Idx) :
    (dot_S128x2048_S2048x2048_S128x2048_1_0_0_1_n_n.rhsIdx y q 0).val = (q ⟨0, by decide⟩).val :=
  dot_S128x2048_S2048x2048_S128x2048_1_0_0_1_n_n.rhsIdx_val_of_single rfl y q
theorem rhs_acc_1 (y : S128x2048.Idx) (q : dot_S128x2048_S2048x2048_S128x2048_1_0_0_1_n_n.contr.Idx) :
    (dot_S128x2048_S2048x2048_S128x2048_1_0_0_1_n_n.rhsIdx y q 1).val = (y 1).val := by
  unfold DotDims.rhsIdx
  rw [dif_neg (show ¬(1 : Fin S2048x2048.rank) ∈ dot_S128x2048_S2048x2048_S128x2048_1_0_0_1_n_n.rhsBatch by decide), dif_pos (show (1 : Fin S2048x2048.rank) ∈ dot_S128x2048_S2048x2048_S128x2048_1_0_0_1_n_n.rhsNonContracting by decide)]
  rfl

/-- The masked one-hot operand at row `r` (an edge of the tile) and column `j` (a node of the tile): 1 when the edge's
    destination word is the node's id and the edge is a real one, else 0. -/
theorem mask_apply (i : grid1.Coords) (v7 : Vec Ideal S2048x1 .i32) (r j : Fin 2048) :
    (mulf
          (truncf FTy.bf16
            (sitofp FTy.f32
              (extui 32
                (cmpi CmpIPredicate.eq (broadcastTo S2048x2048 v7 broadcasts_S2048x1_S2048x2048)
                  (broadcastTo S2048x2048
                    (addi (broadcast S1x2048 (Scalar.muli (BitVec.ofNat 32 (i 0).val) 2048#32))
                      (iota Kind.tc S1x2048 32 [1] iota_S1x2048_d1_w32))
                    broadcasts_S1x2048_S2048x2048))
                natLt_1_32))
            bitsLt_bf16_f32)
          (broadcastTo S2048x2048
            (truncf FTy.bf16
              (sitofp FTy.f32
                (extui 32
                  (cmpi CmpIPredicate.slt
                    (addi (broadcast S2048x1 (Scalar.muli (BitVec.ofNat 32 (i 1).val) 2048#32))
                      (iota Kind.tc S2048x1 32 [0] iota_S2048x1_d0_w32))
                    (broadcast S2048x1 600000#32))
                  natLt_1_32))
              bitsLt_bf16_f32)
            broadcasts_S2048x1_S2048x2048) : FVec Ideal S2048x2048 .bf16) (ix2 r j)
      = oh (v7 (ix2 r 0)) (BitVec.ofNat 32 (2048 * (i 0).val + j.val)) * ind (2048 * (i 1).val + r.val < 600000) := by
  have h0 : (i 0).val < 25 := (i 0).isLt
  have h1 : (i 1).val < 293 := (i 1).isLt
  have hr : r.val < 2048 := r.isLt
  have hj : j.val < 2048 := j.isLt
  rw [mulf_apply, truncf_apply, sitofp_apply, extui_apply, cmpi_apply, bcast_col_apply, bcast_col_apply,
    broadcastTo_1b_ab_apply, truncf_apply, sitofp_apply, extui_apply, cmpi_apply, addi_apply, addi_apply,
    broadcast_apply, broadcast_apply, broadcast_apply, iota_single_apply, iota_single_apply]
  show (FloatOps.sitofp (F := Ideal) FTy.f32 (BitVec.setWidth 32 (IntOp.cmpi CmpIPredicate.eq (v7 (ix2 r 0))
        (IntOp.addi (Scalar.muli (BitVec.ofNat 32 (i 0).val) 2048#32) (BitVec.ofNat 32 j.val)))) : EReal)
      * FloatOps.sitofp (F := Ideal) FTy.f32 (BitVec.setWidth 32 (IntOp.cmpi CmpIPredicate.slt
        (IntOp.addi (Scalar.muli (BitVec.ofNat 32 (i 1).val) 2048#32) (BitVec.ofNat 32 r.val)) 600000#32)) = _
  rw [tile_word _ _ (by omega) hj, tile_word _ _ (by omega) hr]
  show (FloatOps.sitofp (F := Ideal) FTy.f32 (BitVec.setWidth 32 (BitVec.ofBool
        (v7 (ix2 r 0) == BitVec.ofNat 32 (2048 * (i 0).val + j.val)))) : EReal)
      * FloatOps.sitofp (F := Ideal) FTy.f32 (BitVec.setWidth 32 (BitVec.ofBool
        ((BitVec.ofNat 32 (2048 * (i 1).val + r.val)).slt 600000#32))) = _
  rw [sitofp_bit, sitofp_bit, slt_word _ (by omega)]
  unfold oh ind
  simp only [beq_iff_eq, decide_eq_true_eq]

theorem pay2_apply (i : grid1.Coords) (v7 : Vec Ideal S2048x1 .i32) (v26 : Vec Ideal S128x2048 .bf16)
    (v28 : Vec Ideal S128x2048 .f32) (d : Fin 128) (j : Fin 2048) :
    k1_pay2 i v7 v26 v28 (ix2 d j)
      = v28 (ix2 d j) + ∑ r : Fin 2048, v26 (ix2 d r)
          * (oh (v7 (ix2 r 0)) (BitVec.ofNat 32 (2048 * (i 0).val + j.val)) * ind (2048 * (i 1).val + r.val < 600000)) := by
  unfold k1_pay2
  simp only [shapeCast_self]
  rw [addf_apply]
  simp only [matmul]
  rw [Ideal.matmul_constant_zero_apply, ← Equiv.sum_comp (contrEquiv1 dot_S128x2048_S2048x2048_S128x2048_1_0_0_1_n_n 2048 rfl rfl).symm]
  congr 1
  refine Finset.sum_congr rfl fun r _ => ?_
  have hk := contrEquiv1_symm_val dot_S128x2048_S2048x2048_S128x2048_1_0_0_1_n_n 2048 rfl rfl r
  have el : dot_S128x2048_S2048x2048_S128x2048_1_0_0_1_n_n.lhsIdx (ix2 d j) ((contrEquiv1 dot_S128x2048_S2048x2048_S128x2048_1_0_0_1_n_n 2048 rfl rfl).symm r) = ix2 d r := funext fun a => Fin.ext (by
    match a with
    | ⟨0, _⟩ => exact lhs_acc_0 _ _
    | ⟨1, _⟩ => exact (lhs_acc_1 _ _).trans hk)
  have er : dot_S128x2048_S2048x2048_S128x2048_1_0_0_1_n_n.rhsIdx (ix2 d j) ((contrEquiv1 dot_S128x2048_S2048x2048_S128x2048_1_0_0_1_n_n 2048 rfl rfl).symm r) = ix2 r j := funext fun a => Fin.ext (by
    match a with
    | ⟨0, _⟩ => exact (rhs_acc_0 _ _).trans hk
    | ⟨1, _⟩ => exact rhs_acc_1 _ _)
  rw [el, er, mask_apply]

/-! ## The reset payload and the output payload at an index -/

/-- The reset stores the zero block. -/
theorem pay1_apply (y : S128x2048.Idx) : k1_pay1 (F := Ideal) y = 0 := by
  unfold k1_pay1
  simp only [shapeCast_self]
  exact Ideal.ofBits_zero_f32

theorem lhs_out_0 (y : S128x2048.Idx) (q : dot_S128x128_S128x2048_S128x2048_1_0_0_1_n_n.contr.Idx) :
    (dot_S128x128_S128x2048_S128x2048_1_0_0_1_n_n.lhsIdx y q 0).val = (y 0).val := by
  unfold DotDims.lhsIdx
  rw [dif_neg (show ¬(0 : Fin S128x128.rank) ∈ dot_S128x128_S128x2048_S128x2048_1_0_0_1_n_n.lhsBatch by decide), dif_pos (show (0 : Fin S128x128.rank) ∈ dot_S128x128_S128x2048_S128x2048_1_0_0_1_n_n.lhsNonContracting by decide)]
  rfl
theorem lhs_out_1 (y : S128x2048.Idx) (q : dot_S128x128_S128x2048_S128x2048_1_0_0_1_n_n.contr.Idx) :
    (dot_S128x128_S128x2048_S128x2048_1_0_0_1_n_n.lhsIdx y q 1).val = (q ⟨0, by decide⟩).val :=
  dot_S128x128_S128x2048_S128x2048_1_0_0_1_n_n.lhsIdx_val_of_single rfl y q
theorem rhs_out_0 (y : S128x2048.Idx) (q : dot_S128x128_S128x2048_S128x2048_1_0_0_1_n_n.contr.Idx) :
    (dot_S128x128_S128x2048_S128x2048_1_0_0_1_n_n.rhsIdx y q 0).val = (q ⟨0, by decide⟩).val :=
  dot_S128x128_S128x2048_S128x2048_1_0_0_1_n_n.rhsIdx_val_of_single rfl y q
theorem rhs_out_1 (y : S128x2048.Idx) (q : dot_S128x128_S128x2048_S128x2048_1_0_0_1_n_n.contr.Idx) :
    (dot_S128x128_S128x2048_S128x2048_1_0_0_1_n_n.rhsIdx y q 1).val = (y 1).val := by
  unfold DotDims.rhsIdx
  rw [dif_neg (show ¬(1 : Fin S128x2048.rank) ∈ dot_S128x128_S128x2048_S128x2048_1_0_0_1_n_n.rhsBatch by decide), dif_pos (show (1 : Fin S128x2048.rank) ∈ dot_S128x128_S128x2048_S128x2048_1_0_0_1_n_n.rhsNonContracting by decide)]
  rfl

/-- The output block at feature `d'` and node `j` of the tile: the weights' row `d'` against the column
    (features + segment sum) / degree of node `j`, plus the bias of `d'`. -/
theorem pay3_apply (v37 v39 : Vec Ideal S128x2048 .f32) (v41 : Vec Ideal S1x2048 .f32) (v46 : Vec Ideal S128x128 .bf16)
    (v49 : Vec Ideal S128x1 .f32) (d' : Fin 128) (j : Fin 2048) :
    k1_pay3 v37 v39 v41 v46 v49 (ix2 d' j)
      = (∑ d : Fin 128, v46 (ix2 d' d) * Ideal.div (v37 (ix2 d j) + v39 (ix2 d j)) (v41 (ix2 (0 : Fin 1) j)))
          + v49 (ix2 d' (0 : Fin 1)) := by
  unfold k1_pay3
  simp only [shapeCast_self]
  rw [addf_apply, bcast_col_apply]
  simp only [matmul]
  rw [Ideal.matmul_constant_zero_apply, ← Equiv.sum_comp (contrEquiv1 dot_S128x128_S128x2048_S128x2048_1_0_0_1_n_n 128 rfl rfl).symm]
  congr 1
  refine Finset.sum_congr rfl fun d _ => ?_
  have hk := contrEquiv1_symm_val dot_S128x128_S128x2048_S128x2048_1_0_0_1_n_n 128 rfl rfl d
  have el : dot_S128x128_S128x2048_S128x2048_1_0_0_1_n_n.lhsIdx (ix2 d' j) ((contrEquiv1 dot_S128x128_S128x2048_S128x2048_1_0_0_1_n_n 128 rfl rfl).symm d) = ix2 d' d := funext fun a => Fin.ext (by
    match a with
    | ⟨0, _⟩ => exact lhs_out_0 _ _
    | ⟨1, _⟩ => exact (lhs_out_1 _ _).trans hk)
  have er : dot_S128x128_S128x2048_S128x2048_1_0_0_1_n_n.rhsIdx (ix2 d' j) ((contrEquiv1 dot_S128x128_S128x2048_S128x2048_1_0_0_1_n_n 128 rfl rfl).symm d) = ix2 d j := funext fun a => Fin.ext (by
    match a with
    | ⟨0, _⟩ => exact (rhs_out_0 _ _).trans hk
    | ⟨1, _⟩ => exact rhs_out_1 _ _)
  rw [el, er, truncf_apply, divf_apply, addf_apply, broadcastTo_1b_ab_apply]

variable (V : (c : Dev nD) → (b : Ref sig .tc) → Buf (Elt Ideal) ((c : Thread nD τ).loc b))

/-- The launch's six input arrays as it finds them, at their literal types: destination ids, messages, node features,
    degrees, weights, bias. -/
abbrev dstA (c : Dev nD) : (Sh2 600064 1).Idx → BitVec 32 := V c main_v7
abbrev msgA (c : Dev nD) : (Sh2 128 600064).Idx → EReal := V c main_v23
abbrev nfA (c : Dev nD) : (Sh2 128 51200).Idx → EReal := V c main_v1
abbrev degA (c : Dev nD) : (Sh2 1 51200).Idx → EReal := V c main_v19
abbrev wA (c : Dev nD) : (Sh2 128 128).Idx → EReal := V c main_v21
abbrev bA (c : Dev nD) : (Sh2 128 1).Idx → EReal := V c main_v22

/-! ## The grid's coordinates and the windows' block indices

Point `t = 293·a + k` has coordinates `(a, k)`: the node tile and the edge tile. The destination ids and the messages are
tiled by the edge tile, the node features, the degrees and the output by the node tile; the weights and the bias are whole. -/

theorem stride1_0 : grid1.stride 0 = 293 := by decide
theorem stride1_1 : grid1.stride 1 = 1 := by decide

theorem coords1_0 (t : Fin cfg1.N) : (grid1.coords t 0).val = t.val / 293 % 25 := by
  show t.val / grid1.stride 0 % 25 = _
  rw [stride1_0]
theorem coords1_1 (t : Fin cfg1.N) : (grid1.coords t 1).val = t.val % 293 := by
  show t.val / grid1.stride 1 % 293 = _
  rw [stride1_1, Nat.div_one]

/-- The coordinates of the point `293·a + k`. -/
theorem coords_of (t : Fin cfg1.N) (a : Fin 25) (k : Fin 293) (ht : t.val = 293 * a.val + k.val) :
    (grid1.coords t 0).val = a.val ∧ (grid1.coords t 1).val = k.val := by
  have ha := a.isLt
  have hk := k.isLt
  rw [coords1_0, coords1_1, ht]
  omega

/-- A small number's 32-bit word is the number. -/
theorem word_toNat (n : Nat) (h : n < 2 ^ 32) : (BitVec.ofNat 32 n).toNat = n := by
  rw [BitVec.toNat_ofNat]; exact Nat.mod_eq_of_lt h

theorem idx1_0 (t : Fin cfg1.N) : win1_0.index t 0 = (grid1.coords t 1).val ∧ win1_0.index t 1 = 0 := by
  have h : (grid1.coords t 1).val < 293 := (grid1.coords t 1).isLt
  exact ⟨word_toNat _ (by omega), rfl⟩
theorem idx1_1 (t : Fin cfg1.N) : win1_1.index t 0 = 0 ∧ win1_1.index t 1 = (grid1.coords t 1).val := by
  have h : (grid1.coords t 1).val < 293 := (grid1.coords t 1).isLt
  exact ⟨rfl, word_toNat _ (by omega)⟩
theorem idx1_2 (t : Fin cfg1.N) : win1_2.index t 0 = 0 ∧ win1_2.index t 1 = (grid1.coords t 0).val := by
  have h : (grid1.coords t 0).val < 25 := (grid1.coords t 0).isLt
  exact ⟨rfl, word_toNat _ (by omega)⟩
theorem idx1_3 (t : Fin cfg1.N) : win1_3.index t 0 = 0 ∧ win1_3.index t 1 = (grid1.coords t 0).val := by
  have h : (grid1.coords t 0).val < 25 := (grid1.coords t 0).isLt
  exact ⟨rfl, word_toNat _ (by omega)⟩
theorem idx1_4 (t : Fin cfg1.N) : win1_4.index t 0 = 0 ∧ win1_4.index t 1 = 0 := ⟨rfl, rfl⟩
theorem idx1_5 (t : Fin cfg1.N) : win1_5.index t 0 = 0 ∧ win1_5.index t 1 = 0 := ⟨rfl, rfl⟩
theorem idx1_6 (t : Fin cfg1.N) : win1_6.index t 0 = 0 ∧ win1_6.index t 1 = (grid1.coords t 0).val := by
  have h : (grid1.coords t 0).val < 25 := (grid1.coords t 0).isLt
  exact ⟨rfl, word_toNat _ (by omega)⟩

/-! ## The input blocks, read off their arrays -/

/-- Row `r` of the destination-id block at edge tile `k` is edge `2048·k + r`'s destination id. -/
theorem blk0_apply (c : Dev nD) (t : Fin cfg1.N) (k : Fin 293) (hk : (grid1.coords t 1).val = k.val) (r : Fin 2048) :
    (iblk1 V c 0 t : Vec Ideal S2048x1 .i32) (ix2 r (0 : Fin 1))
      = dstA V c (ix2 (edgeIx k r) (0 : Fin 1)) := by
  unfold iblk1
  rw [View.read_apply]
  show V c main_v7 _ = V c main_v7 _
  congr 1
  funext a
  apply Fin.ext
  match a with
  | ⟨0, _⟩ =>
    show win1_0.index t 0 * 2048 + 1 * r.val = 2048 * k.val + r.val
    rw [(idx1_0 t).1, hk]; omega
  | ⟨1, _⟩ =>
    show win1_0.index t 1 * 1 + 1 * 0 = 0
    rw [(idx1_0 t).2]

/-- Column `r` of the message block at edge tile `k` is edge `2048·k + r`'s message. -/
theorem blk1_apply (c : Dev nD) (t : Fin cfg1.N) (k : Fin 293) (hk : (grid1.coords t 1).val = k.val) (d : Fin 128) (r : Fin 2048) :
    (iblk1 V c 1 t : Vec Ideal S128x2048 .bf16) (ix2 d r)
      = msgA V c (ix2 d (edgeIx k r)) := by
  unfold iblk1
  rw [View.read_apply]
  show V c main_v23 _ = V c main_v23 _
  congr 1
  funext a
  apply Fin.ext
  match a with
  | ⟨0, _⟩ =>
    show win1_1.index t 0 * 128 + 1 * d.val = d.val
    rw [(idx1_1 t).1]; omega
  | ⟨1, _⟩ =>
    show win1_1.index t 1 * 2048 + 1 * r.val = 2048 * k.val + r.val
    rw [(idx1_1 t).2, hk]; omega

/-- Column `j` of the node-feature block at node tile `a` is node `2048·a + j`'s features. -/
theorem blk2_apply (c : Dev nD) (t : Fin cfg1.N) (a : Fin 25) (ha : (grid1.coords t 0).val = a.val) (d : Fin 128) (j : Fin 2048) :
    (iblk1 V c 2 t : Vec Ideal S128x2048 .f32) (ix2 d j)
      = nfA V c (ix2 d (nodeIx a j)) := by
  unfold iblk1
  rw [View.read_apply]
  show V c main_v1 _ = V c main_v1 _
  congr 1
  funext b
  apply Fin.ext
  match b with
  | ⟨0, _⟩ =>
    show win1_2.index t 0 * 128 + 1 * d.val = d.val
    rw [(idx1_2 t).1]; omega
  | ⟨1, _⟩ =>
    show win1_2.index t 1 * 2048 + 1 * j.val = 2048 * a.val + j.val
    rw [(idx1_2 t).2, ha]; omega

/-- Column `j` of the degree block at node tile `a` is node `2048·a + j`'s degree. -/
theorem blk3_apply (c : Dev nD) (t : Fin cfg1.N) (a : Fin 25) (ha : (grid1.coords t 0).val = a.val) (j : Fin 2048) :
    (iblk1 V c 3 t : Vec Ideal S1x2048 .f32) (ix2 (0 : Fin 1) j)
      = degA V c (ix2 (0 : Fin 1) (nodeIx a j)) := by
  unfold iblk1
  rw [View.read_apply]
  show V c main_v19 _ = V c main_v19 _
  congr 1
  funext b
  apply Fin.ext
  match b with
  | ⟨0, _⟩ =>
    show win1_3.index t 0 * 1 + 1 * 0 = 0
    rw [(idx1_3 t).1]
  | ⟨1, _⟩ =>
    show win1_3.index t 1 * 2048 + 1 * j.val = 2048 * a.val + j.val
    rw [(idx1_3 t).2, ha]; omega

/-- The weight block is the whole weight array. -/
theorem blk4_apply (c : Dev nD) (t : Fin cfg1.N) (d' d : Fin 128) :
    (iblk1 V c 4 t : Vec Ideal S128x128 .bf16) (ix2 d' d)
      = wA V c (ix2 d' d) := by
  unfold iblk1
  rw [View.read_apply]
  show V c main_v21 _ = V c main_v21 _
  congr 1
  funext b
  apply Fin.ext
  match b with
  | ⟨0, _⟩ =>
    show win1_4.index t 0 * 128 + 1 * d'.val = d'.val
    rw [(idx1_4 t).1]; omega
  | ⟨1, _⟩ =>
    show win1_4.index t 1 * 128 + 1 * d.val = d.val
    rw [(idx1_4 t).2]; omega

/-- The bias block is the whole bias column. -/
theorem blk5_apply (c : Dev nD) (t : Fin cfg1.N) (d' : Fin 128) :
    (iblk1 V c 5 t : Vec Ideal S128x1 .f32) (ix2 d' (0 : Fin 1))
      = bA V c (ix2 d' (0 : Fin 1)) := by
  unfold iblk1
  rw [View.read_apply]
  show V c main_v22 _ = V c main_v22 _
  congr 1
  funext b
  apply Fin.ext
  match b with
  | ⟨0, _⟩ =>
    show win1_5.index t 0 * 128 + 1 * d'.val = d'.val
    rw [(idx1_5 t).1]; omega
  | ⟨1, _⟩ =>
    show win1_5.index t 1 * 1 + 1 * 0 = 0
    rw [(idx1_5 t).2]

/-! ## The running segment sum

One edge tile's contribution to the received sum of node `2048·a + j` at feature `d`; the accumulator after the
point `293·a + k` is the sum of the contributions of the edge tiles `0 … k` (by induction on `k`: the reset at `k = 0`
starts from the zero block, every other point adds its tile to what the point before left). -/

/-- Edge tile `k`'s contribution to the received sum of node `2048·a + j` at feature `d`. -/
def seg (c : Dev nD) (a : Fin 25) (k : Fin 293) (d : Fin 128) (j : Fin 2048) : EReal :=
  ∑ r : Fin 2048, msgA V c (ix2 d (edgeIx k r))
    * (oh (dstA V c (ix2 (edgeIx k r) (0 : Fin 1))) (BitVec.ofNat 32 (nodeIx a j).val) * ind ((edgeIx k r).val < 600000))

/-- The received sum is the sum of the edge tiles' contributions. -/
theorem aggT_eq (c : Dev nD) (a : Fin 25) (d : Fin 128) (j : Fin 2048) :
    aggT (dstA V c) (msgA V c) d (nodeIx a j) = ∑ k : Fin 293, seg V c a k d j := rfl

/-- One step at the point `293·a + k` adds edge tile `k`'s contribution. -/
theorem step1_apply (c : Dev nD) (t : Fin cfg1.N) (a : Fin 25) (k : Fin 293) (ht : t.val = 293 * a.val + k.val)
    (acc : Vec Ideal S128x2048 .f32) (d : Fin 128) (j : Fin 2048) :
    step1 V c t acc (ix2 d j) = acc (ix2 d j) + seg V c a k d j := by
  obtain ⟨h0, h1⟩ := coords_of t a k ht
  unfold step1
  refine (pay2_apply (grid1.coords t) (iblk1 V c 0 t) (iblk1 V c 1 t) acc d j).trans ?_
  congr 1
  unfold seg
  refine Finset.sum_congr rfl fun r _ => ?_
  rw [blk0_apply V c t k h1 r, blk1_apply V c t k h1 d r, h0, h1]
  rfl

/-- The accumulator at a first edge tile restarts from the zero block. -/
theorem acc1_reset (c : Dev nD) (n : Nat) (h : n < cfg1.N) (hn : n % 293 = 0) :
    acc1 V c n h = step1 V c ⟨n, h⟩ (k1_pay1 (F := Ideal)) := by
  cases n with
  | zero => rfl
  | succ m => rw [acc1, if_pos hn]

/-- At every other point it steps from what the point before left. -/
theorem acc1_step (c : Dev nD) (n : Nat) (h : n + 1 < cfg1.N) (hn : ¬(n + 1) % 293 = 0) :
    acc1 V c (n + 1) h = step1 V c ⟨n + 1, h⟩ (acc1 V c n (Nat.lt_of_succ_lt h)) := by
  rw [acc1, if_neg hn]

/-- After the point `293·a + k` the accumulator holds the contributions of the edge tiles `0 … k`. -/
theorem acc1_apply (c : Dev nD) (a : Fin 25) (d : Fin 128) (j : Fin 2048) :
    ∀ (k : Nat) (hk : k < 293) (h : 293 * a.val + k < cfg1.N),
      acc1 V c (293 * a.val + k) h (ix2 d j) = ∑ k' : Fin (k + 1), seg V c a ⟨k'.val, by omega⟩ d j
  | 0, hk, h => by
    rw [acc1_reset V c _ h (by omega), step1_apply V c ⟨_, h⟩ a ⟨0, hk⟩ rfl, pay1_apply, zero_add]
    simp
  | k + 1, hk, h => by
    have hne : ¬(293 * a.val + k + 1) % 293 = 0 := by omega
    show acc1 V c (293 * a.val + k + 1) h (ix2 d j) = _
    rw [acc1_step V c (293 * a.val + k) h hne, step1_apply V c ⟨293 * a.val + k + 1, h⟩ a ⟨k + 1, hk⟩ (Nat.add_assoc _ _ _),
      acc1_apply c a d j k (by omega) (Nat.lt_of_succ_lt h), Fin.sum_univ_castSucc (n := k + 1)]
    rfl

/-! ## From blocks to the array

The output window writes its block back at the last edge tile of each node tile, where the accumulator holds the whole
received sum; node `n` lies in node tile `n / 2048`, so the point `293·(n / 2048) + 292` covers column `n`. -/

/-- What the output array ends holding: the layer's transposed output of the six input arrays. -/
def outArr (c : Dev nD) : Buf (Elt Ideal) ((c : Thread nD τ).loc main_v24) :=
  fun i => outT (dstA V c) (msgA V c) (nfA V c) (degA V c) (wA V c) (bA V c) (i 0) (i 1)

/-- The block stored at the last edge tile of node tile `a`, at feature `d'` and node `j` of the tile. -/
theorem out1_apply (c : Dev nD) (t : Fin cfg1.N) (a : Fin 25) (ht : t.val = 293 * a.val + 292) (d' : Fin 128) (j : Fin 2048) :
    out1 V c t (ix2 d' j) = outT (dstA V c) (msgA V c) (nfA V c) (degA V c) (wA V c) (bA V c) d' (nodeIx a j) := by
  obtain ⟨h0, h1⟩ := coords_of t a ⟨292, by omega⟩ ht
  have same : ∀ (u : Nat) (hu : u < cfg1.N), u = t.val → acc1 V c u hu = acc1 V c t.val t.isLt :=
    fun u hu e => by subst e; rfl
  have hlt : 293 * a.val + 292 < cfg1.N := by rw [← ht]; exact t.isLt
  unfold out1
  refine (pay3_apply (iblk1 V c 2 t) (acc1 V c t.val t.isLt) (iblk1 V c 3 t) (iblk1 V c 4 t) (iblk1 V c 5 t) d' j).trans ?_
  unfold outT
  rw [blk5_apply V c t d', blk3_apply V c t a h0 j]
  congr 1
  refine Finset.sum_congr rfl fun d _ => ?_
  rw [blk4_apply V c t d' d, blk2_apply V c t a h0 d j, aggT_eq V c a d j, ← same _ hlt ht.symm,
    acc1_apply V c a d j 292 (by omega) hlt]

/-- What a flushing point writes back is its block of `outArr`. -/
theorem flushed_eq (c : Dev nD) (t : Fin cfg1.N) (hf : (cfg1.win 6).flush t = true) :
    (dat1 V c).flushed 6 t = ((cfg1.win 6).blk t).view.read (Elt Ideal) (outArr V c) := by
  have h292 : t.val % 293 = 292 := (flush1_6 t).mp hf
  have hN : t.val < 7325 := lt_of_lt_of_eq t.isLt N_1
  have ha : t.val / 293 < 25 := by omega
  have ht : t.val = 293 * (⟨t.val / 293, ha⟩ : Fin 25).val + 292 := by
    show t.val = 293 * (t.val / 293) + 292
    omega
  obtain ⟨h0, h1⟩ := coords_of t ⟨t.val / 293, ha⟩ ⟨292, by omega⟩ ht
  show (cfg1.win 6).cut (grid1.coords t) ((dat1 V c).after 6 t) = _
  rw [after1_6]
  funext y
  obtain ⟨d', j, rfl⟩ : ∃ (d' : Fin 128) (j : Fin 2048), (y : S128x2048.Idx) = ix2 d' j :=
    ⟨y 0, y 1, eq_ix2 (n0 := 128) (n1 := 2048) y⟩
  rw [View.read_apply]
  show out1 V c t (ix2 d' j) = outArr V c (((cfg1.win 6).blk t).view.emb (ix2 d' j))
  rw [out1_apply V c t ⟨t.val / 293, ha⟩ ht d' j]
  have e : ((cfg1.win 6).blk t).view.emb (ix2 d' j) = (ix2 d' (nodeIx ⟨t.val / 293, ha⟩ j) : (Sh2 128 51200).Idx) := by
    funext b
    apply Fin.ext
    match b with
    | ⟨0, _⟩ =>
      show win1_6.index t 0 * 128 + 1 * d'.val = d'.val
      rw [(idx1_6 t).1]; omega
    | ⟨1, _⟩ =>
      show win1_6.index t 1 * 2048 + 1 * j.val = 2048 * (t.val / 293) + j.val
      rw [(idx1_6 t).2, h0]
      show t.val / 293 * 2048 + 1 * j.val = _
      omega
  rw [e]
  rfl

/-- Every index of the output array is in the block of the last edge tile of its node tile. -/
theorem cover_out (c : Dev nD) : ∀ i : ((cfg1.win 6).arr.view.loc (c.tc : Thread nD τ)).2.ty.Idx,
    ∃ t : Fin cfg1.N, (cfg1.win 6).flush t = true ∧ i ∈ ((cfg1.win 6).blk t).view.set := by
  intro i
  have hi0 : (i 0 : Nat) < 128 := (i 0).isLt
  have hi1 : (i 1 : Nat) < 51200 := (i 1).isLt
  have hN : cfg1.N = 7325 := N_1
  have hlt : 293 * ((i 1 : Nat) / 2048) + 292 < cfg1.N := by rw [hN]; omega
  refine ⟨⟨293 * ((i 1 : Nat) / 2048) + 292, hlt⟩, (flush1_6 _).mpr (by show (293 * ((i 1 : Nat) / 2048) + 292) % 293 = 292; omega), ?_⟩
  have h0 : (grid1.coords ⟨293 * ((i 1 : Nat) / 2048) + 292, hlt⟩ 0).val = (i 1 : Nat) / 2048 := by
    rw [coords1_0]
    show (293 * ((i 1 : Nat) / 2048) + 292) / 293 % 25 = _
    omega
  show i ∈ ((View.whole main_v24).slice (win1_6.rect ⟨293 * ((i 1 : Nat) / 2048) + 292, hlt⟩)).set
  rw [View.set_slice_whole, Rect.mem_set_unit]
  intro a
  match a with
  | ⟨0, _⟩ =>
    show win1_6.index ⟨293 * ((i 1 : Nat) / 2048) + 292, hlt⟩ 0 * 128 ≤ (i 0 : Nat)
      ∧ (i 0 : Nat) < win1_6.index ⟨293 * ((i 1 : Nat) / 2048) + 292, hlt⟩ 0 * 128 + 128
    rw [(idx1_6 _).1]; omega
  | ⟨1, _⟩ =>
    show win1_6.index ⟨293 * ((i 1 : Nat) / 2048) + 292, hlt⟩ 1 * 2048 ≤ (i 1 : Nat)
      ∧ (i 1 : Nat) < win1_6.index ⟨293 * ((i 1 : Nat) / 2048) + 292, hlt⟩ 1 * 2048 + 2048
    rw [(idx1_6 _).2, h0]; omega

/-- The output array after the launch. -/
theorem final_out (c : Dev nD) : (dat1 V c).arrAt 6 cfg1.N = outArr V c :=
  (dat1 V c).arrAt_eq_of_cover 6 (outArr V c) (flushed_eq V c) (cover_out c)

/-- The array the scatter-and-project launch leaves in its output, read at feature `d'` and node `n`, is the layer's
    transposed output of its six input arrays. -/
theorem outT_value (c : Dev nD) (d' : Fin 128) (n : Fin 51200) :
    (dat1 (F := Ideal) V c).arrAt 6 cfg1.N (ix2 d' n)
      = outT (V c main_v7) (V c main_v23) (V c main_v1) (V c main_v19) (V c main_v21) (V c main_v22) d' n := by
  rw [final_out]
  rfl

end Cert.KernelIdeal.Hand

end
-- ==== Proof.KI.V0.lean ====
/-
  The value of the gather launch: what its output array holds after the last grid point, index by index.

  The launch runs over 293 edge tiles × 25 node tiles. At point (a, k) the scratch accumulator receives the product of
  node tile k of the transposed feature table with the one-hot comparison of the node ids 2048·k + r against the source
  ids of edge tile a; it restarts from zero at k = 0. At k = 24 the product of the embedding table with the three stacked
  one-hot comparisons of the table rows against the edge-feature ids is added, and the sum is written to block a of the
  output. So the output at (d, e) is the one-hot sum `msgT` of the four input arrays.

  Steps: (1) each payload read at an index, over arbitrary vectors of the literal shapes; (2) each window's block read
  at an index as an element of its array; (3) the accumulator after point 25·a + k as a sum over the node tiles 0 … k,
  by induction on k; (4) the block written back at point 25·a + 24 is block a of `msgT`, the blocks cover the array,
  hence the array.
-/
import proofs.«413313_j22084721836888_2_alg».proof.Proof.KI.R0Defs
import proofs.«413313_j22084721836888_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec Idealize.ShloMosaic.ValueIdx
open scoped BigOperators

/-! The lemmas on the way are kept in a namespace of their own; the result `msgT_value` is stated after it. -/
namespace Gather

/-! ## Words -/

/-- An equality test of two words, widened to a word and converted signed, is the indicator of their equality. -/
theorem onehot_word (x y : BitVec 32) :
    ((((IntOp.cmpi .eq x y).setWidth 32).toInt : ℝ) : EReal) = oh x y := by
  unfold oh IntOp.cmpi
  by_cases h : x = y
  · subst h
    simp
  · have hb : (x == y) = false := by simpa using h
    simp [hb, h]

/-- Node id 2048·k + r as the kernel computes it: the tile index times 2048, plus the row. -/
theorem node_word (k r : Nat) :
    IntOp.addi (Scalar.muli (BitVec.ofNat 32 k) 2048#32) (BitVec.ofNat 32 r) = BitVec.ofNat 32 (2048 * k + r) := by
  show BitVec.ofNat 32 k * 2048#32 + BitVec.ofNat 32 r = _
  rw [BitVec.ofNat_add, BitVec.ofNat_mul, BitVec.mul_comm]

/-! ## Layout: a column broadcast over the columns -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two products' dimension numbers at an index: rows × contraction times contraction × columns -/

theorem lhsN_0 (i : S128x2048.Idx) (q : dot_S128x2048_S2048x2048_S128x2048_1_0_0_1_n_n.contr.Idx) :
    (dot_S128x2048_S2048x2048_S128x2048_1_0_0_1_n_n.lhsIdx i q 0).val = (i 0).val := by
  unfold DotDims.lhsIdx
  rw [dif_neg (show ¬(0 : Fin S128x2048.rank) ∈ dot_S128x2048_S2048x2048_S128x2048_1_0_0_1_n_n.lhsBatch by decide), dif_pos (show (0 : Fin S128x2048.rank) ∈ dot_S128x2048_S2048x2048_S128x2048_1_0_0_1_n_n.lhsNonContracting by decide)]
  rfl
theorem lhsN_1 (i : S128x2048.Idx) (q : dot_S128x2048_S2048x2048_S128x2048_1_0_0_1_n_n.contr.Idx) :
    (dot_S128x2048_S2048x2048_S128x2048_1_0_0_1_n_n.lhsIdx i q 1).val = (q ⟨0, by decide⟩).val :=
  dot_S128x2048_S2048x2048_S128x2048_1_0_0_1_n_n.lhsIdx_val_of_single rfl i q
theorem rhsN_0 (i : S128x2048.Idx) (q : dot_S128x2048_S2048x2048_S128x2048_1_0_0_1_n_n.contr.Idx) :
    (dot_S128x2048_S2048x2048_S128x2048_1_0_0_1_n_n.rhsIdx i q 0).val = (q ⟨0, by decide⟩).val :=
  dot_S128x2048_S2048x2048_S128x2048_1_0_0_1_n_n.rhsIdx_val_of_single rfl i q
theorem rhsN_1 (i : S128x2048.Idx) (q : dot_S128x2048_S2048x2048_S128x2048_1_0_0_1_n_n.contr.Idx) :
    (dot_S128x2048_S2048x2048_S128x2048_1_0_0_1_n_n.rhsIdx i q 1).val = (i 1).val := by
  unfold DotDims.rhsIdx
  rw [dif_neg (show ¬(1 : Fin S2048x2048.rank) ∈ dot_S128x2048_S2048x2048_S128x2048_1_0_0_1_n_n.rhsBatch by decide), dif_pos (show (1 : Fin S2048x2048.rank) ∈ dot_S128x2048_S2048x2048_S128x2048_1_0_0_1_n_n.rhsNonContracting by decide)]
  rfl

theorem lhsE_0 (i : S128x2048.Idx) (q : dot_S128x24_S24x2048_S128x2048_1_0_0_1_n_n.contr.Idx) :
    (dot_S128x24_S24x2048_S128x2048_1_0_0_1_n_n.lhsIdx i q 0).val = (i 0).val := by
  unfold DotDims.lhsIdx
  rw [dif_neg (show ¬(0 : Fin S128x24.rank) ∈ dot_S128x24_S24x2048_S128x2048_1_0_0_1_n_n.lhsBatch by decide), dif_pos (show (0 : Fin S128x24.rank) ∈ dot_S128x24_S24x2048_S128x2048_1_0_0_1_n_n.lhsNonContracting by decide)]
  rfl
theorem lhsE_1 (i : S128x2048.Idx) (q : dot_S128x24_S24x2048_S128x2048_1_0_0_1_n_n.contr.Idx) :
    (dot_S128x24_S24x2048_S128x2048_1_0_0_1_n_n.lhsIdx i q 1).val = (q ⟨0, by decide⟩).val :=
  dot_S128x24_S24x2048_S128x2048_1_0_0_1_n_n.lhsIdx_val_of_single rfl i q
theorem rhsE_0 (i : S128x2048.Idx) (q : dot_S128x24_S24x2048_S128x2048_1_0_0_1_n_n.contr.Idx) :
    (dot_S128x24_S24x2048_S128x2048_1_0_0_1_n_n.rhsIdx i q 0).val = (q ⟨0, by decide⟩).val :=
  dot_S128x24_S24x2048_S128x2048_1_0_0_1_n_n.rhsIdx_val_of_single rfl i q
theorem rhsE_1 (i : S128x2048.Idx) (q : dot_S128x24_S24x2048_S128x2048_1_0_0_1_n_n.contr.Idx) :
    (dot_S128x24_S24x2048_S128x2048_1_0_0_1_n_n.rhsIdx i q 1).val = (i 1).val := by
  unfold DotDims.rhsIdx
  rw [dif_neg (show ¬(1 : Fin S24x2048.rank) ∈ dot_S128x24_S24x2048_S128x2048_1_0_0_1_n_n.rhsBatch by decide), dif_pos (show (1 : Fin S24x2048.rank) ∈ dot_S128x24_S24x2048_S128x2048_1_0_0_1_n_n.rhsNonContracting by decide)]
  rfl

/-- The node product into the zero splat, at (d, j): the sum over the 2048 rows of the node tile. -/
theorem nodeProd_apply (lhs : FVec Ideal S128x2048 .bf16) (rhs : FVec Ideal S2048x2048 .bf16) (d : Fin 128) (j : Fin 2048) :
    matmul dot_S128x2048_S2048x2048_S128x2048_1_0_0_1_n_n none lhs rhs (constant (F := Ideal) S128x2048 .f32 0x00000000#32) (ix2 d j)
      = ∑ r : Fin 2048, lhs (ix2 d r) * rhs (ix2 r j) := by
  simp only [matmul]
  rw [Ideal.matmul_constant_zero_apply, ← Equiv.sum_comp (contrEquiv1 dot_S128x2048_S2048x2048_S128x2048_1_0_0_1_n_n 2048 rfl rfl).symm]
  refine Finset.sum_congr rfl fun k _ => ?_
  have hk := contrEquiv1_symm_val dot_S128x2048_S2048x2048_S128x2048_1_0_0_1_n_n 2048 rfl rfl k
  have el : dot_S128x2048_S2048x2048_S128x2048_1_0_0_1_n_n.lhsIdx (ix2 d j) ((contrEquiv1 dot_S128x2048_S2048x2048_S128x2048_1_0_0_1_n_n 2048 rfl rfl).symm k) = ix2 d k := funext fun a => Fin.ext (by
    match a with
    | ⟨0, _⟩ => exact lhsN_0 _ _
    | ⟨1, _⟩ => exact (lhsN_1 _ _).trans hk)
  have er : dot_S128x2048_S2048x2048_S128x2048_1_0_0_1_n_n.rhsIdx (ix2 d j) ((contrEquiv1 dot_S128x2048_S2048x2048_S128x2048_1_0_0_1_n_n 2048 rfl rfl).symm k) = ix2 k j := funext fun a => Fin.ext (by
    match a with
    | ⟨0, _⟩ => exact (rhsN_0 _ _).trans hk
    | ⟨1, _⟩ => exact rhsN_1 _ _)
  rw [el, er]

/-- The embedding product into the zero splat, at (d, j): the sum over the 24 table rows. -/
theorem embProd_apply (lhs : FVec Ideal S128x24 .bf16) (rhs : FVec Ideal S24x2048 .bf16) (d : Fin 128) (j : Fin 2048) :
    matmul dot_S128x24_S24x2048_S128x2048_1_0_0_1_n_n none lhs rhs (constant (F := Ideal) S128x2048 .f32 0x00000000#32) (ix2 d j)
      = ∑ r : Fin 24, lhs (ix2 d r) * rhs (ix2 r j) := by
  simp only [matmul]
  rw [Ideal.matmul_constant_zero_apply, ← Equiv.sum_comp (contrEquiv1 dot_S128x24_S24x2048_S128x2048_1_0_0_1_n_n 24 rfl rfl).symm]
  refine Finset.sum_congr rfl fun k _ => ?_
  have hk := contrEquiv1_symm_val dot_S128x24_S24x2048_S128x2048_1_0_0_1_n_n 24 rfl rfl k
  have el : dot_S128x24_S24x2048_S128x2048_1_0_0_1_n_n.lhsIdx (ix2 d j) ((contrEquiv1 dot_S128x24_S24x2048_S128x2048_1_0_0_1_n_n 24 rfl rfl).symm k) = ix2 d k := funext fun a => Fin.ext (by
    match a with
    | ⟨0, _⟩ => exact lhsE_0 _ _
    | ⟨1, _⟩ => exact (lhsE_1 _ _).trans hk)
  have er : dot_S128x24_S24x2048_S128x2048_1_0_0_1_n_n.rhsIdx (ix2 d j) ((contrEquiv1 dot_S128x24_S24x2048_S128x2048_1_0_0_1_n_n 24 rfl rfl).symm k) = ix2 k j := funext fun a => Fin.ext (by
    match a with
    | ⟨0, _⟩ => exact (rhsE_0 _ _).trans hk
    | ⟨1, _⟩ => exact rhsE_1 _ _)
  rw [el, er]

/-! ## The payloads at an index -/

/-- The reset payload is the zero block. -/
theorem pay1_apply (d : Fin 128) (j : Fin 2048) : (k0_pay1 (F := Ideal)) (ix2 d j) = 0 := by
  unfold k0_pay1
  rw [shapeCast_self]
  exact Ideal.ofBits_zero_f32

/-- The accumulation payload at (d, j): the accumulator there plus the sum over the rows r of the node tile of the
    feature at (d, r) times the indicator that node 2048·k + r is the source of edge j. -/
theorem pay2_apply (i : grid0.Coords) (v7 : Vec Ideal S1x2048 .i32) (v17 : Vec Ideal S128x2048 .bf16)
    (v19 : Vec Ideal S128x2048 .f32) (d : Fin 128) (j : Fin 2048) :
    k0_pay2 (F := Ideal) i v7 v17 v19 (ix2 d j)
      = v19 (ix2 d j) + ∑ r : Fin 2048, v17 (ix2 d r)
          * oh (BitVec.ofNat 32 (2048 * (i 1).val + r.val)) (v7 (ix2 (0 : Fin 1) j)) := by
  unfold k0_pay2
  dsimp only
  rw [shapeCast_self, shapeCast_self, shapeCast_self, addf_apply, nodeProd_apply]
  congr 1
  refine Finset.sum_congr rfl fun r _ => ?_
  congr 1
  show ((((IntOp.cmpi .eq (broadcastTo S2048x2048 _ _ (ix2 r j)) (broadcastTo S2048x2048 v7 _ (ix2 r j))).setWidth 32).toInt : ℝ) : EReal) = _
  rw [broadcastTo_a1_ab_apply, broadcastTo_1b_ab_apply, onehot_word]
  congr 1
  show IntOp.addi (Scalar.muli _ _) (iota .tc S2048x1 32 [0] _ (ix2 r (0 : Fin 1))) = _
  rw [iota_single_apply]
  exact node_word _ _

/-- One of the three stacked comparisons of the table rows against shifted edge-feature ids, at (r, j). -/
theorem embHot_apply (c : BitVec 32) (row : IVec S1x2048 32) (r : Fin 24) (j : Fin 2048) :
    (truncf .bf16 (sitofp (F := Ideal) .f32 (extui 32 (cmpi .eq (iota .tc S24x2048 32 [0] iota_S24x2048_d0_w32)
        (broadcastTo S24x2048 (addi (broadcast S1x2048 c) row) broadcasts_S1x2048_S24x2048)) natLt_1_32)) bitsLt_bf16_f32) (ix2 r j)
      = oh (BitVec.ofNat 32 r.val) (c + row (ix2 (0 : Fin 1) j)) := by
  show ((((IntOp.cmpi .eq (iota .tc S24x2048 32 [0] _ (ix2 r j)) (broadcastTo S24x2048 _ _ (ix2 r j))).setWidth 32).toInt : ℝ) : EReal) = _
  rw [broadcastTo_1b_ab_apply, iota_single_apply, onehot_word]
  rfl

/-- The bf16 zero word is the extended real 0. -/
theorem zero_bf16 : Ideal.ofBits .bf16 0x0000#16 = 0 := by simp [Ideal.ofBits, Ideal.ieee]

/-- The write-back payload at (d, j): the accumulator there plus the sum over the 24 table rows r of the table at (d, r)
    times the three indicators that r is the id of column 0, 8 plus the id of column 1, 16 plus the id of column 2. -/
theorem pay3_apply (v28 : Vec Ideal S3x2048 .i32) (v59 : Vec Ideal S128x24 .bf16) (v62 : Vec Ideal S128x2048 .f32)
    (d : Fin 128) (j : Fin 2048) :
    k0_pay3 (F := Ideal) v28 v59 v62 (ix2 d j)
      = v62 (ix2 d j) + ∑ r : Fin 24, v59 (ix2 d r)
          * (oh (BitVec.ofNat 32 r.val) (v28 (ix2 (0 : Fin 3) j))
              + oh (BitVec.ofNat 32 r.val) (8#32 + v28 (ix2 (1 : Fin 3) j))
              + oh (BitVec.ofNat 32 r.val) (16#32 + v28 (ix2 (2 : Fin 3) j))) := by
  unfold k0_pay3
  dsimp only
  rw [shapeCast_self, shapeCast_self, truncf_apply, addf_apply, embProd_apply]
  congr 1
  refine Finset.sum_congr rfl fun r _ => ?_
  congr 1
  rw [addf_apply, addf_apply, addf_apply, embHot_apply, embHot_apply, embHot_apply,
    slice2_axis0_apply 0 v28 _ (0 : Fin 1) j (0 : Fin 3) rfl, slice2_axis0_apply 1 v28 _ (0 : Fin 1) j (1 : Fin 3) rfl,
    slice2_axis0_apply 2 v28 _ (0 : Fin 1) j (2 : Fin 3) rfl, BitVec.zero_add]
  show Ideal.ofBits .bf16 0x0000#16 + _ + _ + _ = _
  rw [zero_bf16, zero_add]

/-! ## The grid's coordinates and the windows' block indices -/

-- the contents of the core's unscoped buffers when the launch is entered
variable (V : (c : Dev nD) → (b : Ref sig .tc) → Buf (Elt Ideal) ((c : Thread nD τ).loc b))

theorem lt_N (t : Fin cfg0.N) : t.val < 7325 := lt_of_lt_of_eq t.isLt (show cfg0.N = 7325 from N_0)

/-- Point t handles edge tile t / 25 … -/
theorem coords_0 (t : Fin cfg0.N) : (grid0.coords t 0).val = t.val / 25 := by
  have := lt_N t
  show t.val / grid0.stride 0 % 293 = _
  rw [show grid0.stride 0 = 25 from by decide]
  omega

/-- … and node tile t % 25. -/
theorem coords_1 (t : Fin cfg0.N) : (grid0.coords t 1).val = t.val % 25 := by
  show t.val / grid0.stride 1 % 25 = _
  rw [show grid0.stride 1 = 1 from by decide, Nat.div_one]

/-- The edge-tile coordinate as a word and back. -/
theorem edge_word (i : grid0.Coords) : (BitVec.ofNat 32 (i 0).val).toNat = (i 0).val := by
  have h : (i 0).val < 293 := (i 0).isLt
  rw [BitVec.toNat_ofNat]
  exact Nat.mod_eq_of_lt (by omega)

/-- The three tiled windows (source ids, edge-feature ids, output) sit at block (0, t / 25). -/
theorem idx_src (t : Fin cfg0.N) : win0_0.index t 0 = 0 ∧ win0_0.index t 1 = t.val / 25 :=
  ⟨rfl, (edge_word (grid0.coords t)).trans (coords_0 t)⟩
theorem idx_feat (t : Fin cfg0.N) : win0_1.index t 0 = 0 ∧ win0_1.index t 1 = t.val / 25 :=
  ⟨rfl, (edge_word (grid0.coords t)).trans (coords_0 t)⟩
theorem idx_out (t : Fin cfg0.N) : win0_4.index t 0 = 0 ∧ win0_4.index t 1 = t.val / 25 :=
  ⟨rfl, (edge_word (grid0.coords t)).trans (coords_0 t)⟩
/-- The two resident windows (embedding table, node features) sit at block (0, 0). -/
theorem idx_tab (t : Fin cfg0.N) : win0_2.index t 0 = 0 ∧ win0_2.index t 1 = 0 := ⟨rfl, rfl⟩
theorem idx_nf (t : Fin cfg0.N) : win0_3.index t 0 = 0 ∧ win0_3.index t 1 = 0 := ⟨rfl, rfl⟩

/-! ## The blocks at an index, as elements of their arrays -/

/-- The source-id block at point t: columns 2048·(t / 25) … of the source row. -/
theorem blk_src (c : Dev nD) (t : Fin cfg0.N) (j : Fin 2048) (e : Fin 600064) (he : e.val = 2048 * (t.val / 25) + j.val) :
    (iblk0 V c 0 t : Vec Ideal S1x2048 .i32) (ix2 (0 : Fin 1) j)
      = (V c main_v6 : Vec Ideal S1x600064 .i32) (ix2 (0 : Fin 1) e) := by
  unfold iblk0
  rw [View.read_apply]
  show (V c main_v6 : Vec Ideal S1x600064 .i32) _ = _
  congr 1
  funext a
  apply Fin.ext
  match a with
  | ⟨0, _⟩ => show win0_0.index t 0 * 1 + 1 * 0 = 0; rw [(idx_src t).1]
  | ⟨1, _⟩ => show win0_0.index t 1 * 2048 + 1 * j.val = e.val; rw [(idx_src t).2, he]; omega

/-- The edge-feature-id block at point t: columns 2048·(t / 25) … of each of the three id rows. -/
theorem blk_feat (c : Dev nD) (t : Fin cfg0.N) (col : Fin 3) (j : Fin 2048) (e : Fin 600064)
    (he : e.val = 2048 * (t.val / 25) + j.val) :
    (iblk0 V c 1 t : Vec Ideal S3x2048 .i32) (ix2 col j) = (V c main_v8 : Vec Ideal S3x600064 .i32) (ix2 col e) := by
  unfold iblk0
  rw [View.read_apply]
  show (V c main_v8 : Vec Ideal S3x600064 .i32) _ = _
  congr 1
  funext a
  apply Fin.ext
  match a with
  | ⟨0, _⟩ => show win0_1.index t 0 * 3 + 1 * col.val = col.val; rw [(idx_feat t).1]; omega
  | ⟨1, _⟩ => show win0_1.index t 1 * 2048 + 1 * j.val = e.val; rw [(idx_feat t).2, he]; omega

/-- The embedding-table block is the whole table. -/
theorem blk_tab (c : Dev nD) (t : Fin cfg0.N) (d : Fin 128) (r : Fin 24) :
    (iblk0 V c 2 t : Vec Ideal S128x24 .bf16) (ix2 d r) = (V c main_v11 : Vec Ideal S128x24 .bf16) (ix2 d r) := by
  unfold iblk0
  rw [View.read_apply]
  show (V c main_v11 : Vec Ideal S128x24 .bf16) _ = _
  congr 1
  funext a
  apply Fin.ext
  match a with
  | ⟨0, _⟩ => show win0_2.index t 0 * 128 + 1 * d.val = d.val; rw [(idx_tab t).1]; omega
  | ⟨1, _⟩ => show win0_2.index t 1 * 24 + 1 * r.val = r.val; rw [(idx_tab t).2]; omega

/-- The node-feature block is the whole transposed feature table. -/
theorem blk_nf (c : Dev nD) (t : Fin cfg0.N) (x : S128x51200.Idx) :
    (iblk0 V c 3 t : Vec Ideal S128x51200 .bf16) x = (V c main_v2 : Vec Ideal S128x51200 .bf16) x := by
  unfold iblk0
  rw [View.read_apply]
  show (V c main_v2 : Vec Ideal S128x51200 .bf16) _ = _
  congr 1
  funext a
  apply Fin.ext
  match a with
  | ⟨0, _⟩ => show win0_3.index t 0 * 128 + 1 * (x 0).val = (x 0).val; rw [(idx_nf t).1]; omega
  | ⟨1, _⟩ => show win0_3.index t 1 * 51200 + 1 * (x 1).val = (x 1).val; rw [(idx_nf t).2]; omega

/-- The node tile multiplied at point t: columns 2048·(t % 25) … of the transposed feature table. -/
theorem nf_tile (c : Dev nD) (t : Fin cfg0.N) (d : Fin 128) (r : Fin 2048) (n : Fin 51200)
    (hn : n.val = 2048 * (t.val % 25) + r.val) :
    View.ld (iblk0 V c 3 t : Vec Ideal S128x51200 .bf16) (ncols0 (grid0.coords t)) (ix2 d r)
      = (V c main_v2 : Vec Ideal S128x51200 .bf16) (ix2 d n) := by
  show (iblk0 V c 3 t : Vec Ideal S128x51200 .bf16) ((ncols0 (grid0.coords t)).idx (ix2 d r)) = _
  rw [blk_nf]
  congr 1
  funext a
  apply Fin.ext
  match a with
  | ⟨0, _⟩ =>
    show k0_off1 (grid0.coords t) 0 + 1 * d.val = d.val
    rw [k0_off1_eq]
    show 0 + 1 * d.val = d.val
    omega
  | ⟨1, _⟩ =>
    show k0_off1 (grid0.coords t) 1 + 1 * r.val = n.val
    rw [k0_off1_eq, hn, ← coords_1]
    show 2048 * (grid0.coords t 1).val + 1 * r.val = _
    omega

/-! ## The accumulator: a sum over the node tiles so far -/

/-- The contribution of node tile k to the message of edge e at feature d: the sum over the tile's 2048 nodes of the
    feature times the indicator that the node is the edge's source (zero past the 25 tiles). -/
def tileTerm (nfT : (Sh2 128 51200).Idx → EReal) (srcRow : (Sh2 1 600064).Idx → BitVec 32) (d : Fin 128) (e : Fin 600064)
    (k : ℕ) : EReal :=
  if h : k < 25 then
    ∑ r : Fin 2048, nfT (ix2 d (nodeIx ⟨k, h⟩ r)) * oh (BitVec.ofNat 32 (nodeIx ⟨k, h⟩ r).val) (srcRow (ix2 (0 : Fin 1) e))
  else 0

/-- One accumulation step at point t, at (d, j): the accumulator there plus node tile t % 25's contribution to the
    message of edge 2048·(t / 25) + j. -/
theorem step_apply (c : Dev nD) (t : Fin cfg0.N) (acc : Vec Ideal S128x2048 .f32) (d : Fin 128) (j : Fin 2048)
    (e : Fin 600064) (he : e.val = 2048 * (t.val / 25) + j.val) :
    step0 V c t acc (ix2 d j) = acc (ix2 d j) + tileTerm (V c main_v2) (V c main_v6) d e (t.val % 25) := by
  unfold step0
  rw [pay2_apply]
  congr 1
  unfold tileTerm
  rw [dif_pos (Nat.mod_lt _ (by decide))]
  refine Finset.sum_congr rfl fun r _ => ?_
  rw [nf_tile V c t d r (nodeIx ⟨t.val % 25, Nat.mod_lt _ (by decide)⟩ r) rfl, blk_src V c t j e he, coords_1]
  rfl

/-- The accumulator restarts from the zero block at the first node tile of each edge tile … -/
theorem acc0_reset (c : Dev nD) : ∀ (n : ℕ) (h : n < cfg0.N), n % 25 = 0 →
    acc0 V c n h = step0 V c ⟨n, h⟩ (k0_pay1 (F := Ideal))
  | 0, h, _ => rfl
  | n + 1, h, hm => by rw [acc0, if_pos hm]

/-- … and steps from the point before at every other one. -/
theorem acc0_step (c : Dev nD) (n : ℕ) (h : n + 1 < cfg0.N) (hm : ¬(n + 1) % 25 = 0) :
    acc0 V c (n + 1) h = step0 V c ⟨n + 1, h⟩ (acc0 V c n (Nat.lt_of_succ_lt h)) := by
  rw [acc0, if_neg hm]

/-- After point 25·a + k the accumulator holds, at (d, j), the contributions of the node tiles 0 … k to the message of
    edge 2048·a + j: by induction on the node tile. -/
theorem acc_apply (c : Dev nD) (a : ℕ) (d : Fin 128) (j : Fin 2048) (e : Fin 600064) (he : e.val = 2048 * a + j.val) :
    ∀ (k : ℕ) (hk : k < 25) (h : 25 * a + k < cfg0.N),
      acc0 V c (25 * a + k) h (ix2 d j) = ∑ k' ∈ Finset.range (k + 1), tileTerm (V c main_v2) (V c main_v6) d e k'
  | 0, _, h => by
    rw [acc0_reset V c (25 * a + 0) h (by omega),
      step_apply V c ⟨25 * a + 0, h⟩ _ d j e (by show e.val = 2048 * ((25 * a + 0) / 25) + j.val; omega),
      pay1_apply, zero_add, Finset.sum_range_one]
    show tileTerm _ _ d e ((25 * a + 0) % 25) = _
    rw [show (25 * a + 0) % 25 = 0 from by omega]
  | k + 1, hk, h => by
    show acc0 V c ((25 * a + k) + 1) h (ix2 d j) = _
    rw [acc0_step V c (25 * a + k) h (by omega),
      step_apply V c ⟨25 * a + k + 1, h⟩ _ d j e (by show e.val = 2048 * ((25 * a + k + 1) / 25) + j.val; omega),
      acc_apply c a d j e he k (by omega) (Nat.lt_of_succ_lt h), Finset.sum_range_succ _ (k + 1)]
    show _ + tileTerm _ _ d e ((25 * a + k + 1) % 25) = _
    rw [show (25 * a + k + 1) % 25 = k + 1 from by omega]

/-- The 25 tile contributions together are the sum over all node ids. -/
theorem sum_tiles (nfT : (Sh2 128 51200).Idx → EReal) (srcRow : (Sh2 1 600064).Idx → BitVec 32) (d : Fin 128)
    (e : Fin 600064) :
    ∑ k' ∈ Finset.range 25, tileTerm nfT srcRow d e k'
      = ∑ k : Fin 25, ∑ r : Fin 2048,
          nfT (ix2 d (nodeIx k r)) * oh (BitVec.ofNat 32 (nodeIx k r).val) (srcRow (ix2 (0 : Fin 1) e)) := by
  rw [← Fin.sum_univ_eq_sum_range (fun k' => tileTerm nfT srcRow d e k') 25]
  refine Finset.sum_congr rfl fun k _ => ?_
  unfold tileTerm
  rw [dif_pos k.isLt]

/-! ## The block written back, the cover, the array -/

/-- What the body leaves in the output window at the last node tile of edge tile t / 25, at (d, j): the message of edge
    2048·(t / 25) + j at feature d. -/
theorem out_apply (c : Dev nD) (t : Fin cfg0.N) (h24 : t.val % 25 = 24) (d : Fin 128) (j : Fin 2048) (e : Fin 600064)
    (he : e.val = 2048 * (t.val / 25) + j.val) :
    (out0 V c t : Vec Ideal S128x2048 .bf16) (ix2 d j)
      = msgT (V c main_v6) (V c main_v8) (V c main_v11) (V c main_v2) d e := by
  have hN := lt_N t
  have hacc : acc0 V c t.val t.isLt (ix2 d j)
      = ∑ k' ∈ Finset.range 25, tileTerm (V c main_v2) (V c main_v6) d e k' := by
    have hlt : 25 * (t.val / 25) + 24 < cfg0.N :=
      lt_of_lt_of_eq (show 25 * (t.val / 25) + 24 < 7325 by omega) (show 7325 = cfg0.N from N_0.symm)
    have same : ∀ (u : ℕ) (hu : u < cfg0.N), u = t.val → acc0 V c u hu = acc0 V c t.val t.isLt :=
      fun u hu e => by subst e; rfl
    rw [← same (25 * (t.val / 25) + 24) hlt (by omega)]
    exact acc_apply V c (t.val / 25) d j e he 24 (by decide) hlt
  unfold out0
  rw [pay3_apply, hacc, sum_tiles]
  unfold msgT
  congr 1
  refine Finset.sum_congr rfl fun r _ => ?_
  rw [blk_tab, blk_feat V c t 0 j e he, blk_feat V c t 1 j e he, blk_feat V c t 2 j e he]

/-- The message matrix as contents of the output array. -/
def msgArr (c : Dev nD) : Buf (Elt Ideal) ((c : Thread nD τ).loc main_v23) :=
  fun i : S128x600064.Idx => msgT (V c main_v6) (V c main_v8) (V c main_v11) (V c main_v2) (i 0) (i 1)

/-- What a flushing point writes back is its block of the message matrix. -/
theorem flushed_eq (c : Dev nD) (t : Fin cfg0.N) (hf : (cfg0.win 4).flush t = true) :
    (dat0 V c).flushed 4 t = ((cfg0.win 4).blk t).view.read (Elt Ideal) (msgArr V c) := by
  have h24 : t.val % 25 = 24 := (flush0_4 t).mp hf
  have hN := lt_N t
  show (cfg0.win 4).cut (grid0.coords t) ((dat0 V c).after 4 t) = _
  rw [after0_4]
  funext y
  obtain ⟨d, j, rfl⟩ : ∃ (d : Fin 128) (j : Fin 2048), y = ix2 d j := ⟨y 0, y 1, @eq_ix2 128 2048 y⟩
  rw [View.read_apply]
  show (out0 V c t : Vec Ideal S128x2048 .bf16) (ix2 d j) = msgArr V c (((cfg0.win 4).blk t).view.emb (ix2 d j))
  rw [out_apply V c t h24 d j ⟨2048 * (t.val / 25) + j.val, by omega⟩ rfl]
  unfold msgArr
  congr 1 <;> apply Fin.ext
  · show d.val = win0_4.index t 0 * 128 + 1 * d.val
    rw [(idx_out t).1]; omega
  · show 2048 * (t.val / 25) + j.val = win0_4.index t 1 * 2048 + 1 * j.val
    rw [(idx_out t).2]; omega

/-- The output array ends holding the message matrix: the point that covers column e is 25·(e / 2048) + 24. -/
theorem final_arr (c : Dev nD) : (dat0 V c).arrAt 4 cfg0.N = msgArr V c :=
  (dat0 V c).arrAt_eq_of_cover 4 (msgArr V c) (flushed_eq V c) fun i => by
    have h0 : (i 0 : ℕ) < 128 := (i 0).isLt
    have h1 : (i 1 : ℕ) < 600064 := (i 1).isLt
    have hN : cfg0.N = 7325 := N_0
    have ht : 25 * ((i 1 : ℕ) / 2048) + 24 < cfg0.N := by rw [hN]; omega
    refine ⟨⟨25 * ((i 1 : ℕ) / 2048) + 24, ht⟩, (flush0_4 _).mpr (by show (25 * ((i 1 : ℕ) / 2048) + 24) % 25 = 24; omega), ?_⟩
    show i ∈ ((View.whole main_v23).slice (win0_4.rect ⟨25 * ((i 1 : ℕ) / 2048) + 24, ht⟩)).set
    rw [View.set_slice_whole, Rect.mem_set_unit]
    intro a
    match a with
    | ⟨0, _⟩ =>
      show win0_4.index ⟨25 * ((i 1 : ℕ) / 2048) + 24, ht⟩ 0 * 128 ≤ (i 0 : ℕ)
        ∧ (i 0 : ℕ) < win0_4.index ⟨25 * ((i 1 : ℕ) / 2048) + 24, ht⟩ 0 * 128 + 128
      rw [(idx_out _).1]; omega
    | ⟨1, _⟩ =>
      show win0_4.index ⟨25 * ((i 1 : ℕ) / 2048) + 24, ht⟩ 1 * 2048 ≤ (i 1 : ℕ)
        ∧ (i 1 : ℕ) < win0_4.index ⟨25 * ((i 1 : ℕ) / 2048) + 24, ht⟩ 1 * 2048 + 2048
      rw [(idx_out _).2]
      show (25 * ((i 1 : ℕ) / 2048) + 24) / 25 * 2048 ≤ (i 1 : ℕ) ∧ (i 1 : ℕ) < (25 * ((i 1 : ℕ) / 2048) + 24) / 25 * 2048 + 2048
      omega

end Gather

-- the contents of the core's unscoped buffers when the launch is entered
variable (V : (c : Dev nD) → (b : Ref sig .tc) → Buf (Elt Ideal) ((c : Thread nD τ).loc b))

/-- The array the gather launch leaves in its output, read at (d, e): the message of edge e at feature d. -/
theorem msgT_value (c : Dev nD) (d : Fin 128) (e : Fin 600064) :
    (dat0 (F := Ideal) V c).arrAt 4 cfg0.N (ix2 d e)
      = msgT (V c main_v6) (V c main_v8) (V c main_v11) (V c main_v2) d e := by
  rw [Gather.final_arr]
  rfl

end Cert.KernelIdeal.Hand

end
-- ==== Proof.KI.R0Body.lean ====
/-
  The gather launch's body, point by point.

  The launch's grid point t = 25·e + k handles edge tile e and node tile k. Its body has two conditionals on k: at
  k = 0 it restarts the scratch accumulator from the zero block; at k = 24 it adds the edge-embedding product to the
  accumulator and stores the sum into the output block. At every point it adds to the accumulator the product of the
  k-th 2048-column slab of the resident feature table with the one-hot comparison of node ids against the edge tile's
  source ids.

  Here: the body's three control cases as triples over named buffer contents (`runA0`, `runB0`, `runC0`); the two
  tests in closed form over the grid (residues mod 25); what the invariant `PhiS0` is before and after each point;
  and from these the body obligation of the pipeline's proof data `dat0`, with the two ends of its invariant.
-/
import proofs.«413313_j22084721836888_2_alg».proof.Proof.KI.R0Defs
import Idealize.ShloMosaic.Lib.Tactic
import Idealize.ShloMosaic.Lib.Ring
import Idealize.ShloMosaic.Lib.Pipeline.FrameBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz0 : (![0, 0] : Fin 2 → Nat) = fun _ => 0 := funext fun a => by fin_cases a <;> rfl

/-- The first conditional's test: the node-tile coordinate is zero. -/
abbrev condA0 (i : grid0.Coords) : Prop := (Scalar.cmpi .ne (Scalar.extui (Scalar.cmpi .eq (BitVec.ofNat 32 (i 1).val) 0#32)) 0#32) = 1#1
/-- The second conditional's test: the node-tile coordinate is the last one. -/
abbrev condC0 (i : grid0.Coords) : Prop := k0_cond2 i = 1#1

/-! ## The body, case by case

The body on whole staging memrefs at named contents. The three cases of its two conditionals (first node tile,
a middle node tile, last node tile) differ in what they ask of the scratch accumulator and of the output buffer:
at the first node tile the accumulator may hold anything and is restarted from the zero block; at the last one
the output buffer may hold anything and receives the finished block; otherwise the output buffer is not touched.
Each load through a whole-buffer rectangle reads the buffer's contents; a load of the accumulator after a covering
store reads that store's payload. -/

set_option maxHeartbeats 4000000 in
/-- First node tile: the accumulator is zeroed, then receives the zero block plus this tile's product. -/
theorem runA0 (c : Dev nD) (i : grid0.Coords) (arg2 : Memref sig .tc .vmem S1x2048 .i32) (harg2 : arg2.IsWhole) (arg3 : Memref sig .tc .vmem S3x2048 .i32) (harg3 : arg3.IsWhole) (arg4 : Memref sig .tc .vmem S128x24 .bf16) (harg4 : arg4.IsWhole) (arg5 : Memref sig .tc .vmem S128x51200 .bf16) (harg5 : arg5.IsWhole) (arg6 : Memref sig .tc .vmem S128x2048 .bf16) (harg6 : arg6.IsWhole) (arg7 : Memref sig .tc .vmem S128x2048 .f32) (harg7 : arg7.IsWhole)
    (hc0 : condA0 i) (hc1 : ¬condC0 i)
    (x0 : Vec F S1x2048 .i32) (x1 : Vec F S3x2048 .i32) (x2 : Vec F S128x24 .bf16) (x3 : Vec F S128x51200 .bf16) (xo : Vec F S128x2048 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare (k0_pay2 i x0 (View.ld x3 (ncols0 i)) (k0_pay1 (F := F)))) -∗ K ⟨⟩))
      ⊢ wp frame (wpE (defs₀ (F := F)) Variants.none c none) E (cc0__gather_kernel i arg2 harg2 arg3 harg3 arg4 harg4 arg5 harg5 arg6 harg6 arg7 harg7) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%fo, %hfo, Ho⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hfo
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [Ho]
  · iexists _; isplitr; · ipureintro; exact harg6.read_unread _
    iexact Ho
  iexists _; isplitr; swap; · iexact HS
  ipureintro
  sl_unfold_run_names
  refine Eq.trans (View.read_writes_eq_canon _ _ _ ?_) ?_
  · intro y; exact ⟨_, List.mem_cons_self, View.mem_set_unit_zero hz0 inb_S128x2048_S128x2048_0_0 y⟩
  rw [View.canon_cons_unit_zero (S := S128x2048) hz0, View.readCov_unit_zero (S := S128x2048) _ hz0]
  simp only [View.readAt_eq_ld, harg2.read_unread, harg5.read_unread, View.ld_unit_zero (S := S1x2048) hz0]

set_option maxHeartbeats 4000000 in
/-- A middle node tile: the accumulator receives what it held plus this tile's product; the output buffer is left alone. -/
theorem runB0 (c : Dev nD) (i : grid0.Coords) (arg2 : Memref sig .tc .vmem S1x2048 .i32) (harg2 : arg2.IsWhole) (arg3 : Memref sig .tc .vmem S3x2048 .i32) (harg3 : arg3.IsWhole) (arg4 : Memref sig .tc .vmem S128x24 .bf16) (harg4 : arg4.IsWhole) (arg5 : Memref sig .tc .vmem S128x51200 .bf16) (harg5 : arg5.IsWhole) (arg6 : Memref sig .tc .vmem S128x2048 .bf16) (harg6 : arg6.IsWhole) (arg7 : Memref sig .tc .vmem S128x2048 .f32) (harg7 : arg7.IsWhole)
    (hc0 : ¬condA0 i) (hc1 : ¬condC0 i)
    (x0 : Vec F S1x2048 .i32) (x1 : Vec F S3x2048 .i32) (x2 : Vec F S128x24 .bf16) (x3 : Vec F S128x51200 .bf16) (xo : Vec F S128x2048 .bf16) (xs : Vec F S128x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare (k0_pay2 i x0 (View.ld x3 (ncols0 i)) xs)) -∗ K ⟨⟩))
      ⊢ wp frame (wpE (defs₀ (F := F)) Variants.none c none) E (cc0__gather_kernel i arg2 harg2 arg3 harg3 arg4 harg4 arg5 harg5 arg6 harg6 arg7 harg7) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%fo, %hfo, Ho⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfo; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [Ho]
  · iexists _; isplitr; · ipureintro; exact harg6.read_unread _
    iexact Ho
  iexists _; isplitr; swap; · iexact HS
  ipureintro
  sl_unfold_run_names
  refine Eq.trans (View.read_writes_eq_canon _ _ _ ?_) ?_
  · intro y; exact ⟨_, List.mem_cons_self, View.mem_set_unit_zero hz0 inb_S128x2048_S128x2048_0_0 y⟩
  rw [View.canon_unit_zero hz0]
  simp only [View.readAt_eq_ld, harg2.read_unread, harg5.read_unread, harg7.read_unread, View.ld_unit_zero (S := S1x2048) hz0, View.ld_unit_zero (S := S128x2048) hz0]

set_option maxHeartbeats 4000000 in
/-- Last node tile: the accumulator receives what it held plus this tile's product, and the output buffer the
    finished block computed from the accumulator just stored. -/
theorem runC0 (c : Dev nD) (i : grid0.Coords) (arg2 : Memref sig .tc .vmem S1x2048 .i32) (harg2 : arg2.IsWhole) (arg3 : Memref sig .tc .vmem S3x2048 .i32) (harg3 : arg3.IsWhole) (arg4 : Memref sig .tc .vmem S128x24 .bf16) (harg4 : arg4.IsWhole) (arg5 : Memref sig .tc .vmem S128x51200 .bf16) (harg5 : arg5.IsWhole) (arg6 : Memref sig .tc .vmem S128x2048 .bf16) (harg6 : arg6.IsWhole) (arg7 : Memref sig .tc .vmem S128x2048 .f32) (harg7 : arg7.IsWhole)
    (hc0 : ¬condA0 i) (hc1 : condC0 i)
    (x0 : Vec F S1x2048 .i32) (x1 : Vec F S3x2048 .i32) (x2 : Vec F S128x24 .bf16) (x3 : Vec F S128x51200 .bf16) (xs : Vec F S128x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 x1 x2 (k0_pay2 i x0 (View.ld x3 (ncols0 i)) xs)) ∗ owns (c : Thread nD τ) arg7 fullShare (k0_pay2 i x0 (View.ld x3 (ncols0 i)) xs)) -∗ K ⟨⟩))
      ⊢ wp frame (wpE (defs₀ (F := F)) Variants.none c none) E (cc0__gather_kernel i arg2 harg2 arg3 harg3 arg4 harg4 arg5 harg5 arg6 harg6 arg7 harg7) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%d_o, %fo, -, Ho⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [Ho]
  · iexists _; isplitr; swap; · iexact Ho
    ipureintro
    sl_unfold_run_names
    refine Eq.trans (View.read_writes_eq_canon _ _ _ ?_) ?_
    · intro y; exact ⟨_, List.mem_cons_self, View.mem_set_unit_zero hz0 inb_S128x2048_S128x2048_0_0 y⟩
    rw [View.canon_unit_zero hz0]
    simp only [View.readCov_unit_zero (S := S128x2048) _ hz0, View.readAt_eq_ld, harg2.read_unread, harg3.read_unread, harg4.read_unread, harg5.read_unread, harg7.read_unread, View.ld_unit_zero (S := S1x2048) hz0, View.ld_unit_zero (S := S3x2048) hz0, View.ld_unit_zero (S := S128x24) hz0, View.ld_unit_zero (S := S128x2048) hz0]
  iexists _; isplitr; swap; · iexact HS
  ipureintro
  sl_unfold_run_names
  refine Eq.trans (View.read_writes_eq_canon _ _ _ ?_) ?_
  · intro y; exact ⟨_, List.mem_cons_self, View.mem_set_unit_zero hz0 inb_S128x2048_S128x2048_0_0 y⟩
  rw [View.canon_unit_zero hz0]
  simp only [View.readAt_eq_ld, harg2.read_unread, harg5.read_unread, harg7.read_unread, View.ld_unit_zero (S := S1x2048) hz0, View.ld_unit_zero (S := S128x2048) hz0]

/-! ## The schedule in closed form -/

/-- The first test holds exactly at the first node tile of each edge tile: point `25·e`. -/
theorem hcondA0 : ∀ t : Fin cfg0.N, condA0 (grid0.coords t) ↔ t.val % 25 = 0 :=
  (by decide +kernel : ∀ t : Fin grid0.N, condA0 (grid0.coords t) ↔ t.val % 25 = 0)
/-- The second test holds exactly at the last node tile of each edge tile: point `25·e + 24`. -/
theorem hcondC0 : ∀ t : Fin cfg0.N, condC0 (grid0.coords t) ↔ t.val % 25 = 24 :=
  (by decide +kernel : ∀ t : Fin grid0.N, condC0 (grid0.coords t) ↔ t.val % 25 = 24)

/-- The input windows are never idle. -/
theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := rfl
theorem liveAt0_3 (t : Fin cfg0.N) : cfg0.idle 3 (grid0.coords t) = false := rfl
/-- The output window is idle away from the last node tile, -/
theorem idleAt0_4 (t : Fin cfg0.N) (h : ¬t.val % 25 = 24) : cfg0.idle 4 (grid0.coords t) = true := by
  have hc : ¬k0_cond2 (grid0.coords t) = 1#1 := fun hc => h ((hcondC0 t).mp hc)
  show (!(k0_cond2 (grid0.coords t) == 1#1)) = true
  simpa using hc
/-- live at it, -/
theorem liveAt0_4 (t : Fin cfg0.N) (h : t.val % 25 = 24) : cfg0.idle 4 (grid0.coords t) = false := by
  have hc : k0_cond2 (grid0.coords t) = 1#1 := (hcondC0 t).mpr h
  show (!(k0_cond2 (grid0.coords t) == 1#1)) = false
  simpa using hc
/-- and not written back away from it. -/
theorem noFlush0_4 (t : Fin cfg0.N) (h : ¬t.val % 25 = 24) : (cfg0.win 4).flush t = false := by
  cases hf : (cfg0.win 4).flush t with
  | false => rfl
  | true => exact absurd ((flush0_4 t).mp hf) h

/-- Each window's current staging memref at point `t`, and its wholeness. -/
abbrev ms0_0 (t : Fin cfg0.N) : Memref sig .tc .vmem S1x2048 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x24 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x51200 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x2048 .bf16 := win0_4.stage (cfg0.slots t 4)
abbrev hs0_4 (t : Fin cfg0.N) : (ms0_4 t).IsWhole := hstage0_4 ((cfg0.slots t 4).cast nbuf0_4)

/-! ## What the body finds in the input windows: their blocks, fetched at the point or not -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ## The invariant -/

/-- What the launch hands the pipeline, with the scratch accumulator singled out as a memref owned at some contents. -/
theorem PhiA0_to (c : Dev nD) :
    (Pipeline.ΦA spec0 c : sProp 𝕄)
      ⊢ iprop((∃ d, owns (c : Thread nD τ) scM0 fullShare d) ∗ rest0 (F := F) c ∗ (∃ r, prngReg c r)) := by
  unfold Pipeline.ΦA; rw [scopedRest0_eq]; unfold rest0; simp only [scM0, owns_whole]
  iintro ⟨⟨HS, HR⟩, Hg⟩
  isplitl [HS]; · iexact HS
  isplitl [HR]; · iexact HR
  iexact Hg

theorem PhiA0_from (c : Dev nD) :
    iprop((∃ d, owns (c : Thread nD τ) scM0 fullShare d) ∗ rest0 (F := F) c ∗ (∃ r, prngReg c r))
      ⊢ (Pipeline.ΦA spec0 c : sProp 𝕄) := by
  unfold Pipeline.ΦA; rw [scopedRest0_eq]; unfold rest0; simp only [scM0, owns_whole]
  iintro ⟨HS, HR, Hg⟩
  isplitl [HS HR]
  · isplitl [HS]; · iexact HS
    iexact HR
  iexact Hg

theorem PhiA0_eq (c : Dev nD) :
    (Pipeline.ΦA spec0 c : sProp 𝕄)
      = iprop((∃ d, owns (c : Thread nD τ) scM0 fullShare d) ∗ rest0 (F := F) c ∗ (∃ r, prngReg c r)) :=
  Entails.antisymm (PhiA0_to c) (PhiA0_from c)

/-- The accumulator at a first node tile: one step from the zero block. -/
theorem acc0_A (c : Dev nD) (t : Fin cfg0.N) (h : t.val % 25 = 0) :
    acc0 V c t.val t.isLt = step0 V c t (k0_pay1 (F := F)) := by
  obtain ⟨n, hn⟩ := t
  cases n with
  | zero => rfl
  | succ n =>
    have h' : (n + 1) % 25 = 0 := h
    exact (if_pos h').trans rfl

/-- The accumulator at any other node tile: one step from what the point before left. -/
theorem acc0_B (c : Dev nD) (t : Fin cfg0.N) (h : ¬t.val % 25 = 0) :
    acc0 V c t.val t.isLt = step0 V c t (acc0 V c (t.val - 1) (Nat.lt_of_le_of_lt (Nat.sub_le _ _) t.isLt)) := by
  obtain ⟨n, hn⟩ := t
  cases n with
  | zero => exact absurd (Nat.zero_mod _) h
  | succ n =>
    have h' : ¬(n + 1) % 25 = 0 := h
    exact (if_neg h').trans rfl

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (acc0 V c n hn) ∗ rest0 (F := F) c ∗ (∃ r, prngReg c r)) := rfl

theorem PhiS0_pos (c : Dev nD) (n : ℕ) (h : n ≤ cfg0.N) (hz : n ≠ 0) :
    PhiS0 V c n h = iprop(owns (c : Thread nD τ) scM0 fullShare (acc0 V c (n - 1) (by omega)) ∗ rest0 (F := F) c ∗ (∃ r, prngReg c r)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-! ## The body obligation -/

/-- What the body is called with at point `t`: the invariant, what the core owes, each window's current buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]
theorem leaves0_4_C (c : Dev nD) (t : Fin cfg0.N) (h : t.val % 25 = 24) : (dat0 V c).leavesExact 4 t = owns (c : Thread nD τ) (ms0_4 t) fullShare (out0 V c t) := by
  unfold Dat.leavesExact; rw [liveAt0_4 t h, after0_4]

set_option maxHeartbeats 4800000 in
/-- The body at any point. The input buffers hold their blocks; the point's residue mod 25 says which case runs.
    At the first node tile the accumulator is handed over at anything (at the very first point from the launch's
    scoped rest, later from the invariant) and comes back one step from zero; elsewhere it is handed over at what
    the point before left and comes back one step further. The output buffer is handed back as found except at the
    last node tile, where it receives the finished block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  have hN : t.val < 7325 := lt_of_lt_of_eq t.isLt (show cfg0.N = 7325 from N_0)
  by_cases h0 : t.val % 25 = 0
  · have h1 : ¬t.val % 25 = 24 := by omega
    rw [Dat.leavesExact_idle (dat0 V c) 4 t (idleAt0_4 t h1) (noFlush0_4 t h1)]
    rw [acc0_A V c t h0]
    unfold step0
    by_cases hz : t.val = 0
    · rw [PhiS0_castSucc V c t, PhiS0_zero V c _ _ hz, PhiA0_eq]
      iintro ⟨⟨HS, HR, Hg⟩, Ho, ⟨%d0, H0⟩, ⟨%d1, H1⟩, ⟨%d2, H2⟩, ⟨%d3, H3⟩, ⟨%d4, H4⟩⟩
      iapply (runA0 c (grid0.coords t) (ms0_0 t) (hs0_0 t) (ms0_1 t) (hs0_1 t) (ms0_2 t) (hs0_2 t) (ms0_3 t) (hs0_3 t) (ms0_4 t) (hs0_4 t) scM0 (Memref.isWhole_whole _) ((hcondA0 t).mpr h0) (fun h => h1 ((hcondC0 t).mp h)) (iblk0 V c 0 t) (iblk0 V c 1 t) (iblk0 V c 2 t) (iblk0 V c 3 t) ((dat0 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨HS, HR, Hg⟩, Ho, ⟨%d0, H0⟩, ⟨%d1, H1⟩, ⟨%d2, H2⟩, ⟨%d3, H3⟩, ⟨%d4, H4⟩⟩
      iapply (runA0 c (grid0.coords t) (ms0_0 t) (hs0_0 t) (ms0_1 t) (hs0_1 t) (ms0_2 t) (hs0_2 t) (ms0_3 t) (hs0_3 t) (ms0_4 t) (hs0_4 t) scM0 (Memref.isWhole_whole _) ((hcondA0 t).mpr h0) (fun h => h1 ((hcondC0 t).mp h)) (iblk0 V c 0 t) (iblk0 V c 1 t) (iblk0 V c 2 t) (iblk0 V c 3 t) ((dat0 V c).before 4 t d4) Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun hz => h0 (by rw [hz])
    by_cases h1 : t.val % 25 = 24
    · rw [leaves0_4_C V c t h1]
      unfold out0
      rw [acc0_B V c t h0]
      unfold step0
      rw [PhiS0_castSucc V c t, PhiS0_pos V c _ _ hz]
      iintro ⟨⟨HS, HR, Hg⟩, Ho, ⟨%d0, H0⟩, ⟨%d1, H1⟩, ⟨%d2, H2⟩, ⟨%d3, H3⟩, ⟨%d4, H4⟩⟩
      iapply (runC0 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcondA0 t).mp h)) ((hcondC0 t).mpr h1) (iblk0 V c 0 t) (iblk0 V c 1 t) (iblk0 V c 2 t) (iblk0 V c 3 t) (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat0 V c) 4 t (idleAt0_4 t h1) (noFlush0_4 t h1)]
      rw [acc0_B V c t h0]
      unfold step0
      rw [PhiS0_castSucc V c t, PhiS0_pos V c _ _ hz]
      iintro ⟨⟨HS, HR, Hg⟩, Ho, ⟨%d0, H0⟩, ⟨%d1, H1⟩, ⟨%d2, H2⟩, ⟨%d3, H3⟩, ⟨%d4, H4⟩⟩
      iapply (runB0 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcondA0 t).mp h)) (fun h => h1 ((hcondC0 t).mp h)) (iblk0 V c 0 t) (iblk0 V c 1 t) (iblk0 V c 2 t) (iblk0 V c 3 t) ((dat0 V c).before 4 t d4) (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the pipeline is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's resources back: the accumulator's contents are forgotten. -/
theorem hout0 (c : Dev nD) : (dat0 V c).Φ (Fin.last cfg0.N) ⊢ Pipeline.ΦA spec0 c := by
  have hN : cfg0.N = 7325 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨HS, HR, Hg⟩
  isplitl [HS]; · iexists _; iexact HS
  isplitl [HR]; · iexact HR
  iexact Hg

end Cert.KernelIdeal.Hand

end
-- ==== Proof.KI.R1Body.lean ====
/-
  The body of the scatter-and-project launch, point by point.

  Grid point t = 293·n + k works on node tile n and edge tile k.  Three things can happen there.  At k = 0 the body
  first clears the accumulator.  At every k it adds to the accumulator the product of the message tile with the masked
  one-hot comparison of the destination ids against the node ids.  At k = 292 it reads the finished segment sum back,
  adds the node features, divides by the degrees, projects, adds the bias, and stores that block into the output
  window.  All loads and stores are of whole buffers, so after the body a buffer reads the payload of the last store
  into it, evaluated on the contents the buffers had when they were loaded.

  Hence the running sum `acc1`: one step over zero at k = 0, one step over the previous point's sum elsewhere; and the
  output block `out1` at k = 292.  Off k = 292 the output window is idle and is not written back, so its buffer is
  handed back exactly as it came.  The invariant between points carries the accumulator at the running sum; before
  the first point and after the last nothing is claimed of it.
-/
import proofs.«413313_j22084721836888_2_alg».proof.Proof.KI.R1Defs
import Idealize.ShloMosaic.Lib.Tactic
import Idealize.ShloMosaic.Lib.Ring
import Idealize.ShloMosaic.Lib.Pipeline.FrameBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first conditional of the body: taken at the first edge tile of a node tile (second grid coordinate 0). -/
abbrev condA (i : grid1.Coords) : Prop := (Scalar.cmpi .ne (Scalar.extui (Scalar.cmpi .eq (BitVec.ofNat 32 (i 1).val) 0#32)) 0#32) = 1#1
/-- The second conditional: taken at the last edge tile (second grid coordinate 292). -/
abbrev condC (i : grid1.Coords) : Prop := k1_cond2 i = 1#1

/-- The two zero offsets of a whole-buffer rectangle, as the constant function. -/
theorem hz : (![0, 0] : Fin 2 → Nat) = fun _ => 0 := funext fun a => by fin_cases a <;> rfl

/-! ## The body, case by case

Every load and store of the body is of a whole buffer, so what a buffer reads after the body is the payload of the
last store into it, over what the loads before that store read: the buffers' contents themselves. -/

set_option maxHeartbeats 1000000 in
/-- At the first edge tile of a node tile the body clears the accumulator, whatever it held, then adds the first
    product: the accumulator is left at one step over the zero block. -/
theorem runA (c : Dev nD) (i : grid1.Coords) (arg2 : Memref sig .tc .vmem S2048x1 .i32) (harg2 : arg2.IsWhole) (arg3 : Memref sig .tc .vmem S128x2048 .bf16) (harg3 : arg3.IsWhole) (arg4 : Memref sig .tc .vmem S128x2048 .f32) (harg4 : arg4.IsWhole) (arg5 : Memref sig .tc .vmem S1x2048 .f32) (harg5 : arg5.IsWhole) (arg6 : Memref sig .tc .vmem S128x128 .bf16) (harg6 : arg6.IsWhole) (arg7 : Memref sig .tc .vmem S128x1 .f32) (harg7 : arg7.IsWhole) (arg8 : Memref sig .tc .vmem S128x2048 .f32) (harg8 : arg8.IsWhole) (arg9 : Memref sig .tc .vmem S128x2048 .f32) (harg9 : arg9.IsWhole) (hc0 : condA i) (hc1 : ¬condC i)
    (x0 : Vec F S2048x1 .i32) (x1 : Vec F S128x2048 .bf16) (E : Set ℕ) (K : PUnit → sProp 𝕄) :
    iprop(owns (c : Thread nD τ) arg2 fullShare x0 ∗ owns (c : Thread nD τ) arg3 fullShare x1 ∗ (∃ d, owns (c : Thread nD τ) arg9 fullShare d)
        ∗ (iprop(owns (c : Thread nD τ) arg2 fullShare x0 ∗ owns (c : Thread nD τ) arg3 fullShare x1 ∗ owns (c : Thread nD τ) arg9 fullShare (k1_pay2 i x0 x1 (k1_pay1 (F := F)))) -∗ K ⟨⟩))
      ⊢ wp frame (wpE (defs₀ (F := F)) Variants.none c none) E (cc1__scatter_combine_kernel i arg2 harg2 arg3 harg3 arg4 harg4 arg5 harg5 arg6 harg6 arg7 harg7 arg8 harg8 arg9 harg9) K := by
  simp only [cc1__scatter_combine_kernel_eq_skeleton]; unfold cc1__scatter_combine_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr; swap; · iexact HS
  ipureintro
  sl_unfold_words
  rw [View.read_writes_eq_canon _ _ _ (fun y => ⟨_, List.mem_cons.mpr (Or.inl rfl), View.mem_set_unit_zero hz inb_S128x2048_S128x2048_0_0 y⟩), View.canon_cons_unit_zero (S := S128x2048) hz, View.readCov_unit_zero (S := S128x2048) _ hz]
  simp only [View.readAt_eq_ld, harg2.read_unread, harg3.read_unread, View.ld_unit_zero (S := S2048x1) hz, View.ld_unit_zero (S := S128x2048) hz]

set_option maxHeartbeats 1000000 in
/-- Between the first and the last edge tile the body adds one product to the accumulator. -/
theorem runB (c : Dev nD) (i : grid1.Coords) (arg2 : Memref sig .tc .vmem S2048x1 .i32) (harg2 : arg2.IsWhole) (arg3 : Memref sig .tc .vmem S128x2048 .bf16) (harg3 : arg3.IsWhole) (arg4 : Memref sig .tc .vmem S128x2048 .f32) (harg4 : arg4.IsWhole) (arg5 : Memref sig .tc .vmem S1x2048 .f32) (harg5 : arg5.IsWhole) (arg6 : Memref sig .tc .vmem S128x128 .bf16) (harg6 : arg6.IsWhole) (arg7 : Memref sig .tc .vmem S128x1 .f32) (harg7 : arg7.IsWhole) (arg8 : Memref sig .tc .vmem S128x2048 .f32) (harg8 : arg8.IsWhole) (arg9 : Memref sig .tc .vmem S128x2048 .f32) (harg9 : arg9.IsWhole) (hc0 : ¬condA i) (hc1 : ¬condC i)
    (x0 : Vec F S2048x1 .i32) (x1 : Vec F S128x2048 .bf16) (xs : Vec F S128x2048 .f32) (E : Set ℕ) (K : PUnit → sProp 𝕄) :
    iprop(owns (c : Thread nD τ) arg2 fullShare x0 ∗ owns (c : Thread nD τ) arg3 fullShare x1 ∗ owns (c : Thread nD τ) arg9 fullShare xs
        ∗ (iprop(owns (c : Thread nD τ) arg2 fullShare x0 ∗ owns (c : Thread nD τ) arg3 fullShare x1 ∗ owns (c : Thread nD τ) arg9 fullShare (k1_pay2 i x0 x1 xs)) -∗ K ⟨⟩))
      ⊢ wp frame (wpE (defs₀ (F := F)) Variants.none c none) E (cc1__scatter_combine_kernel i arg2 harg2 arg3 harg3 arg4 harg4 arg5 harg5 arg6 harg6 arg7 harg7 arg8 harg8 arg9 harg9) K := by
  simp only [cc1__scatter_combine_kernel_eq_skeleton]; unfold cc1__scatter_combine_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg9.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr; swap; · iexact HS
  ipureintro
  rw [View.read_writes_eq_canon _ _ _ (fun y => ⟨_, List.mem_cons.mpr (Or.inl rfl), View.mem_set_unit_zero hz inb_S128x2048_S128x2048_0_0 y⟩), View.canon_unit_zero hz]
  simp only [View.readAt_eq_ld, harg2.read_unread, harg3.read_unread, View.ld_unit_zero (S := S2048x1) hz, View.ld_unit_zero (S := S128x2048) hz, harg9.read_unread]

set_option maxHeartbeats 1000000 in
/-- At the last edge tile the body adds the last product, then reads the finished sum back and stores the combined
    block over whatever the output buffer held. -/
theorem runC (c : Dev nD) (i : grid1.Coords) (arg2 : Memref sig .tc .vmem S2048x1 .i32) (harg2 : arg2.IsWhole) (arg3 : Memref sig .tc .vmem S128x2048 .bf16) (harg3 : arg3.IsWhole) (arg4 : Memref sig .tc .vmem S128x2048 .f32) (harg4 : arg4.IsWhole) (arg5 : Memref sig .tc .vmem S1x2048 .f32) (harg5 : arg5.IsWhole) (arg6 : Memref sig .tc .vmem S128x128 .bf16) (harg6 : arg6.IsWhole) (arg7 : Memref sig .tc .vmem S128x1 .f32) (harg7 : arg7.IsWhole) (arg8 : Memref sig .tc .vmem S128x2048 .f32) (harg8 : arg8.IsWhole) (arg9 : Memref sig .tc .vmem S128x2048 .f32) (harg9 : arg9.IsWhole) (hc0 : ¬condA i) (hc1 : condC i)
    (x0 : Vec F S2048x1 .i32) (x1 : Vec F S128x2048 .bf16) (x2 : Vec F S128x2048 .f32) (x3 : Vec F S1x2048 .f32)
    (x4 : Vec F S128x128 .bf16) (x5 : Vec F S128x1 .f32) (xs : Vec F S128x2048 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (k1_pay3 x2 (k1_pay2 i x0 x1 xs) x3 x4 x5)
            ∗ owns (c : Thread nD τ) arg9 fullShare (k1_pay2 i x0 x1 xs)) -∗ K ⟨⟩))
      ⊢ wp frame (wpE (defs₀ (F := F)) Variants.none c none) E (cc1__scatter_combine_kernel i arg2 harg2 arg3 harg3 arg4 harg4 arg5 harg5 arg6 harg6 arg7 harg7 arg8 harg8 arg9 harg9) K := by
  simp only [cc1__scatter_combine_kernel_eq_skeleton]; unfold cc1__scatter_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    sl_unfold_words
    rw [View.read_writes_eq_canon _ _ _ (fun y => ⟨_, List.mem_cons.mpr (Or.inl rfl), View.mem_set_unit_zero hz inb_S128x2048_S128x2048_0_0 y⟩), View.canon_unit_zero hz, View.readCov_unit_zero (S := S128x2048) _ hz]
    simp only [View.readAt_eq_ld, harg2.read_unread, harg3.read_unread, View.ld_unit_zero (S := S2048x1) hz, View.ld_unit_zero (S := S128x2048) hz, harg4.read_unread, harg5.read_unread, harg6.read_unread, harg7.read_unread, harg9.read_unread,
      View.ld_unit_zero (S := S1x2048) hz, View.ld_unit_zero (S := S128x128) hz, View.ld_unit_zero (S := S128x1) hz]
  iexists _; isplitr; swap; · iexact HS
  ipureintro
  sl_unfold_words
  rw [View.read_writes_eq_canon _ _ _ (fun y => ⟨_, List.mem_cons.mpr (Or.inl rfl), View.mem_set_unit_zero hz inb_S128x2048_S128x2048_0_0 y⟩), View.canon_unit_zero hz]
  simp only [View.readAt_eq_ld, harg2.read_unread, harg3.read_unread, View.ld_unit_zero (S := S2048x1) hz, View.ld_unit_zero (S := S128x2048) hz, harg9.read_unread]

/-! ## The two conditionals in closed form, and where the output window is live -/

/-- The first conditional holds exactly at the points 293·n. -/
theorem hcond_a : ∀ t : Fin cfg1.N, condA (grid1.coords t) ↔ t.val % 293 = 0 :=
  (by decide +kernel : ∀ t : Fin grid1.N, condA (grid1.coords t) ↔ t.val % 293 = 0)
/-- The second holds exactly at the points 293·n + 292. -/
theorem hcond_c : ∀ t : Fin cfg1.N, condC (grid1.coords t) ↔ t.val % 293 = 292 :=
  (by decide +kernel : ∀ t : Fin grid1.N, condC (grid1.coords t) ↔ t.val % 293 = 292)

/-- Off the last edge tile the output window is idle: the body stores nothing into it. -/
theorem idle6_of_not (i : grid1.Coords) (h : ¬condC i) : cfg1.idle 6 i = true := by
  show (!(k1_cond2 i == 1#1)) = true
  rw [Bool.not_eq_true', beq_eq_false_iff_ne]; exact h
/-- At the last edge tile it is live. -/
theorem live6_of (i : grid1.Coords) (h : condC i) : cfg1.idle 6 i = false := by
  show (!(k1_cond2 i == 1#1)) = false
  rw [show k1_cond2 i = 1#1 from h]; rfl
/-- Off the last edge tile the output block is not written back. -/
theorem noFlush6 (t : Fin cfg1.N) (h : ¬t.val % 293 = 292) : (cfg1.win 6).flush t = false :=
  Bool.eq_false_iff.mpr fun hf => h ((flush1_6 t).mp hf)

/-! ## The staging memrefs at a point, and what the input windows hold there -/

abbrev ms1_0 (t : Fin cfg1.N) : Memref sig .tc .vmem S2048x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x2048 .f32 := win1_6.stage (cfg1.slots t 6)
abbrev hs1_6 (t : Fin cfg1.N) : (ms1_6 t).IsWhole := hstage1_6 ((cfg1.slots t 6).cast nbuf1_6)

/-- Input window 0's current buffer holds its block at every point, fetched there or not: unfetched, the block index
    has not moved since the point before, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- and the body hands it back at that block (an input is never idle). -/
theorem leaves1_0 (c : Dev nD) (t : Fin cfg1.N) : (dat1 V c).leavesExact 0 t = owns (c : Thread nD τ) (ms1_0 t) fullShare (iblk1 V c 0 t) := by
  show owns (c : Thread nD τ) (ms1_0 t) fullShare ((dat1 V c).after 0 t) = _
  rw [after1_0]
/-- Input window 1's current buffer holds its block at every point, fetched there or not: unfetched, the block index
    has not moved since the point before, and the body leaves the block in place. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
/-- and the body hands it back at that block (an input is never idle). -/
theorem leaves1_1 (c : Dev nD) (t : Fin cfg1.N) : (dat1 V c).leavesExact 1 t = owns (c : Thread nD τ) (ms1_1 t) fullShare (iblk1 V c 1 t) := by
  show owns (c : Thread nD τ) (ms1_1 t) fullShare ((dat1 V c).after 1 t) = _
  rw [after1_1]
/-- Input window 2's current buffer holds its block at every point, fetched there or not: unfetched, the block index
    has not moved since the point before, and the body leaves the block in place. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
/-- and the body hands it back at that block (an input is never idle). -/
theorem leaves1_2 (c : Dev nD) (t : Fin cfg1.N) : (dat1 V c).leavesExact 2 t = owns (c : Thread nD τ) (ms1_2 t) fullShare (iblk1 V c 2 t) := by
  show owns (c : Thread nD τ) (ms1_2 t) fullShare ((dat1 V c).after 2 t) = _
  rw [after1_2]
/-- Input window 3's current buffer holds its block at every point, fetched there or not: unfetched, the block index
    has not moved since the point before, and the body leaves the block in place. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
/-- and the body hands it back at that block (an input is never idle). -/
theorem leaves1_3 (c : Dev nD) (t : Fin cfg1.N) : (dat1 V c).leavesExact 3 t = owns (c : Thread nD τ) (ms1_3 t) fullShare (iblk1 V c 3 t) := by
  show owns (c : Thread nD τ) (ms1_3 t) fullShare ((dat1 V c).after 3 t) = _
  rw [after1_3]
/-- Input window 4's current buffer holds its block at every point, fetched there or not: unfetched, the block index
    has not moved since the point before, and the body leaves the block in place. -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
/-- and the body hands it back at that block (an input is never idle). -/
theorem leaves1_4 (c : Dev nD) (t : Fin cfg1.N) : (dat1 V c).leavesExact 4 t = owns (c : Thread nD τ) (ms1_4 t) fullShare (iblk1 V c 4 t) := by
  show owns (c : Thread nD τ) (ms1_4 t) fullShare ((dat1 V c).after 4 t) = _
  rw [after1_4]
/-- Input window 5's current buffer holds its block at every point, fetched there or not: unfetched, the block index
    has not moved since the point before, and the body leaves the block in place. -/
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
/-- and the body hands it back at that block (an input is never idle). -/
theorem leaves1_5 (c : Dev nD) (t : Fin cfg1.N) : (dat1 V c).leavesExact 5 t = owns (c : Thread nD τ) (ms1_5 t) fullShare (iblk1 V c 5 t) := by
  show owns (c : Thread nD τ) (ms1_5 t) fullShare ((dat1 V c).after 5 t) = _
  rw [after1_5]

/-! ## The invariant -/

/-- Moving the last conjunct of a chain of ten to the front, beside an eleventh. -/
theorem sep_last_front (A1 A2 A3 A4 A5 A6 A7 A8 A9 S G : sProp 𝕄) :
    iprop((A1 ∗ A2 ∗ A3 ∗ A4 ∗ A5 ∗ A6 ∗ A7 ∗ A8 ∗ A9 ∗ S) ∗ G) = iprop(S ∗ (A1 ∗ A2 ∗ A3 ∗ A4 ∗ A5 ∗ A6 ∗ A7 ∗ A8 ∗ A9) ∗ G) := by
  have h₁ : iprop((A1 ∗ A2 ∗ A3 ∗ A4 ∗ A5 ∗ A6 ∗ A7 ∗ A8 ∗ A9 ∗ S) ∗ G) ⊢ iprop(S ∗ (A1 ∗ A2 ∗ A3 ∗ A4 ∗ A5 ∗ A6 ∗ A7 ∗ A8 ∗ A9) ∗ G) := by
    iintro ⟨⟨A1, A2, A3, A4, A5, A6, A7, A8, A9, S⟩, G⟩
    isplitl [S]; · iexact S
    isplitr [G]; swap; · iexact G
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  have h₂ : iprop(S ∗ (A1 ∗ A2 ∗ A3 ∗ A4 ∗ A5 ∗ A6 ∗ A7 ∗ A8 ∗ A9) ∗ G) ⊢ iprop((A1 ∗ A2 ∗ A3 ∗ A4 ∗ A5 ∗ A6 ∗ A7 ∗ A8 ∗ A9 ∗ S) ∗ G) := by
    iintro ⟨S, ⟨A1, A2, A3, A4, A5, A6, A7, A8, A9⟩, G⟩
    isplitr [G]; swap; · iexact G
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact S
  exact BI.equiv_iff.mp ⟨h₁, h₂⟩

/-- What the launch hands the pipeline, with the accumulator split off as a memref at some contents. -/
theorem PhiA1_eq (c : Dev nD) :
    (Pipeline.ΦA spec1 c : sProp 𝕄) = iprop((∃ d, owns (c : Thread nD τ) scM1 fullShare d) ∗ rest1 (F := F) c ∗ (∃ r, prngReg c r)) := by
  unfold Pipeline.ΦA; rw [scopedRest1_eq]; unfold rest1; simp only [scM1, owns_whole]
  exact sep_last_front _ _ _ _ _ _ _ _ _ _ _

theorem PhiS1_zero (c : Dev nD) (n : ℕ) (h : n ≤ cfg1.N) (hz : n = 0) : PhiS1 V c n h = Pipeline.ΦA spec1 c := by
  subst hz; rfl

/-- After point `n`: the accumulator at the running sum there. -/
theorem PhiS1_succ (c : Dev nD) (n : ℕ) (hn : n < cfg1.N) :
    PhiS1 V c (n + 1) hn = iprop(owns (c : Thread nD τ) scM1 fullShare (acc1 V c n hn) ∗ rest1 (F := F) c ∗ (∃ r, prngReg c r)) := rfl

/-- Before a point that is not the first: the accumulator at what the point before left. -/
theorem PhiS1_pos (c : Dev nD) (n : ℕ) (h : n ≤ cfg1.N) (hz : n ≠ 0) :
    PhiS1 V c n h = iprop(owns (c : Thread nD τ) scM1 fullShare (acc1 V c (n - 1) (by omega)) ∗ rest1 (F := F) c ∗ (∃ r, prngReg c r)) := by
  cases n with
  | zero => exact absurd rfl hz
  | succ n => rfl

theorem Phi1_castSucc (c : Dev nD) (t : Fin cfg1.N) :
    (dat1 V c).Φ t.castSucc = PhiS1 V c t.val (Nat.le_of_lt t.isLt) := by
  dsimp only [dat1]; simp only [Fin.coe_castSucc]

/-- The running sum at a first edge tile restarts from zero; -/
theorem acc1_A (c : Dev nD) (t : Fin cfg1.N) (h0 : t.val % 293 = 0) :
    acc1 V c t.val t.isLt = k1_pay2 (grid1.coords t) (iblk1 V c 0 t) (iblk1 V c 1 t) (k1_pay1 (F := F)) := by
  obtain ⟨n, hn⟩ := t
  cases n with
  | zero => rfl
  | succ n => exact (if_pos h0)

/-- elsewhere it is one step over the point before. -/
theorem acc1_B (c : Dev nD) (t : Fin cfg1.N) (h0 : ¬t.val % 293 = 0) :
    acc1 V c t.val t.isLt = k1_pay2 (grid1.coords t) (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n => exact (if_neg h0)

/-! ## The body obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The input windows' buffers hold their blocks; the point's position among the edge tiles
    of its node tile says which conditionals are taken; the invariant hands over the accumulator at the running sum
    of the point before (at anything at the very first point) and takes it back at this point's; off the last edge
    tile the output window's buffer goes back as it came, at the last edge tile it holds the combined block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [leaves1_0, leaves1_1, leaves1_2, leaves1_3, leaves1_4, leaves1_5]
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ, Phi1_castSucc V c t]
  have hN : t.val < 7325 := lt_of_lt_of_eq t.isLt (show cfg1.N = 7325 from N_1)
  by_cases h0 : t.val % 293 = 0
  · have h1 : ¬t.val % 293 = 292 := by omega
    have hcA : condA (grid1.coords t) := (hcond_a t).mpr h0
    have hcC : ¬condC (grid1.coords t) := fun h => h1 ((hcond_c t).mp h)
    rw [Dat.leavesExact_idle (dat1 V c) 6 t (idle6_of_not _ hcC) (noFlush6 t h1), acc1_A V c t h0]
    by_cases hz0 : t.val = 0
    · rw [PhiS1_zero V c _ _ hz0, PhiA1_eq]
      iintro ⟨⟨HS, Hr, Hg⟩, Ho, ⟨%d0, H0⟩, ⟨%d1, H1⟩, ⟨%d2, H2⟩, ⟨%d3, H3⟩, ⟨%d4, H4⟩, ⟨%d5, H5⟩, H6⟩
      iapply (runA c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hcA hcC (iblk1 V c 0 t) (iblk1 V c 1 t) Set.univ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS1_pos V c _ _ hz0]
      iintro ⟨⟨HS, Hr, Hg⟩, Ho, ⟨%d0, H0⟩, ⟨%d1, H1⟩, ⟨%d2, H2⟩, ⟨%d3, H3⟩, ⟨%d4, H4⟩, ⟨%d5, H5⟩, H6⟩
      iapply (runA c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hcA hcC (iblk1 V c 0 t) (iblk1 V c 1 t) Set.univ _)
      isplitl [H0]; · iexact H0
      isplitl [H1]; · iexact H1
      isplitl [HS]; · iexists _; iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz0 : t.val ≠ 0 := fun h => h0 (by rw [h])
    have hcA : ¬condA (grid1.coords t) := fun h => h0 ((hcond_a t).mp h)
    rw [PhiS1_pos V c _ _ hz0]
    by_cases h1 : t.val % 293 = 292
    · have hcC : condC (grid1.coords t) := (hcond_c t).mpr h1
      rw [show (dat1 V c).leavesExact 6 t = owns (c : Thread nD τ) (ms1_6 t) fullShare ((dat1 V c).after 6 t) from by
        unfold Dat.leavesExact; rw [live6_of _ hcC], after1_6]
      unfold out1
      rw [acc1_B V c t h0]
      iintro ⟨⟨HS, Hr, Hg⟩, Ho, ⟨%d0, H0⟩, ⟨%d1, H1⟩, ⟨%d2, H2⟩, ⟨%d3, H3⟩, ⟨%d4, H4⟩, ⟨%d5, H5⟩, H6⟩
      iapply (runC c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hcA hcC (iblk1 V c 0 t) (iblk1 V c 1 t) (iblk1 V c 2 t) (iblk1 V c 3 t) (iblk1 V c 4 t) (iblk1 V c 5 t)
        (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]
      · icases H6 with ⟨%d6, H6⟩; iexists _; iexact H6
      isplitl [HS]; · iexact HS
      iintro ⟨H0, H1, H2, H3, H4, H5, H6, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hcC : ¬condC (grid1.coords t) := fun h => h1 ((hcond_c t).mp h)
      rw [Dat.leavesExact_idle (dat1 V c) 6 t (idle6_of_not _ hcC) (noFlush6 t h1), acc1_B V c t h0]
      iintro ⟨⟨HS, Hr, Hg⟩, Ho, ⟨%d0, H0⟩, ⟨%d1, H1⟩, ⟨%d2, H2⟩, ⟨%d3, H3⟩, ⟨%d4, H4⟩, ⟨%d5, H5⟩, H6⟩
      iapply (runB c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hcA hcC (iblk1 V c 0 t) (iblk1 V c 1 t)
        (acc1 V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The pipeline's body obligation for the scatter launch, at every point. -/
theorem body_obligation1 (c : Dev nD) : BodyObligation (dat1 (F := F) V c) (defs₀ (F := F)) Variants.none () Set.univ := fun t => by
  rw [bigSep_W1, bigSep_W1]
  exact sound_body1 V c t

/-- What the launch hands the pipeline is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives it back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 7325 := N_1; omega), PhiA1_eq]
  iintro ⟨HS, Hr, Hg⟩
  isplitl [HS]; · iexists _; iexact HS
  isplitl [Hr]; · iexact Hr
  iexact Hg

end Cert.KernelIdeal.Hand

end
-- ==== Proof.AlgMsg.lean ====
/-
  A one-hot product is a gather.

  For a word s and a family f over Fin n (n at most 2^32), the sum Σ_r f r · [r = s] keeps the one term r = s.
  The kernel's message is two such sums: one over all 51200 padded node ids, cut in 25 tiles of 2048, against the
  edge's source word, and one over the 24 rows of the flattened 3×8 table against the three shifted vocabulary words.
  With the source below 50000 and each vocabulary word below 8, the sums read x[src e, d] and emb[col, idx_col e, d].
-/
import proofs.«413313_j22084721836888_2_alg».proof.Proof.Spec
import Mathlib.Data.EReal.Basic
import Mathlib.Data.EReal.Operations
import Mathlib.Algebra.BigOperators.Fin

noncomputable section

open scoped BigOperators

namespace Cert.Spec

open Idealize.ShloMosaic Idealize.ShloMosaic.ValueIdx

/-- The indicator is non-negative. -/
theorem oh_nonneg (a b : BitVec 32) : (0 : EReal) ≤ oh a b := by
  unfold oh; split <;> simp

/-- The indicator of "the word of the natural n is s", for n below 2^32, is the indicator of n = s.toNat. -/
theorem oh_ofNat (n : Nat) (hn : n < 2 ^ 32) (s : BitVec 32) :
    oh (BitVec.ofNat 32 n) s = if n = s.toNat then 1 else 0 := by
  unfold oh
  have : (BitVec.ofNat 32 n = s) ↔ n = s.toNat := by
    constructor
    · intro h; rw [← h, BitVec.toNat_ofNat, Nat.mod_eq_of_lt hn]
    · intro h; apply BitVec.eq_of_toNat_eq; rw [BitVec.toNat_ofNat, Nat.mod_eq_of_lt hn, h]
  simp only [this]

/-- A one-hot sum over Fin n keeps the one term at the word's value. -/
theorem sum_mul_oh {n : Nat} (hn : n ≤ 2 ^ 32) (t : Fin n → EReal) (s : BitVec 32) (hs : s.toNat < n) :
    ∑ r : Fin n, t r * oh (BitVec.ofNat 32 r.val) s = t ⟨s.toNat, hs⟩ := by
  rw [Finset.sum_eq_single (⟨s.toNat, hs⟩ : Fin n)]
  · rw [oh_ofNat _ (by omega), if_pos rfl, mul_one]
  · intro r _ hr
    rw [oh_ofNat _ (by have := r.isLt; omega), if_neg (fun h => hr (Fin.ext h)), mul_zero]
  · intro h; exact absurd (Finset.mem_univ _) h

/-- The tiled one-hot sum over the 25 × 2048 node ids keeps the one term at the word's value. -/
theorem node_collapse (f : Fin 51200 → EReal) (s : BitVec 32) (hs : s.toNat < 51200) :
    ∑ k : Fin 25, ∑ r : Fin 2048, f (nodeIx k r) * oh (BitVec.ofNat 32 (nodeIx k r).val) s = f ⟨s.toNat, hs⟩ := by
  rw [Finset.sum_eq_single (⟨s.toNat / 2048, by omega⟩ : Fin 25)]
  · rw [Finset.sum_eq_single (⟨s.toNat % 2048, by omega⟩ : Fin 2048)]
    · have hn : nodeIx ⟨s.toNat / 2048, by omega⟩ ⟨s.toNat % 2048, by omega⟩ = ⟨s.toNat, hs⟩ :=
        Fin.ext (by show 2048 * (s.toNat / 2048) + s.toNat % 2048 = s.toNat; omega)
      rw [hn, oh_ofNat _ (by show s.toNat < 2 ^ 32; omega), if_pos rfl, mul_one]
    · intro r _ hr
      rw [oh_ofNat _ (by have := (nodeIx ⟨s.toNat / 2048, by omega⟩ r).isLt; omega), if_neg, mul_zero]
      intro h
      apply hr
      apply Fin.ext
      have h' : 2048 * (s.toNat / 2048) + r.val = s.toNat := h
      show r.val = s.toNat % 2048
      omega
    · intro h; exact absurd (Finset.mem_univ _) h
  · intro k _ hk
    apply Finset.sum_eq_zero
    intro r _
    rw [oh_ofNat _ (by have := (nodeIx k r).isLt; omega), if_neg, mul_zero]
    intro h
    apply hk
    apply Fin.ext
    have h' : 2048 * k.val + r.val = s.toNat := h
    have := r.isLt
    show k.val = s.toNat / 2048
    omega
  · intro h; exact absurd (Finset.mem_univ _) h

/-- The one-hot sum over the 24 table rows against three words, the second shifted by 8 and the third by 16, keeps
    the three terms at rows a, 8 + b and 16 + c. -/
theorem tab_collapse (t : Fin 24 → EReal) (a b c : BitVec 32) (ha : a.toNat < 8) (hb : b.toNat < 8)
    (hc : c.toNat < 8) :
    ∑ r : Fin 24, t r * (oh (BitVec.ofNat 32 r.val) a + oh (BitVec.ofNat 32 r.val) (8#32 + b)
        + oh (BitVec.ofNat 32 r.val) (16#32 + c))
      = t ⟨a.toNat, by omega⟩ + t ⟨8 + b.toNat, by omega⟩ + t ⟨16 + c.toNat, by omega⟩ := by
  have hb' : (8#32 + b).toNat = 8 + b.toNat := by
    rw [BitVec.toNat_add]; show (8 + b.toNat) % 2 ^ 32 = _; omega
  have hc' : (16#32 + c).toNat = 16 + c.toNat := by
    rw [BitVec.toNat_add]; show (16 + c.toNat) % 2 ^ 32 = _; omega
  have hdist : ∀ r : Fin 24, t r * (oh (BitVec.ofNat 32 r.val) a + oh (BitVec.ofNat 32 r.val) (8#32 + b)
        + oh (BitVec.ofNat 32 r.val) (16#32 + c))
      = t r * oh (BitVec.ofNat 32 r.val) a + t r * oh (BitVec.ofNat 32 r.val) (8#32 + b)
        + t r * oh (BitVec.ofNat 32 r.val) (16#32 + c) := by
    intro r
    rw [EReal.left_distrib_of_nonneg (add_nonneg (oh_nonneg _ _) (oh_nonneg _ _)) (oh_nonneg _ _),
      EReal.left_distrib_of_nonneg (oh_nonneg _ _) (oh_nonneg _ _)]
  simp only [hdist, Finset.sum_add_distrib]
  rw [sum_mul_oh (by norm_num) t a (by omega), sum_mul_oh (by norm_num) t (8#32 + b) (by omega),
    sum_mul_oh (by norm_num) t (16#32 + c) (by omega)]
  have e1 : ∀ h1 h2, t ⟨(8#32 + b).toNat, h1⟩ = t ⟨8 + b.toNat, h2⟩ := fun _ _ => congrArg t (Fin.ext hb')
  have e2 : ∀ h1 h2, t ⟨(16#32 + c).toNat, h1⟩ = t ⟨16 + c.toNat, h2⟩ := fun _ _ => congrArg t (Fin.ext hc')
  rw [e1 _ (by omega), e2 _ (by omega)]

/-- The kernel's one-hot message at feature d and a real edge e is the reference's gathered message: the node sum keeps
    x[src e, d] (the source is below 50000, so the padded node row reads x), and the table sum keeps the rows
    idx₀ e, 8 + idx₁ e and 16 + idx₂ e, whose quotient and remainder by 8 are the column and the vocabulary entry. -/
theorem msgT_eq_msg (x : (Sh2 50000 128).Idx → EReal) (src : (Sh1 600000).Idx → BitVec 32) (idx : (Sh2 600000 3).Idx → BitVec 32)
    (emb : (Sh3 3 8 128).Idx → EReal)
    (srcRow : (Sh2 1 600064).Idx → BitVec 32) (idxT : (Sh2 3 600064).Idx → BitVec 32)
    (tabT : (Sh2 128 24).Idx → EReal) (nfT : (Sh2 128 51200).Idx → EReal)
    (h_src : ∀ e : Fin 600064, srcRow (ix2 (0 : Fin 1) e) = if h : e.val < 600000 then src (ix1 ⟨e.val, h⟩) else 0#32)
    (h_idx : ∀ (col : Fin 3) (e : Fin 600064), idxT (ix2 col e) = if h : e.val < 600000 then idx (ix2 ⟨e.val, h⟩ col) else 0#32)
    (h_tab : ∀ (d : Fin 128) (r : Fin 24), tabT (ix2 d r) = emb (ix3 (⟨r.val / 8, by omega⟩ : Fin 3) (⟨r.val % 8, by omega⟩ : Fin 8) d))
    (h_nf : ∀ (d : Fin 128) (n : Fin 51200), nfT (ix2 d n) = if h : n.val < 50000 then x (ix2 ⟨n.val, h⟩ d) else (0 : EReal))
    (hsrc : ∀ e : Fin 600000, (src (ix1 e)).toNat < 50000) (hidx : ∀ (e : Fin 600000) (col : Fin 3), (idx (ix2 e col)).toNat < 8)
    (d : Fin 128) (e : Fin 600000) :
    msgT srcRow idxT tabT nfT d ⟨e.val, by omega⟩ = msg x src idx emb e d := by
  have hS : srcRow (ix2 (0 : Fin 1) (⟨e.val, by omega⟩ : Fin 600064)) = src (ix1 e) := by
    rw [h_src, dif_pos (show e.val < 600000 from e.isLt)]
  have hI : ∀ col : Fin 3, idxT (ix2 col (⟨e.val, by omega⟩ : Fin 600064)) = idx (ix2 e col) := by
    intro col
    rw [h_idx, dif_pos (show e.val < 600000 from e.isLt)]
  unfold msgT msg
  rw [hS, hI 0, hI 1, hI 2]
  rw [node_collapse (fun n => nfT (ix2 d n)) (src (ix1 e)) (by have := hsrc e; omega)]
  rw [tab_collapse (fun r => tabT (ix2 d r)) _ _ _ (hidx e 0) (hidx e 1) (hidx e 2)]
  rw [Fin.sum_univ_three]
  simp only [h_nf, h_tab]
  rw [dif_pos (show (src (ix1 e)).toNat < 50000 from hsrc e)]
  unfold srcIx vocIx
  rw [dif_pos (hsrc e), dif_pos (hidx e 0), dif_pos (hidx e 1), dif_pos (hidx e 2)]
  have k : ∀ (a : Nat) (c : Fin 3) (v : Nat) (hv : v < 8) (h1 : a / 8 < 3) (h2 : a % 8 < 8), a / 8 = c.val → a % 8 = v →
      emb (ix3 (⟨a / 8, h1⟩ : Fin 3) (⟨a % 8, h2⟩ : Fin 8) d) = emb (ix3 c (⟨v, hv⟩ : Fin 8) d) := by
    intro a c v hv h1 h2 e1 e2
    have q1 : (⟨a / 8, h1⟩ : Fin 3) = c := Fin.ext e1
    have q2 : (⟨a % 8, h2⟩ : Fin 8) = ⟨v, hv⟩ := Fin.ext e2
    rw [q1, q2]
  have h0 := hidx e 0
  have h1 := hidx e 1
  have h2 := hidx e 2
  rw [k _ 0 _ h0 _ _ (by show _ / 8 = 0; omega) (by omega),
    k _ 1 _ h1 _ _ (by show _ / 8 = 1; omega) (by omega),
    k _ 2 _ h2 _ _ (by show _ / 8 = 2; omega) (by omega)]

end Cert.Spec

end
-- ==== Proof.AlgOut.lean ====
/-
  A masked one-hot product is a segment sum, and the transposed projection is the projection.

  The transposed output block sums, for every feature d, over all 293 · 2048 = 600064 padded edge slots the message
  matrix times ([destination word = n] · [the slot is a real edge]).  The tile/offset pairs enumerate the padded slots
  once each; the 64 padding slots carry the factor 0; on a real edge the mask is 1 and the one-hot factor is the
  indicator that the edge's destination is n.  What remains is the segment sum of the messages into node n, and the
  projection by the transposed weights is the projection by the weights with the two factors of each product swapped.
  Only  a · 0 = 0,  a · 1 = a  and commutativity of the product are used, and these hold for every extended real.
-/
import proofs.«413313_j22084721836888_2_alg».proof.Proof.Spec
import Mathlib.Algebra.BigOperators.Fin
import Mathlib.Logic.Equiv.Fin.Basic
import Mathlib.Data.EReal.Inv

noncomputable section

open scoped BigOperators

namespace Cert.Spec

open Idealize.ShloMosaic Idealize.ShloMosaic.ValueIdx

/-- The one-hot of two words is the indicator of their equality. -/
theorem oh_eq_ind (a b : BitVec 32) : oh a b = ind (a = b) := rfl

/-- Tile k, offset r  ↦  slot 2048·k + r  enumerates the 600064 padded edge slots once each, so a double sum over
    tiles and offsets is the single sum over the slots. -/
theorem sum_edgeIx (f : Fin 600064 → EReal) :
    ∑ k : Fin 293, ∑ r : Fin 2048, f (edgeIx k r) = ∑ e : Fin 600064, f e := by
  rw [← Fintype.sum_prod_type']
  refine Fintype.sum_equiv (finProdFinEquiv (m := 293) (n := 2048)) _ _ (fun p => ?_)
  congr 1
  apply Fin.ext
  show 2048 * p.1.val + p.2.val = p.2.val + 2048 * p.1.val
  exact Nat.add_comm _ _

/-- A sum over the 600064 padded slots of a function that vanishes on the 64 padding slots is the sum over the
    600000 real edges. -/
theorem sum_padded (f : Fin 600064 → EReal) (hf : ∀ e : Fin 600064, 600000 ≤ e.val → f e = 0) :
    ∑ e : Fin 600064, f e = ∑ e : Fin 600000, f ⟨e.val, by omega⟩ := by
  have h := Fin.sum_univ_add (a := 600000) (b := 64) f
  rw [h]
  have h0 : ∑ i : Fin 64, f (Fin.natAdd 600000 i) = 0 :=
    Finset.sum_eq_zero (fun i _ => hf _ (by show 600000 ≤ 600000 + i.val; omega))
  rw [h0, add_zero]
  rfl

/-- The collapse: the masked one-hot product over the padded slots is the segment sum over the real edges. -/
theorem sum_masked_onehot (g : Fin 600064 → EReal) (p : Fin 600064 → BitVec 32) (w : BitVec 32) :
    ∑ k : Fin 293, ∑ r : Fin 2048,
        g (edgeIx k r) * (oh (p (edgeIx k r)) w * ind ((edgeIx k r).val < 600000))
      = ∑ e : Fin 600000, ind (p ⟨e.val, by omega⟩ = w) * g ⟨e.val, by omega⟩ := by
  rw [sum_edgeIx (fun e => g e * (oh (p e) w * ind (e.val < 600000)))]
  rw [sum_padded _ (fun e he => by
    have : ind (e.val < 600000) = 0 := by unfold ind; rw [if_neg (by omega)]
    rw [this, mul_zero, mul_zero])]
  refine Finset.sum_congr rfl (fun e _ => ?_)
  have h1 : ind ((⟨e.val, by omega⟩ : Fin 600064).val < 600000) = 1 := by
    unfold ind; rw [if_pos e.isLt]
  rw [h1, mul_one, oh_eq_ind, mul_comm]

/-- The received sums, transposed, at a real node: the segment sum of the messages. -/
theorem aggT_eq (x : (Sh2 50000 128).Idx → EReal) (src dst : (Sh1 600000).Idx → BitVec 32)
    (idx : (Sh2 600000 3).Idx → BitVec 32) (emb : (Sh3 3 8 128).Idx → EReal)
    (dstCol : (Sh2 600064 1).Idx → BitVec 32) (mT : (Sh2 128 600064).Idx → EReal)
    (h_dst : ∀ e : Fin 600064, dstCol (ix2 e (0 : Fin 1)) = if h : e.val < 600000 then dst (ix1 ⟨e.val, h⟩) else 0#32)
    (h_mT : ∀ (d : Fin 128) (e : Fin 600000), mT (ix2 d (⟨e.val, by omega⟩ : Fin 600064)) = msg x src idx emb e d)
    (d : Fin 128) (n : Fin 51200) :
    aggT dstCol mT d n
      = ∑ e : Fin 600000, ind (dst (ix1 e) = BitVec.ofNat 32 n.val) * msg x src idx emb e d := by
  unfold aggT
  rw [sum_masked_onehot (fun e => mT (ix2 d e)) (fun e => dstCol (ix2 e (0 : Fin 1))) (BitVec.ofNat 32 n.val)]
  refine Finset.sum_congr rfl (fun e _ => ?_)
  rw [h_mT d e, h_dst, dif_pos e.isLt]

theorem outT_eq_layer (x : (Sh2 50000 128).Idx → EReal) (src dst : (Sh1 600000).Idx → BitVec 32) (idx : (Sh2 600000 3).Idx → BitVec 32)
    (emb : (Sh3 3 8 128).Idx → EReal) (W : (Sh2 128 128).Idx → EReal) (b : (Sh1 128).Idx → EReal)
    (dstCol : (Sh2 600064 1).Idx → BitVec 32) (mT : (Sh2 128 600064).Idx → EReal)
    (nfT : (Sh2 128 51200).Idx → EReal) (degRow : (Sh2 1 51200).Idx → EReal)
    (wT : (Sh2 128 128).Idx → EReal) (bCol : (Sh2 128 1).Idx → EReal)
    (h_dst : ∀ e : Fin 600064, dstCol (ix2 e (0 : Fin 1)) = if h : e.val < 600000 then dst (ix1 ⟨e.val, h⟩) else 0#32)
    (h_mT : ∀ (d : Fin 128) (e : Fin 600000), mT (ix2 d (⟨e.val, by omega⟩ : Fin 600064)) = msg x src idx emb e d)
    (h_nf : ∀ (d : Fin 128) (n : Fin 51200), nfT (ix2 d n) = if h : n.val < 50000 then x (ix2 ⟨n.val, h⟩ d) else (0 : EReal))
    (h_deg : ∀ n : Fin 51200, degRow (ix2 (0 : Fin 1) n) = if h : n.val < 50000 then degOf dst ⟨n.val, h⟩ else (1 : EReal))
    (h_wT : ∀ d' d : Fin 128, wT (ix2 d' d) = W (ix2 d d'))
    (h_b : ∀ d' : Fin 128, bCol (ix2 d' (0 : Fin 1)) = b (ix1 d'))
    (n : Fin 50000) (d' : Fin 128) :
    outT dstCol mT nfT degRow wT bCol d' ⟨n.val, by omega⟩ = layer x src dst idx emb W b (degOf dst) n d' := by
  unfold outT layer
  rw [h_b d', h_deg, dif_pos n.isLt]
  refine congrArg (· + b (ix1 d')) (Finset.sum_congr rfl (fun d _ => ?_))
  rw [h_wT d' d, h_nf, dif_pos n.isLt, aggT_eq x src dst idx emb dstCol mT h_dst h_mT d, mul_comm]

end Cert.Spec

end
-- ==== Proof.Assembly.lean ====
/-
  The two idealized programs compute one function: the kernel program's result array, opened launch by launch, and
  the reference's result, read stage by stage, are both the graph-convolution layer of Spec.lean.
-/
import proofs.«413313_j22084721836888_2_alg».proof.Proof.KI.Host
import proofs.«413313_j22084721836888_2_alg».proof.Proof.PreRanges
import proofs.«413313_j22084721836888_2_alg».proof.Proof.Ref
import proofs.«413313_j22084721836888_2_alg».proof.Proof.KI.Run
import proofs.«413313_j22084721836888_2_alg».proof.Proof.KI.V1
import proofs.«413313_j22084721836888_2_alg».proof.Proof.KI.V0
import proofs.«413313_j22084721836888_2_alg».proof.Proof.KI.R0Body
import proofs.«413313_j22084721836888_2_alg».proof.Proof.KI.R1Body
import proofs.«413313_j22084721836888_2_alg».proof.Proof.AlgMsg
import proofs.«413313_j22084721836888_2_alg».proof.Proof.AlgOut
import proofs.«413313_j22084721836888_2_alg».proof.Proof.Gen.ReferenceIdeal.Run
import proofs.«413313_j22084721836888_2_alg».proof.Proof.Gen.ReferenceIdeal.Read
import proofs.«413313_j22084721836888_2_alg».proof.Proof.Gen.KernelIdeal
import proofs.«413313_j22084721836888_2_alg».proof.Proof.Gen.ReferenceIdeal
import proofs.«413313_j22084721836888_2_alg».proof.Proof.Gen.Pre_finite_inputs
import proofs.«413313_j22084721836888_2_alg».proof.Defs

set_option maxRecDepth 16384

noncomputable section

open Idealize.ShloMosaic Idealize.ShloMosaic.TcCoe Idealize.ShloMosaic.ValueIdx Idealize.SL.Sem
open Cert.Spec

namespace Cert.Proof.Hand

open Cert.KernelIdeal Cert.KernelIdeal.Gen Cert.KernelIdeal.Hand

/-- The array the idealized kernel program returns, read at row n and feature d', is the layer of its arguments:
    the final slice and transpose read the second launch's output; that output is the projected, normalised sum
    (`outT`) of the padded and transposed arguments and of the first launch's message matrix (`msgT`); and over the
    extended reals the one-hot products are the gather and the segment sum (`msgT_eq_msg`, `outT_eq_layer`). -/
theorem kernel_value (m : (ℓ : Loc nD τ sig) → Buf (Elt Ideal) ℓ) (c : Dev nD)
    (hsrc : ∀ e : Fin 600000, (m ((c.tc : Thread nD τ).loc main_arg1) (ix1 e)).toNat < 50000)
    (hidx : ∀ (e : Fin 600000) (col : Fin 3), (m ((c.tc : Thread nD τ).loc main_arg3) (ix2 e col)).toNat < 8)
    (n : Fin 50000) (d' : Fin 128) :
    W14 m c main_v26 (ix2 n d')
      = layer (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (degOf (m ((c.tc : Thread nD τ).loc main_arg2))) n d' := by
  rw [host_out m c n d']
  unfold oTarr
  rw [outT_value (E1 m) c d' _]
  refine outT_eq_layer _ _ _ _ _ _ _ _ _ _ _ _ _ (host_dst m c) (fun d e => ?_) (host_nfT32 m c) (host_deg m c)
    (host_wT m c) (host_b m c) n d'
  rw [host_mT m c]
  unfold mTarr
  rw [msgT_value (E0 m) c d _]
  exact msgT_eq_msg _ _ _ _ _ _ _ _ (host_src m c) (host_idx m c) (host_tab m c) (host_nfT16 m c) hsrc hidx d e

/-- The idealized kernel program runs to the end, returns `W14`'s result array and leaves its arguments as launched:
    the launch theorem over the two launches' body obligations. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v26) = W14 m c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_main_of m ρ (fun c => body_obligation0 (E0 m) c) (fun c => hin0 (E0 m) c) (fun c => hout0 (E0 m) c)
    (fun c => body_obligation1 (E1 m) c) (fun c => hin1 (E1 m) c) (fun c => hout1 (E1 m) c)

/-- The idealized kernel program's frame: its run with the result dropped. -/
theorem frame_ki : Cert.frame_KernelIdeal := fun m ρ _ =>
  (θ_run (defs (F := Ideal)) _ _).mono (fun _ h c => (h c).2) (kernel_run m ρ)

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the layer of the arguments: the kernel program by `kernel_value`, the reference by
    its stage-by-stage reading (`ref_value`); the two index ranges both readings need come from the precondition. -/
theorem algebraic : Cert.algebraic_KernelIdeal_ReferenceIdeal := by
  intro m ρ m' ρ' hpre hagree
  refine ⟨fun c => W14 m c main_v26, kernel_run m ρ, ?_⟩
  refine (θ_run Cert.ReferenceIdeal.defs _ _).mono (fun r h c => ⟨?_, (h c).2⟩)
    (Cert.ReferenceIdeal.Value.run (F := Ideal) m' ρ')
  have hr := Cert.PreHand.ranges_of_pre _ _ _ _ _ _ _ (hpre c)
  obtain ⟨h0, h1, h2, h3, h4, h5, h6⟩ := hagree c
  rw [(h c).1, Cert.ReferenceIdeal.Read.val_main_v42_eq, h0, h1, h2, h3, h4, h5, h6]
  funext i
  obtain ⟨n, d', rfl⟩ : ∃ (n : Fin 50000) (d' : Fin 128), i = ix2 n d' := ⟨i 0, i 1, eq_ix2 i⟩
  exact (Cert.ReferenceIdeal.Hand.ref_value _ _ _ _ _ _ _ hr.1 hr.2 n d').trans (kernel_value m c hr.1 hr.2 n d').symm

end Cert.Proof.Hand

end
-- ==== Proof.K.R0Defs.lean ====
/-
  The gather launch (the program's first pallas_call), as pure data: the blocks its windows read, the running
  partial product it keeps in its scratch accumulator, the block it writes back, and the proof data of its pipeline.

  Grid point t = 25·e + k handles edge tile e and node tile k.  The accumulator after point t holds
  Σ_{k' ≤ k} N[:, tile k'] · onehot(tile k', src tile e): it is reset to zero at k = 0 and receives one product per point.
  At k = 24 the edge-embedding product is added and the sum is written to the output block of tile e.
-/
import proofs.«413313_j22084721836888_2_alg».proof.Proof.Gen.Kernel.Launch
import proofs.«413313_j22084721836888_2_alg».proof.Proof.Gen.Kernel.Skeleton
import proofs.«413313_j22084721836888_2_alg».proof.Proof.Gen.Kernel.Points
import Idealize.ShloMosaic.Lib.Pipeline.FrameBody
import Idealize.ShloMosaic.Lib.Pipeline.Frame

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's unscoped buffers when the launch is entered
variable (V : (c : Dev nD) → (b : Ref sig .tc) → Buf (Elt F) ((c : Thread nD τ).loc b))

/-- Window `w`'s block at grid point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 2048 node columns of the resident feature table multiplied at grid point `i`. -/
abbrev ncols0 (i : grid0.Coords) : Rect S128x51200 := Rect.unit (s := S128x51200) (k0_off1 i) S128x2048.size (k0_off1_inb i)

/-- One accumulation step at point `t`: the accumulator `acc` plus the product of the node tile with the one-hot
    comparison of node ids against the source ids of the edge tile. -/
def step0 (c : Dev nD) (t : Fin cfg0.N) (acc : Vec F S128x2048 .f32) : Vec F S128x2048 .f32 :=
  k0_pay2 (grid0.coords t) (iblk0 V c 0 t) (View.ld (iblk0 V c 3 t) (ncols0 (grid0.coords t))) acc

/-- The scratch accumulator after grid point `n`: restarted from zero at the first node tile of each edge tile. -/
def acc0 (c : Dev nD) : (n : ℕ) → n < cfg0.N → Vec F S128x2048 .f32
  | 0, h => step0 V c ⟨0, h⟩ (k0_pay1 (F := F))
  | n + 1, h =>
    if (n + 1) % 25 = 0 then step0 V c ⟨n + 1, h⟩ (k0_pay1 (F := F))
    else step0 V c ⟨n + 1, h⟩ (acc0 c n (Nat.lt_of_succ_lt h))

/-- The block the body stores into the output window at point `t` (it does so at the last node tile only): the
    accumulator plus the edge-embedding product. -/
def out0 (c : Dev nD) (t : Fin cfg0.N) : Vec F S128x2048 .bf16 :=
  k0_pay3 (iblk0 V c 1 t) (iblk0 V c 2 t) (acc0 V c t.val t.isLt)

/-- The scratch operand as a memref. -/
abbrev scM0 : Memref sig .tc .vmem S128x2048 .f32 := Memref.whole cc0_scratch0

/-- The scoped buffers of the core that this launch neither stages nor uses (the second launch's), at any contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- The invariant between points: before the first point nothing is known of the scratch; after point `n` it holds
    `acc0 n`. The other scoped buffers and the generator register ride along. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ rest0 (F := F) c ∗ (∃ r, prngReg c r))

/-- The proof data of the gather pipeline: arrays as found; every input window's buffer keeps its block; the output
    window's buffer is left at `out0`; the invariant tracks the accumulator; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]

end Cert.Kernel.Hand

end
-- ==== Proof.K.R0Body.lean ====
/-
  The gather launch's body, point by point.

  The launch's grid point t = 25·e + k handles edge tile e and node tile k. Its body has two conditionals on k: at
  k = 0 it restarts the scratch accumulator from the zero block; at k = 24 it adds the edge-embedding product to the
  accumulator and stores the sum into the output block. At every point it adds to the accumulator the product of the
  k-th 2048-column slab of the resident feature table with the one-hot comparison of node ids against the edge tile's
  source ids.

  Here: the body's three control cases as triples over named buffer contents (`runA0`, `runB0`, `runC0`); the two
  tests in closed form over the grid (residues mod 25); what the invariant `PhiS0` is before and after each point;
  and from these the body obligation of the pipeline's proof data `dat0`, with the two ends of its invariant.
-/
import proofs.«413313_j22084721836888_2_alg».proof.Proof.K.R0Defs
import Idealize.ShloMosaic.Lib.Tactic
import Idealize.ShloMosaic.Lib.Ring
import Idealize.ShloMosaic.Lib.Pipeline.FrameBody
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz0 : (![0, 0] : Fin 2 → Nat) = fun _ => 0 := funext fun a => by fin_cases a <;> rfl

/-- The first conditional's test: the node-tile coordinate is zero. -/
abbrev condA0 (i : grid0.Coords) : Prop := (Scalar.cmpi .ne (Scalar.extui (Scalar.cmpi .eq (BitVec.ofNat 32 (i 1).val) 0#32)) 0#32) = 1#1
/-- The second conditional's test: the node-tile coordinate is the last one. -/
abbrev condC0 (i : grid0.Coords) : Prop := k0_cond2 i = 1#1

/-! ## The body, case by case

The body on whole staging memrefs at named contents. The three cases of its two conditionals (first node tile,
a middle node tile, last node tile) differ in what they ask of the scratch accumulator and of the output buffer:
at the first node tile the accumulator may hold anything and is restarted from the zero block; at the last one
the output buffer may hold anything and receives the finished block; otherwise the output buffer is not touched.
Each load through a whole-buffer rectangle reads the buffer's contents; a load of the accumulator after a covering
store reads that store's payload. -/

set_option maxHeartbeats 4000000 in
/-- First node tile: the accumulator is zeroed, then receives the zero block plus this tile's product. -/
theorem runA0 (c : Dev nD) (i : grid0.Coords) (arg2 : Memref sig .tc .vmem S1x2048 .i32) (harg2 : arg2.IsWhole) (arg3 : Memref sig .tc .vmem S3x2048 .i32) (harg3 : arg3.IsWhole) (arg4 : Memref sig .tc .vmem S128x24 .bf16) (harg4 : arg4.IsWhole) (arg5 : Memref sig .tc .vmem S128x51200 .bf16) (harg5 : arg5.IsWhole) (arg6 : Memref sig .tc .vmem S128x2048 .bf16) (harg6 : arg6.IsWhole) (arg7 : Memref sig .tc .vmem S128x2048 .f32) (harg7 : arg7.IsWhole)
    (hc0 : condA0 i) (hc1 : ¬condC0 i)
    (x0 : Vec F S1x2048 .i32) (x1 : Vec F S3x2048 .i32) (x2 : Vec F S128x24 .bf16) (x3 : Vec F S128x51200 .bf16) (xo : Vec F S128x2048 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare (k0_pay2 i x0 (View.ld x3 (ncols0 i)) (k0_pay1 (F := F)))) -∗ K ⟨⟩))
      ⊢ wp frame (wpE (defs₀ (F := F)) Variants.none c none) E (cc0__gather_kernel i arg2 harg2 arg3 harg3 arg4 harg4 arg5 harg5 arg6 harg6 arg7 harg7) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%fo, %hfo, Ho⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hfo
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [Ho]
  · iexists _; isplitr; · ipureintro; exact harg6.read_unread _
    iexact Ho
  iexists _; isplitr; swap; · iexact HS
  ipureintro
  sl_unfold_run_names
  refine Eq.trans (View.read_writes_eq_canon _ _ _ ?_) ?_
  · intro y; exact ⟨_, List.mem_cons_self, View.mem_set_unit_zero hz0 inb_S128x2048_S128x2048_0_0 y⟩
  rw [View.canon_cons_unit_zero (S := S128x2048) hz0, View.readCov_unit_zero (S := S128x2048) _ hz0]
  simp only [View.readAt_eq_ld, harg2.read_unread, harg5.read_unread, View.ld_unit_zero (S := S1x2048) hz0]

set_option maxHeartbeats 4000000 in
/-- A middle node tile: the accumulator receives what it held plus this tile's product; the output buffer is left alone. -/
theorem runB0 (c : Dev nD) (i : grid0.Coords) (arg2 : Memref sig .tc .vmem S1x2048 .i32) (harg2 : arg2.IsWhole) (arg3 : Memref sig .tc .vmem S3x2048 .i32) (harg3 : arg3.IsWhole) (arg4 : Memref sig .tc .vmem S128x24 .bf16) (harg4 : arg4.IsWhole) (arg5 : Memref sig .tc .vmem S128x51200 .bf16) (harg5 : arg5.IsWhole) (arg6 : Memref sig .tc .vmem S128x2048 .bf16) (harg6 : arg6.IsWhole) (arg7 : Memref sig .tc .vmem S128x2048 .f32) (harg7 : arg7.IsWhole)
    (hc0 : ¬condA0 i) (hc1 : ¬condC0 i)
    (x0 : Vec F S1x2048 .i32) (x1 : Vec F S3x2048 .i32) (x2 : Vec F S128x24 .bf16) (x3 : Vec F S128x51200 .bf16) (xo : Vec F S128x2048 .bf16) (xs : Vec F S128x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare (k0_pay2 i x0 (View.ld x3 (ncols0 i)) xs)) -∗ K ⟨⟩))
      ⊢ wp frame (wpE (defs₀ (F := F)) Variants.none c none) E (cc0__gather_kernel i arg2 harg2 arg3 harg3 arg4 harg4 arg5 harg5 arg6 harg6 arg7 harg7) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%fo, %hfo, Ho⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfo; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [Ho]
  · iexists _; isplitr; · ipureintro; exact harg6.read_unread _
    iexact Ho
  iexists _; isplitr; swap; · iexact HS
  ipureintro
  sl_unfold_run_names
  refine Eq.trans (View.read_writes_eq_canon _ _ _ ?_) ?_
  · intro y; exact ⟨_, List.mem_cons_self, View.mem_set_unit_zero hz0 inb_S128x2048_S128x2048_0_0 y⟩
  rw [View.canon_unit_zero hz0]
  simp only [View.readAt_eq_ld, harg2.read_unread, harg5.read_unread, harg7.read_unread, View.ld_unit_zero (S := S1x2048) hz0, View.ld_unit_zero (S := S128x2048) hz0]

set_option maxHeartbeats 4000000 in
/-- Last node tile: the accumulator receives what it held plus this tile's product, and the output buffer the
    finished block computed from the accumulator just stored. -/
theorem runC0 (c : Dev nD) (i : grid0.Coords) (arg2 : Memref sig .tc .vmem S1x2048 .i32) (harg2 : arg2.IsWhole) (arg3 : Memref sig .tc .vmem S3x2048 .i32) (harg3 : arg3.IsWhole) (arg4 : Memref sig .tc .vmem S128x24 .bf16) (harg4 : arg4.IsWhole) (arg5 : Memref sig .tc .vmem S128x51200 .bf16) (harg5 : arg5.IsWhole) (arg6 : Memref sig .tc .vmem S128x2048 .bf16) (harg6 : arg6.IsWhole) (arg7 : Memref sig .tc .vmem S128x2048 .f32) (harg7 : arg7.IsWhole)
    (hc0 : ¬condA0 i) (hc1 : condC0 i)
    (x0 : Vec F S1x2048 .i32) (x1 : Vec F S3x2048 .i32) (x2 : Vec F S128x24 .bf16) (x3 : Vec F S128x51200 .bf16) (xs : Vec F S128x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 x1 x2 (k0_pay2 i x0 (View.ld x3 (ncols0 i)) xs)) ∗ owns (c : Thread nD τ) arg7 fullShare (k0_pay2 i x0 (View.ld x3 (ncols0 i)) xs)) -∗ K ⟨⟩))
      ⊢ wp frame (wpE (defs₀ (F := F)) Variants.none c none) E (cc0__gather_kernel i arg2 harg2 arg3 harg3 arg4 harg4 arg5 harg5 arg6 harg6 arg7 harg7) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%d_o, %fo, -, Ho⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [Ho]
  · iexists _; isplitr; swap; · iexact Ho
    ipureintro
    sl_unfold_run_names
    refine Eq.trans (View.read_writes_eq_canon _ _ _ ?_) ?_
    · intro y; exact ⟨_, List.mem_cons_self, View.mem_set_unit_zero hz0 inb_S128x2048_S128x2048_0_0 y⟩
    rw [View.canon_unit_zero hz0]
    simp only [View.readCov_unit_zero (S := S128x2048) _ hz0, View.readAt_eq_ld, harg2.read_unread, harg3.read_unread, harg4.read_unread, harg5.read_unread, harg7.read_unread, View.ld_unit_zero (S := S1x2048) hz0, View.ld_unit_zero (S := S3x2048) hz0, View.ld_unit_zero (S := S128x24) hz0, View.ld_unit_zero (S := S128x2048) hz0]
  iexists _; isplitr; swap; · iexact HS
  ipureintro
  sl_unfold_run_names
  refine Eq.trans (View.read_writes_eq_canon _ _ _ ?_) ?_
  · intro y; exact ⟨_, List.mem_cons_self, View.mem_set_unit_zero hz0 inb_S128x2048_S128x2048_0_0 y⟩
  rw [View.canon_unit_zero hz0]
  simp only [View.readAt_eq_ld, harg2.read_unread, harg5.read_unread, harg7.read_unread, View.ld_unit_zero (S := S1x2048) hz0, View.ld_unit_zero (S := S128x2048) hz0]

/-! ## The schedule in closed form -/

/-- The first test holds exactly at the first node tile of each edge tile: point `25·e`. -/
theorem hcondA0 : ∀ t : Fin cfg0.N, condA0 (grid0.coords t) ↔ t.val % 25 = 0 :=
  (by decide +kernel : ∀ t : Fin grid0.N, condA0 (grid0.coords t) ↔ t.val % 25 = 0)
/-- The second test holds exactly at the last node tile of each edge tile: point `25·e + 24`. -/
theorem hcondC0 : ∀ t : Fin cfg0.N, condC0 (grid0.coords t) ↔ t.val % 25 = 24 :=
  (by decide +kernel : ∀ t : Fin grid0.N, condC0 (grid0.coords t) ↔ t.val % 25 = 24)

/-- The input windows are never idle. -/
theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := rfl
theorem liveAt0_3 (t : Fin cfg0.N) : cfg0.idle 3 (grid0.coords t) = false := rfl
/-- The output window is idle away from the last node tile, -/
theorem idleAt0_4 (t : Fin cfg0.N) (h : ¬t.val % 25 = 24) : cfg0.idle 4 (grid0.coords t) = true := by
  have hc : ¬k0_cond2 (grid0.coords t) = 1#1 := fun hc => h ((hcondC0 t).mp hc)
  show (!(k0_cond2 (grid0.coords t) == 1#1)) = true
  simpa using hc
/-- live at it, -/
theorem liveAt0_4 (t : Fin cfg0.N) (h : t.val % 25 = 24) : cfg0.idle 4 (grid0.coords t) = false := by
  have hc : k0_cond2 (grid0.coords t) = 1#1 := (hcondC0 t).mpr h
  show (!(k0_cond2 (grid0.coords t) == 1#1)) = false
  simpa using hc
/-- and not written back away from it. -/
theorem noFlush0_4 (t : Fin cfg0.N) (h : ¬t.val % 25 = 24) : (cfg0.win 4).flush t = false := by
  cases hf : (cfg0.win 4).flush t with
  | false => rfl
  | true => exact absurd ((flush0_4 t).mp hf) h

/-- Each window's current staging memref at point `t`, and its wholeness. -/
abbrev ms0_0 (t : Fin cfg0.N) : Memref sig .tc .vmem S1x2048 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x24 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x51200 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x2048 .bf16 := win0_4.stage (cfg0.slots t 4)
abbrev hs0_4 (t : Fin cfg0.N) : (ms0_4 t).IsWhole := hstage0_4 ((cfg0.slots t 4).cast nbuf0_4)

/-! ## What the body finds in the input windows: their blocks, fetched at the point or not -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ## The invariant -/

/-- What the launch hands the pipeline, with the scratch accumulator singled out as a memref owned at some contents. -/
theorem PhiA0_to (c : Dev nD) :
    (Pipeline.ΦA spec0 c : sProp 𝕄)
      ⊢ iprop((∃ d, owns (c : Thread nD τ) scM0 fullShare d) ∗ rest0 (F := F) c ∗ (∃ r, prngReg c r)) := by
  unfold Pipeline.ΦA; rw [scopedRest0_eq]; unfold rest0; simp only [scM0, owns_whole]
  iintro ⟨⟨HS, HR⟩, Hg⟩
  isplitl [HS]; · iexact HS
  isplitl [HR]; · iexact HR
  iexact Hg

theorem PhiA0_from (c : Dev nD) :
    iprop((∃ d, owns (c : Thread nD τ) scM0 fullShare d) ∗ rest0 (F := F) c ∗ (∃ r, prngReg c r))
      ⊢ (Pipeline.ΦA spec0 c : sProp 𝕄) := by
  unfold Pipeline.ΦA; rw [scopedRest0_eq]; unfold rest0; simp only [scM0, owns_whole]
  iintro ⟨HS, HR, Hg⟩
  isplitl [HS HR]
  · isplitl [HS]; · iexact HS
    iexact HR
  iexact Hg

theorem PhiA0_eq (c : Dev nD) :
    (Pipeline.ΦA spec0 c : sProp 𝕄)
      = iprop((∃ d, owns (c : Thread nD τ) scM0 fullShare d) ∗ rest0 (F := F) c ∗ (∃ r, prngReg c r)) :=
  Entails.antisymm (PhiA0_to c) (PhiA0_from c)

/-- The accumulator at a first node tile: one step from the zero block. -/
theorem acc0_A (c : Dev nD) (t : Fin cfg0.N) (h : t.val % 25 = 0) :
    acc0 V c t.val t.isLt = step0 V c t (k0_pay1 (F := F)) := by
  obtain ⟨n, hn⟩ := t
  cases n with
  | zero => rfl
  | succ n =>
    have h' : (n + 1) % 25 = 0 := h
    exact (if_pos h').trans rfl

/-- The accumulator at any other node tile: one step from what the point before left. -/
theorem acc0_B (c : Dev nD) (t : Fin cfg0.N) (h : ¬t.val % 25 = 0) :
    acc0 V c t.val t.isLt = step0 V c t (acc0 V c (t.val - 1) (Nat.lt_of_le_of_lt (Nat.sub_le _ _) t.isLt)) := by
  obtain ⟨n, hn⟩ := t
  cases n with
  | zero => exact absurd (Nat.zero_mod _) h
  | succ n =>
    have h' : ¬(n + 1) % 25 = 0 := h
    exact (if_neg h').trans rfl

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (acc0 V c n hn) ∗ rest0 (F := F) c ∗ (∃ r, prngReg c r)) := rfl

theorem PhiS0_pos (c : Dev nD) (n : ℕ) (h : n ≤ cfg0.N) (hz : n ≠ 0) :
    PhiS0 V c n h = iprop(owns (c : Thread nD τ) scM0 fullShare (acc0 V c (n - 1) (by omega)) ∗ rest0 (F := F) c ∗ (∃ r, prngReg c r)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-! ## The body obligation -/

/-- What the body is called with at point `t`: the invariant, what the core owes, each window's current buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]
theorem leaves0_4_C (c : Dev nD) (t : Fin cfg0.N) (h : t.val % 25 = 24) : (dat0 V c).leavesExact 4 t = owns (c : Thread nD τ) (ms0_4 t) fullShare (out0 V c t) := by
  unfold Dat.leavesExact; rw [liveAt0_4 t h, after0_4]

set_option maxHeartbeats 4800000 in
/-- The body at any point. The input buffers hold their blocks; the point's residue mod 25 says which case runs.
    At the first node tile the accumulator is handed over at anything (at the very first point from the launch's
    scoped rest, later from the invariant) and comes back one step from zero; elsewhere it is handed over at what
    the point before left and comes back one step further. The output buffer is handed back as found except at the
    last node tile, where it receives the finished block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  have hN : t.val < 7325 := lt_of_lt_of_eq t.isLt (show cfg0.N = 7325 from N_0)
  by_cases h0 : t.val % 25 = 0
  · have h1 : ¬t.val % 25 = 24 := by omega
    rw [Dat.leavesExact_idle (dat0 V c) 4 t (idleAt0_4 t h1) (noFlush0_4 t h1)]
    rw [acc0_A V c t h0]
    unfold step0
    by_cases hz : t.val = 0
    · rw [PhiS0_castSucc V c t, PhiS0_zero V c _ _ hz, PhiA0_eq]
      iintro ⟨⟨HS, HR, Hg⟩, Ho, ⟨%d0, H0⟩, ⟨%d1, H1⟩, ⟨%d2, H2⟩, ⟨%d3, H3⟩, ⟨%d4, H4⟩⟩
      iapply (runA0 c (grid0.coords t) (ms0_0 t) (hs0_0 t) (ms0_1 t) (hs0_1 t) (ms0_2 t) (hs0_2 t) (ms0_3 t) (hs0_3 t) (ms0_4 t) (hs0_4 t) scM0 (Memref.isWhole_whole _) ((hcondA0 t).mpr h0) (fun h => h1 ((hcondC0 t).mp h)) (iblk0 V c 0 t) (iblk0 V c 1 t) (iblk0 V c 2 t) (iblk0 V c 3 t) ((dat0 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨HS, HR, Hg⟩, Ho, ⟨%d0, H0⟩, ⟨%d1, H1⟩, ⟨%d2, H2⟩, ⟨%d3, H3⟩, ⟨%d4, H4⟩⟩
      iapply (runA0 c (grid0.coords t) (ms0_0 t) (hs0_0 t) (ms0_1 t) (hs0_1 t) (ms0_2 t) (hs0_2 t) (ms0_3 t) (hs0_3 t) (ms0_4 t) (hs0_4 t) scM0 (Memref.isWhole_whole _) ((hcondA0 t).mpr h0) (fun h => h1 ((hcondC0 t).mp h)) (iblk0 V c 0 t) (iblk0 V c 1 t) (iblk0 V c 2 t) (iblk0 V c 3 t) ((dat0 V c).before 4 t d4) Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun hz => h0 (by rw [hz])
    by_cases h1 : t.val % 25 = 24
    · rw [leaves0_4_C V c t h1]
      unfold out0
      rw [acc0_B V c t h0]
      unfold step0
      rw [PhiS0_castSucc V c t, PhiS0_pos V c _ _ hz]
      iintro ⟨⟨HS, HR, Hg⟩, Ho, ⟨%d0, H0⟩, ⟨%d1, H1⟩, ⟨%d2, H2⟩, ⟨%d3, H3⟩, ⟨%d4, H4⟩⟩
      iapply (runC0 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcondA0 t).mp h)) ((hcondC0 t).mpr h1) (iblk0 V c 0 t) (iblk0 V c 1 t) (iblk0 V c 2 t) (iblk0 V c 3 t) (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat0 V c) 4 t (idleAt0_4 t h1) (noFlush0_4 t h1)]
      rw [acc0_B V c t h0]
      unfold step0
      rw [PhiS0_castSucc V c t, PhiS0_pos V c _ _ hz]
      iintro ⟨⟨HS, HR, Hg⟩, Ho, ⟨%d0, H0⟩, ⟨%d1, H1⟩, ⟨%d2, H2⟩, ⟨%d3, H3⟩, ⟨%d4, H4⟩⟩
      iapply (runB0 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcondA0 t).mp h)) (fun h => h1 ((hcondC0 t).mp h)) (iblk0 V c 0 t) (iblk0 V c 1 t) (iblk0 V c 2 t) (iblk0 V c 3 t) ((dat0 V c).before 4 t d4) (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the pipeline is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's resources back: the accumulator's contents are forgotten. -/
theorem hout0 (c : Dev nD) : (dat0 V c).Φ (Fin.last cfg0.N) ⊢ Pipeline.ΦA spec0 c := by
  have hN : cfg0.N = 7325 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨HS, HR, Hg⟩
  isplitl [HS]; · iexists _; iexact HS
  isplitl [HR]; · iexact HR
  iexact Hg

end Cert.Kernel.Hand

end
-- ==== Proof.K.R1Defs.lean ====
/-
  The scatter-and-project launch (the program's second pallas_call), as pure data: the blocks its windows read, the
  running segment sum it keeps in its scratch accumulator, the block it writes back, and its pipeline's proof data.

  Grid point t = 293·n + k handles node tile n and edge tile k.  The accumulator after point t holds
  Σ_{k' ≤ k} M[:, tile k'] · (onehot(dst tile k', node tile n) · valid(tile k')): reset to zero at k = 0, one product per
  point.  At k = 292 the sum is added to the node features, divided by the degrees, projected and biased, and
  written to the output block of node tile n.
-/
import proofs.«413313_j22084721836888_2_alg».proof.Proof.Gen.Kernel.Launch
import proofs.«413313_j22084721836888_2_alg».proof.Proof.Gen.Kernel.Skeleton
import proofs.«413313_j22084721836888_2_alg».proof.Proof.Gen.Kernel.Points
import Idealize.ShloMosaic.Lib.Pipeline.FrameBody
import Idealize.ShloMosaic.Lib.Pipeline.Frame

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's unscoped buffers when the launch is entered
variable (V : (c : Dev nD) → (b : Ref sig .tc) → Buf (Elt F) ((c : Thread nD τ).loc b))

/-- Window `w`'s block at grid point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One accumulation step at point `t`: the accumulator plus the product of the message tile with the masked
    one-hot comparison of destination ids against node ids. -/
def step1 (c : Dev nD) (t : Fin cfg1.N) (acc : Vec F S128x2048 .f32) : Vec F S128x2048 .f32 :=
  k1_pay2 (grid1.coords t) (iblk1 V c 0 t) (iblk1 V c 1 t) acc

/-- The scratch accumulator after grid point `n`: restarted from zero at the first edge tile of each node tile. -/
def acc1 (c : Dev nD) : (n : ℕ) → n < cfg1.N → Vec F S128x2048 .f32
  | 0, h => step1 V c ⟨0, h⟩ (k1_pay1 (F := F))
  | n + 1, h =>
    if (n + 1) % 293 = 0 then step1 V c ⟨n + 1, h⟩ (k1_pay1 (F := F))
    else step1 V c ⟨n + 1, h⟩ (acc1 c n (Nat.lt_of_succ_lt h))

/-- The block the body stores into the output window at point `t` (at the last edge tile only): node features plus
    the segment sum, over the degrees, projected by the weights, plus the bias. -/
def out1 (c : Dev nD) (t : Fin cfg1.N) : Vec F S128x2048 .f32 :=
  k1_pay3 (iblk1 V c 2 t) (acc1 V c t.val t.isLt) (iblk1 V c 3 t) (iblk1 V c 4 t) (iblk1 V c 5 t)

/-- The scratch operand as a memref. -/
abbrev scM1 : Memref sig .tc .vmem S128x2048 .f32 := Memref.whole cc1_scratch0

/-- The scoped buffers of the core that this launch neither stages nor uses (the first launch's), at any contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The invariant between points: before the first point nothing is known of the scratch; after point `n` it holds
    `acc1 n`. The other scoped buffers and the generator register ride along. -/
def PhiS1 (c : Dev nD) : (n : ℕ) → n ≤ cfg1.N → sProp 𝕄
  | 0, _ => Pipeline.ΦA spec1 c
  | n + 1, hn => iprop(owns (c : Thread nD τ) scM1 fullShare (acc1 V c n hn) ∗ rest1 (F := F) c ∗ (∃ r, prngReg c r))

/-- The proof data of the scatter pipeline: arrays as found; every input window's buffer keeps its block; the output
    window's buffer is left at `out1`; the invariant tracks the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1 V c t := by dsimp only [dat1]

end Cert.Kernel.Hand

end
-- ==== Proof.K.R1Body.lean ====
/-
  The body of the scatter-and-project launch, point by point.

  Grid point t = 293·n + k works on node tile n and edge tile k.  Three things can happen there.  At k = 0 the body
  first clears the accumulator.  At every k it adds to the accumulator the product of the message tile with the masked
  one-hot comparison of the destination ids against the node ids.  At k = 292 it reads the finished segment sum back,
  adds the node features, divides by the degrees, projects, adds the bias, and stores that block into the output
  window.  All loads and stores are of whole buffers, so after the body a buffer reads the payload of the last store
  into it, evaluated on the contents the buffers had when they were loaded.

  Hence the running sum `acc1`: one step over zero at k = 0, one step over the previous point's sum elsewhere; and the
  output block `out1` at k = 292.  Off k = 292 the output window is idle and is not written back, so its buffer is
  handed back exactly as it came.  The invariant between points carries the accumulator at the running sum; before
  the first point and after the last nothing is claimed of it.
-/
import proofs.«413313_j22084721836888_2_alg».proof.Proof.K.R1Defs
import Idealize.ShloMosaic.Lib.Tactic
import Idealize.ShloMosaic.Lib.Ring
import Idealize.ShloMosaic.Lib.Pipeline.FrameBody
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first conditional of the body: taken at the first edge tile of a node tile (second grid coordinate 0). -/
abbrev condA (i : grid1.Coords) : Prop := (Scalar.cmpi .ne (Scalar.extui (Scalar.cmpi .eq (BitVec.ofNat 32 (i 1).val) 0#32)) 0#32) = 1#1
/-- The second conditional: taken at the last edge tile (second grid coordinate 292). -/
abbrev condC (i : grid1.Coords) : Prop := k1_cond2 i = 1#1

/-- The two zero offsets of a whole-buffer rectangle, as the constant function. -/
theorem hz : (![0, 0] : Fin 2 → Nat) = fun _ => 0 := funext fun a => by fin_cases a <;> rfl

/-! ## The body, case by case

Every load and store of the body is of a whole buffer, so what a buffer reads after the body is the payload of the
last store into it, over what the loads before that store read: the buffers' contents themselves. -/

set_option maxHeartbeats 1000000 in
/-- At the first edge tile of a node tile the body clears the accumulator, whatever it held, then adds the first
    product: the accumulator is left at one step over the zero block. -/
theorem runA (c : Dev nD) (i : grid1.Coords) (arg2 : Memref sig .tc .vmem S2048x1 .i32) (harg2 : arg2.IsWhole) (arg3 : Memref sig .tc .vmem S128x2048 .bf16) (harg3 : arg3.IsWhole) (arg4 : Memref sig .tc .vmem S128x2048 .f32) (harg4 : arg4.IsWhole) (arg5 : Memref sig .tc .vmem S1x2048 .f32) (harg5 : arg5.IsWhole) (arg6 : Memref sig .tc .vmem S128x128 .bf16) (harg6 : arg6.IsWhole) (arg7 : Memref sig .tc .vmem S128x1 .f32) (harg7 : arg7.IsWhole) (arg8 : Memref sig .tc .vmem S128x2048 .f32) (harg8 : arg8.IsWhole) (arg9 : Memref sig .tc .vmem S128x2048 .f32) (harg9 : arg9.IsWhole) (hc0 : condA i) (hc1 : ¬condC i)
    (x0 : Vec F S2048x1 .i32) (x1 : Vec F S128x2048 .bf16) (E : Set ℕ) (K : PUnit → sProp 𝕄) :
    iprop(owns (c : Thread nD τ) arg2 fullShare x0 ∗ owns (c : Thread nD τ) arg3 fullShare x1 ∗ (∃ d, owns (c : Thread nD τ) arg9 fullShare d)
        ∗ (iprop(owns (c : Thread nD τ) arg2 fullShare x0 ∗ owns (c : Thread nD τ) arg3 fullShare x1 ∗ owns (c : Thread nD τ) arg9 fullShare (k1_pay2 i x0 x1 (k1_pay1 (F := F)))) -∗ K ⟨⟩))
      ⊢ wp frame (wpE (defs₀ (F := F)) Variants.none c none) E (cc1__scatter_combine_kernel i arg2 harg2 arg3 harg3 arg4 harg4 arg5 harg5 arg6 harg6 arg7 harg7 arg8 harg8 arg9 harg9) K := by
  simp only [cc1__scatter_combine_kernel_eq_skeleton]; unfold cc1__scatter_combine_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr; swap; · iexact HS
  ipureintro
  sl_unfold_words
  rw [View.read_writes_eq_canon _ _ _ (fun y => ⟨_, List.mem_cons.mpr (Or.inl rfl), View.mem_set_unit_zero hz inb_S128x2048_S128x2048_0_0 y⟩), View.canon_cons_unit_zero (S := S128x2048) hz, View.readCov_unit_zero (S := S128x2048) _ hz]
  simp only [View.readAt_eq_ld, harg2.read_unread, harg3.read_unread, View.ld_unit_zero (S := S2048x1) hz, View.ld_unit_zero (S := S128x2048) hz]

set_option maxHeartbeats 1000000 in
/-- Between the first and the last edge tile the body adds one product to the accumulator. -/
theorem runB (c : Dev nD) (i : grid1.Coords) (arg2 : Memref sig .tc .vmem S2048x1 .i32) (harg2 : arg2.IsWhole) (arg3 : Memref sig .tc .vmem S128x2048 .bf16) (harg3 : arg3.IsWhole) (arg4 : Memref sig .tc .vmem S128x2048 .f32) (harg4 : arg4.IsWhole) (arg5 : Memref sig .tc .vmem S1x2048 .f32) (harg5 : arg5.IsWhole) (arg6 : Memref sig .tc .vmem S128x128 .bf16) (harg6 : arg6.IsWhole) (arg7 : Memref sig .tc .vmem S128x1 .f32) (harg7 : arg7.IsWhole) (arg8 : Memref sig .tc .vmem S128x2048 .f32) (harg8 : arg8.IsWhole) (arg9 : Memref sig .tc .vmem S128x2048 .f32) (harg9 : arg9.IsWhole) (hc0 : ¬condA i) (hc1 : ¬condC i)
    (x0 : Vec F S2048x1 .i32) (x1 : Vec F S128x2048 .bf16) (xs : Vec F S128x2048 .f32) (E : Set ℕ) (K : PUnit → sProp 𝕄) :
    iprop(owns (c : Thread nD τ) arg2 fullShare x0 ∗ owns (c : Thread nD τ) arg3 fullShare x1 ∗ owns (c : Thread nD τ) arg9 fullShare xs
        ∗ (iprop(owns (c : Thread nD τ) arg2 fullShare x0 ∗ owns (c : Thread nD τ) arg3 fullShare x1 ∗ owns (c : Thread nD τ) arg9 fullShare (k1_pay2 i x0 x1 xs)) -∗ K ⟨⟩))
      ⊢ wp frame (wpE (defs₀ (F := F)) Variants.none c none) E (cc1__scatter_combine_kernel i arg2 harg2 arg3 harg3 arg4 harg4 arg5 harg5 arg6 harg6 arg7 harg7 arg8 harg8 arg9 harg9) K := by
  simp only [cc1__scatter_combine_kernel_eq_skeleton]; unfold cc1__scatter_combine_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg9.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr; swap; · iexact HS
  ipureintro
  rw [View.read_writes_eq_canon _ _ _ (fun y => ⟨_, List.mem_cons.mpr (Or.inl rfl), View.mem_set_unit_zero hz inb_S128x2048_S128x2048_0_0 y⟩), View.canon_unit_zero hz]
  simp only [View.readAt_eq_ld, harg2.read_unread, harg3.read_unread, View.ld_unit_zero (S := S2048x1) hz, View.ld_unit_zero (S := S128x2048) hz, harg9.read_unread]

set_option maxHeartbeats 1000000 in
/-- At the last edge tile the body adds the last product, then reads the finished sum back and stores the combined
    block over whatever the output buffer held. -/
theorem runC (c : Dev nD) (i : grid1.Coords) (arg2 : Memref sig .tc .vmem S2048x1 .i32) (harg2 : arg2.IsWhole) (arg3 : Memref sig .tc .vmem S128x2048 .bf16) (harg3 : arg3.IsWhole) (arg4 : Memref sig .tc .vmem S128x2048 .f32) (harg4 : arg4.IsWhole) (arg5 : Memref sig .tc .vmem S1x2048 .f32) (harg5 : arg5.IsWhole) (arg6 : Memref sig .tc .vmem S128x128 .bf16) (harg6 : arg6.IsWhole) (arg7 : Memref sig .tc .vmem S128x1 .f32) (harg7 : arg7.IsWhole) (arg8 : Memref sig .tc .vmem S128x2048 .f32) (harg8 : arg8.IsWhole) (arg9 : Memref sig .tc .vmem S128x2048 .f32) (harg9 : arg9.IsWhole) (hc0 : ¬condA i) (hc1 : condC i)
    (x0 : Vec F S2048x1 .i32) (x1 : Vec F S128x2048 .bf16) (x2 : Vec F S128x2048 .f32) (x3 : Vec F S1x2048 .f32)
    (x4 : Vec F S128x128 .bf16) (x5 : Vec F S128x1 .f32) (xs : Vec F S128x2048 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (k1_pay3 x2 (k1_pay2 i x0 x1 xs) x3 x4 x5)
            ∗ owns (c : Thread nD τ) arg9 fullShare (k1_pay2 i x0 x1 xs)) -∗ K ⟨⟩))
      ⊢ wp frame (wpE (defs₀ (F := F)) Variants.none c none) E (cc1__scatter_combine_kernel i arg2 harg2 arg3 harg3 arg4 harg4 arg5 harg5 arg6 harg6 arg7 harg7 arg8 harg8 arg9 harg9) K := by
  simp only [cc1__scatter_combine_kernel_eq_skeleton]; unfold cc1__scatter_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    sl_unfold_words
    rw [View.read_writes_eq_canon _ _ _ (fun y => ⟨_, List.mem_cons.mpr (Or.inl rfl), View.mem_set_unit_zero hz inb_S128x2048_S128x2048_0_0 y⟩), View.canon_unit_zero hz, View.readCov_unit_zero (S := S128x2048) _ hz]
    simp only [View.readAt_eq_ld, harg2.read_unread, harg3.read_unread, View.ld_unit_zero (S := S2048x1) hz, View.ld_unit_zero (S := S128x2048) hz, harg4.read_unread, harg5.read_unread, harg6.read_unread, harg7.read_unread, harg9.read_unread,
      View.ld_unit_zero (S := S1x2048) hz, View.ld_unit_zero (S := S128x128) hz, View.ld_unit_zero (S := S128x1) hz]
  iexists _; isplitr; swap; · iexact HS
  ipureintro
  sl_unfold_words
  rw [View.read_writes_eq_canon _ _ _ (fun y => ⟨_, List.mem_cons.mpr (Or.inl rfl), View.mem_set_unit_zero hz inb_S128x2048_S128x2048_0_0 y⟩), View.canon_unit_zero hz]
  simp only [View.readAt_eq_ld, harg2.read_unread, harg3.read_unread, View.ld_unit_zero (S := S2048x1) hz, View.ld_unit_zero (S := S128x2048) hz, harg9.read_unread]

/-! ## The two conditionals in closed form, and where the output window is live -/

/-- The first conditional holds exactly at the points 293·n. -/
theorem hcond_a : ∀ t : Fin cfg1.N, condA (grid1.coords t) ↔ t.val % 293 = 0 :=
  (by decide +kernel : ∀ t : Fin grid1.N, condA (grid1.coords t) ↔ t.val % 293 = 0)
/-- The second holds exactly at the points 293·n + 292. -/
theorem hcond_c : ∀ t : Fin cfg1.N, condC (grid1.coords t) ↔ t.val % 293 = 292 :=
  (by decide +kernel : ∀ t : Fin grid1.N, condC (grid1.coords t) ↔ t.val % 293 = 292)

/-- Off the last edge tile the output window is idle: the body stores nothing into it. -/
theorem idle6_of_not (i : grid1.Coords) (h : ¬condC i) : cfg1.idle 6 i = true := by
  show (!(k1_cond2 i == 1#1)) = true
  rw [Bool.not_eq_true', beq_eq_false_iff_ne]; exact h
/-- At the last edge tile it is live. -/
theorem live6_of (i : grid1.Coords) (h : condC i) : cfg1.idle 6 i = false := by
  show (!(k1_cond2 i == 1#1)) = false
  rw [show k1_cond2 i = 1#1 from h]; rfl
/-- Off the last edge tile the output block is not written back. -/
theorem noFlush6 (t : Fin cfg1.N) (h : ¬t.val % 293 = 292) : (cfg1.win 6).flush t = false :=
  Bool.eq_false_iff.mpr fun hf => h ((flush1_6 t).mp hf)

/-! ## The staging memrefs at a point, and what the input windows hold there -/

abbrev ms1_0 (t : Fin cfg1.N) : Memref sig .tc .vmem S2048x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x2048 .f32 := win1_6.stage (cfg1.slots t 6)
abbrev hs1_6 (t : Fin cfg1.N) : (ms1_6 t).IsWhole := hstage1_6 ((cfg1.slots t 6).cast nbuf1_6)

/-- Input window 0's current buffer holds its block at every point, fetched there or not: unfetched, the block index
    has not moved since the point before, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- and the body hands it back at that block (an input is never idle). -/
theorem leaves1_0 (c : Dev nD) (t : Fin cfg1.N) : (dat1 V c).leavesExact 0 t = owns (c : Thread nD τ) (ms1_0 t) fullShare (iblk1 V c 0 t) := by
  show owns (c : Thread nD τ) (ms1_0 t) fullShare ((dat1 V c).after 0 t) = _
  rw [after1_0]
/-- Input window 1's current buffer holds its block at every point, fetched there or not: unfetched, the block index
    has not moved since the point before, and the body leaves the block in place. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
/-- and the body hands it back at that block (an input is never idle). -/
theorem leaves1_1 (c : Dev nD) (t : Fin cfg1.N) : (dat1 V c).leavesExact 1 t = owns (c : Thread nD τ) (ms1_1 t) fullShare (iblk1 V c 1 t) := by
  show owns (c : Thread nD τ) (ms1_1 t) fullShare ((dat1 V c).after 1 t) = _
  rw [after1_1]
/-- Input window 2's current buffer holds its block at every point, fetched there or not: unfetched, the block index
    has not moved since the point before, and the body leaves the block in place. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
/-- and the body hands it back at that block (an input is never idle). -/
theorem leaves1_2 (c : Dev nD) (t : Fin cfg1.N) : (dat1 V c).leavesExact 2 t = owns (c : Thread nD τ) (ms1_2 t) fullShare (iblk1 V c 2 t) := by
  show owns (c : Thread nD τ) (ms1_2 t) fullShare ((dat1 V c).after 2 t) = _
  rw [after1_2]
/-- Input window 3's current buffer holds its block at every point, fetched there or not: unfetched, the block index
    has not moved since the point before, and the body leaves the block in place. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
/-- and the body hands it back at that block (an input is never idle). -/
theorem leaves1_3 (c : Dev nD) (t : Fin cfg1.N) : (dat1 V c).leavesExact 3 t = owns (c : Thread nD τ) (ms1_3 t) fullShare (iblk1 V c 3 t) := by
  show owns (c : Thread nD τ) (ms1_3 t) fullShare ((dat1 V c).after 3 t) = _
  rw [after1_3]
/-- Input window 4's current buffer holds its block at every point, fetched there or not: unfetched, the block index
    has not moved since the point before, and the body leaves the block in place. -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
/-- and the body hands it back at that block (an input is never idle). -/
theorem leaves1_4 (c : Dev nD) (t : Fin cfg1.N) : (dat1 V c).leavesExact 4 t = owns (c : Thread nD τ) (ms1_4 t) fullShare (iblk1 V c 4 t) := by
  show owns (c : Thread nD τ) (ms1_4 t) fullShare ((dat1 V c).after 4 t) = _
  rw [after1_4]
/-- Input window 5's current buffer holds its block at every point, fetched there or not: unfetched, the block index
    has not moved since the point before, and the body leaves the block in place. -/
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
/-- and the body hands it back at that block (an input is never idle). -/
theorem leaves1_5 (c : Dev nD) (t : Fin cfg1.N) : (dat1 V c).leavesExact 5 t = owns (c : Thread nD τ) (ms1_5 t) fullShare (iblk1 V c 5 t) := by
  show owns (c : Thread nD τ) (ms1_5 t) fullShare ((dat1 V c).after 5 t) = _
  rw [after1_5]

/-! ## The invariant -/

/-- Moving the last conjunct of a chain of ten to the front, beside an eleventh. -/
theorem sep_last_front (A1 A2 A3 A4 A5 A6 A7 A8 A9 S G : sProp 𝕄) :
    iprop((A1 ∗ A2 ∗ A3 ∗ A4 ∗ A5 ∗ A6 ∗ A7 ∗ A8 ∗ A9 ∗ S) ∗ G) = iprop(S ∗ (A1 ∗ A2 ∗ A3 ∗ A4 ∗ A5 ∗ A6 ∗ A7 ∗ A8 ∗ A9) ∗ G) := by
  have h₁ : iprop((A1 ∗ A2 ∗ A3 ∗ A4 ∗ A5 ∗ A6 ∗ A7 ∗ A8 ∗ A9 ∗ S) ∗ G) ⊢ iprop(S ∗ (A1 ∗ A2 ∗ A3 ∗ A4 ∗ A5 ∗ A6 ∗ A7 ∗ A8 ∗ A9) ∗ G) := by
    iintro ⟨⟨A1, A2, A3, A4, A5, A6, A7, A8, A9, S⟩, G⟩
    isplitl [S]; · iexact S
    isplitr [G]; swap; · iexact G
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  have h₂ : iprop(S ∗ (A1 ∗ A2 ∗ A3 ∗ A4 ∗ A5 ∗ A6 ∗ A7 ∗ A8 ∗ A9) ∗ G) ⊢ iprop((A1 ∗ A2 ∗ A3 ∗ A4 ∗ A5 ∗ A6 ∗ A7 ∗ A8 ∗ A9 ∗ S) ∗ G) := by
    iintro ⟨S, ⟨A1, A2, A3, A4, A5, A6, A7, A8, A9⟩, G⟩
    isplitr [G]; swap; · iexact G
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact S
  exact BI.equiv_iff.mp ⟨h₁, h₂⟩

/-- What the launch hands the pipeline, with the accumulator split off as a memref at some contents. -/
theorem PhiA1_eq (c : Dev nD) :
    (Pipeline.ΦA spec1 c : sProp 𝕄) = iprop((∃ d, owns (c : Thread nD τ) scM1 fullShare d) ∗ rest1 (F := F) c ∗ (∃ r, prngReg c r)) := by
  unfold Pipeline.ΦA; rw [scopedRest1_eq]; unfold rest1; simp only [scM1, owns_whole]
  exact sep_last_front _ _ _ _ _ _ _ _ _ _ _

theorem PhiS1_zero (c : Dev nD) (n : ℕ) (h : n ≤ cfg1.N) (hz : n = 0) : PhiS1 V c n h = Pipeline.ΦA spec1 c := by
  subst hz; rfl

/-- After point `n`: the accumulator at the running sum there. -/
theorem PhiS1_succ (c : Dev nD) (n : ℕ) (hn : n < cfg1.N) :
    PhiS1 V c (n + 1) hn = iprop(owns (c : Thread nD τ) scM1 fullShare (acc1 V c n hn) ∗ rest1 (F := F) c ∗ (∃ r, prngReg c r)) := rfl

/-- Before a point that is not the first: the accumulator at what the point before left. -/
theorem PhiS1_pos (c : Dev nD) (n : ℕ) (h : n ≤ cfg1.N) (hz : n ≠ 0) :
    PhiS1 V c n h = iprop(owns (c : Thread nD τ) scM1 fullShare (acc1 V c (n - 1) (by omega)) ∗ rest1 (F := F) c ∗ (∃ r, prngReg c r)) := by
  cases n with
  | zero => exact absurd rfl hz
  | succ n => rfl

theorem Phi1_castSucc (c : Dev nD) (t : Fin cfg1.N) :
    (dat1 V c).Φ t.castSucc = PhiS1 V c t.val (Nat.le_of_lt t.isLt) := by
  dsimp only [dat1]; simp only [Fin.coe_castSucc]

/-- The running sum at a first edge tile restarts from zero; -/
theorem acc1_A (c : Dev nD) (t : Fin cfg1.N) (h0 : t.val % 293 = 0) :
    acc1 V c t.val t.isLt = k1_pay2 (grid1.coords t) (iblk1 V c 0 t) (iblk1 V c 1 t) (k1_pay1 (F := F)) := by
  obtain ⟨n, hn⟩ := t
  cases n with
  | zero => rfl
  | succ n => exact (if_pos h0)

/-- elsewhere it is one step over the point before. -/
theorem acc1_B (c : Dev nD) (t : Fin cfg1.N) (h0 : ¬t.val % 293 = 0) :
    acc1 V c t.val t.isLt = k1_pay2 (grid1.coords t) (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n => exact (if_neg h0)

/-! ## The body obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The input windows' buffers hold their blocks; the point's position among the edge tiles
    of its node tile says which conditionals are taken; the invariant hands over the accumulator at the running sum
    of the point before (at anything at the very first point) and takes it back at this point's; off the last edge
    tile the output window's buffer goes back as it came, at the last edge tile it holds the combined block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [leaves1_0, leaves1_1, leaves1_2, leaves1_3, leaves1_4, leaves1_5]
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ, Phi1_castSucc V c t]
  have hN : t.val < 7325 := lt_of_lt_of_eq t.isLt (show cfg1.N = 7325 from N_1)
  by_cases h0 : t.val % 293 = 0
  · have h1 : ¬t.val % 293 = 292 := by omega
    have hcA : condA (grid1.coords t) := (hcond_a t).mpr h0
    have hcC : ¬condC (grid1.coords t) := fun h => h1 ((hcond_c t).mp h)
    rw [Dat.leavesExact_idle (dat1 V c) 6 t (idle6_of_not _ hcC) (noFlush6 t h1), acc1_A V c t h0]
    by_cases hz0 : t.val = 0
    · rw [PhiS1_zero V c _ _ hz0, PhiA1_eq]
      iintro ⟨⟨HS, Hr, Hg⟩, Ho, ⟨%d0, H0⟩, ⟨%d1, H1⟩, ⟨%d2, H2⟩, ⟨%d3, H3⟩, ⟨%d4, H4⟩, ⟨%d5, H5⟩, H6⟩
      iapply (runA c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hcA hcC (iblk1 V c 0 t) (iblk1 V c 1 t) Set.univ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS1_pos V c _ _ hz0]
      iintro ⟨⟨HS, Hr, Hg⟩, Ho, ⟨%d0, H0⟩, ⟨%d1, H1⟩, ⟨%d2, H2⟩, ⟨%d3, H3⟩, ⟨%d4, H4⟩, ⟨%d5, H5⟩, H6⟩
      iapply (runA c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hcA hcC (iblk1 V c 0 t) (iblk1 V c 1 t) Set.univ _)
      isplitl [H0]; · iexact H0
      isplitl [H1]; · iexact H1
      isplitl [HS]; · iexists _; iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz0 : t.val ≠ 0 := fun h => h0 (by rw [h])
    have hcA : ¬condA (grid1.coords t) := fun h => h0 ((hcond_a t).mp h)
    rw [PhiS1_pos V c _ _ hz0]
    by_cases h1 : t.val % 293 = 292
    · have hcC : condC (grid1.coords t) := (hcond_c t).mpr h1
      rw [show (dat1 V c).leavesExact 6 t = owns (c : Thread nD τ) (ms1_6 t) fullShare ((dat1 V c).after 6 t) from by
        unfold Dat.leavesExact; rw [live6_of _ hcC], after1_6]
      unfold out1
      rw [acc1_B V c t h0]
      iintro ⟨⟨HS, Hr, Hg⟩, Ho, ⟨%d0, H0⟩, ⟨%d1, H1⟩, ⟨%d2, H2⟩, ⟨%d3, H3⟩, ⟨%d4, H4⟩, ⟨%d5, H5⟩, H6⟩
      iapply (runC c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hcA hcC (iblk1 V c 0 t) (iblk1 V c 1 t) (iblk1 V c 2 t) (iblk1 V c 3 t) (iblk1 V c 4 t) (iblk1 V c 5 t)
        (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]
      · icases H6 with ⟨%d6, H6⟩; iexists _; iexact H6
      isplitl [HS]; · iexact HS
      iintro ⟨H0, H1, H2, H3, H4, H5, H6, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hcC : ¬condC (grid1.coords t) := fun h => h1 ((hcond_c t).mp h)
      rw [Dat.leavesExact_idle (dat1 V c) 6 t (idle6_of_not _ hcC) (noFlush6 t h1), acc1_B V c t h0]
      iintro ⟨⟨HS, Hr, Hg⟩, Ho, ⟨%d0, H0⟩, ⟨%d1, H1⟩, ⟨%d2, H2⟩, ⟨%d3, H3⟩, ⟨%d4, H4⟩, ⟨%d5, H5⟩, H6⟩
      iapply (runB c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hcA hcC (iblk1 V c 0 t) (iblk1 V c 1 t)
        (acc1 V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The pipeline's body obligation for the scatter launch, at every point. -/
theorem body_obligation1 (c : Dev nD) : BodyObligation (dat1 (F := F) V c) (defs₀ (F := F)) Variants.none () Set.univ := fun t => by
  rw [bigSep_W1, bigSep_W1]
  exact sound_body1 V c t

/-- What the launch hands the pipeline is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives it back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 7325 := N_1; omega), PhiA1_eq]
  iintro ⟨HS, Hr, Hg⟩
  isplitl [HS]; · iexists _; iexact HS
  isplitl [Hr]; · iexact Hr
  iexact Hg

end Cert.Kernel.Hand

end
-- ==== Proof.K.Vals.lean ====
/-
  The contents of the core's buffers around the two launches, as a chain: what the host operations before the
  first launch leave, then the message matrix the first launch writes, then the output the second launch writes,
  then the host operations after it (a transpose and a slice).
-/
import proofs.«413313_j22084721836888_2_alg».proof.Proof.Gen.Kernel.Regions
import proofs.«413313_j22084721836888_2_alg».proof.Proof.K.R0Defs
import proofs.«413313_j22084721836888_2_alg».proof.Proof.K.R1Defs
import Idealize.ShloMosaic.Lib.Pipeline.Value

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- The buffers as the first launch finds them: the launch memory after the eleven host stretches before it. -/
abbrev E0 : (c : Dev nD) → (b : Ref sig .tc) → Buf (Elt F) ((c : Thread nD τ).loc b) := fun c b => Gen.V11 m c b

/-- The message matrix the first launch leaves in its output array. -/
def mTarr (c : Dev nD) : Buf (Elt F) ((c : Thread nD τ).loc main_v23) := (dat0 (E0 m) c).arrAt 4 cfg0.N

/-- The buffers after the first launch. -/
abbrev W12 (c : Dev nD) : Valuation τ sig (Elt F) := Function.update (Gen.V11 m c) main_v23 (mTarr m c)

/-- The buffers as the second launch finds them. -/
abbrev E1 : (c : Dev nD) → (b : Ref sig .tc) → Buf (Elt F) ((c : Thread nD τ).loc b) := fun c b => W12 m c b

/-- The transposed output the second launch leaves in its output array. -/
def oTarr (c : Dev nD) : Buf (Elt F) ((c : Thread nD τ).loc main_v24) := (dat1 (E1 m) c).arrAt 6 cfg1.N

/-- The buffers after the second launch. -/
abbrev W13 (c : Dev nD) : Valuation τ sig (Elt F) := Function.update (W12 m c) main_v24 (oTarr m c)

/-- The buffers at the end of the program: after the transpose and the slice. -/
abbrev W14 (c : Dev nD) : Valuation τ sig (Elt F) := StableHlo.after hostOps2 (W13 m c)

end Cert.Kernel.Hand

end
-- ==== Proof.K.Run.lean ====
/-
  The launch of the whole program: @main's fourteen items run in order on the core — eleven stretches of host
  operations, the gather launch, the scatter launch, and a last stretch (a transpose and a slice) — from the launch
  memory to a final memory in which every unscoped buffer holds the last valuation of the chain of contents
  (the launch memory, then each stretch applied, then each launch's output array replaced by what its pipeline
  leaves there).  Each launch is a region of the library's several-regions launch theorem: its arrays are split out of the unscoped
  buffers at entry and put back at exit, the generator register and the unstaged scoped buffers go through the
  region invariant and come back.
-/
import proofs.«413313_j22084721836888_2_alg».proof.Proof.K.Vals
import Idealize.ShloMosaic.Lib.Pipeline.RegionsLoop
import Idealize.ShloMosaic.Lib.Pipeline.FrameSuffix
import Idealize.ShloMosaic.Lib.Pipeline.Frame

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each launch and the last stretch leave unchanged -/

/-- The gather launch changes only its output array. -/
theorem W12_of (c : Dev nD) (r : Ref sig .tc) (h : r ≠ main_v23) : W12 m c r = V11 m c r :=
  Function.update_of_ne (StableHlo.devRef_ne_of_ne h) _ _
/-- Its output array holds the message matrix. -/
theorem W12_self (c : Dev nD) : W12 m c main_v23 = mTarr m c := Function.update_self _ _ _
/-- The scatter launch changes only its output array. -/
theorem W13_of (c : Dev nD) (r : Ref sig .tc) (h : r ≠ main_v24) : W13 m c r = W12 m c r :=
  Function.update_of_ne (StableHlo.devRef_ne_of_ne h) _ _
/-- Its output array holds the transposed output. -/
theorem W13_self (c : Dev nD) : W13 m c main_v24 = oTarr m c := Function.update_self _ _ _
/-- The last stretch changes only the two buffers it writes. -/
theorem W14_of (c : Dev nD) (r : Ref sig .tc) (h : r ∉ hostOps2_W) : W14 m c r = W13 m c r :=
  StableHlo.after_of_writes_sub hostOps2 _ hostOps2_writes h

/-- A buffer no item writes reaches the end as launched: the chain of contents walks back to the launch memory. -/
theorem W14_untouched (c : Dev nD) (r : Ref sig .tc) (h14 : r ∉ hostOps2_W) (h13 : r ≠ main_v24) (h12 : r ≠ main_v23)
    (h11 : r ∉ hostOps0_10_W) (h10 : r ∉ hostOps0_9_W) (h9 : r ∉ hostOps0_8_W) (h8 : r ∉ hostOps0_7_W)
    (h7 : r ∉ hostOps0_6_W) (h6 : r ∉ hostOps0_5_W) (h5 : r ∉ hostOps0_4_W) (h4 : r ∉ hostOps0_3_W)
    (h3 : r ∉ hostOps0_2_W) (h2 : r ∉ hostOps0_1_W) (h1 : r ∉ hostOps0_W) :
    W14 m c r = m ((c : Thread nD τ).loc r) :=
  (W14_of m c r h14).trans <| (W13_of m c r h13).trans <| (W12_of m c r h12).trans <| (V11_of m c r h11).trans <|
    (V10_of m c r h10).trans <| (V9_of m c r h9).trans <| (V8_of m c r h8).trans <| (V7_of m c r h7).trans <|
    (V6_of m c r h6).trans <| (V5_of m c r h5).trans <| (V4_of m c r h4).trans <| (V3_of m c r h3).trans <|
    (V2_of m c r h2).trans <| (V1_of m c r h1).trans rfl

theorem W14_main_arg0 (c : Dev nD) : W14 m c main_arg0 = m ((c : Thread nD τ).loc main_arg0) :=
  W14_untouched m c main_arg0 (by decide) (by decide) (by decide) (by decide) (by decide) (by decide) (by decide) (by decide) (by decide) (by decide) (by decide) (by decide) (by decide) (by decide)
theorem W14_main_arg1 (c : Dev nD) : W14 m c main_arg1 = m ((c : Thread nD τ).loc main_arg1) :=
  W14_untouched m c main_arg1 (by decide) (by decide) (by decide) (by decide) (by decide) (by decide) (by decide) (by decide) (by decide) (by decide) (by decide) (by decide) (by decide) (by decide)
theorem W14_main_arg2 (c : Dev nD) : W14 m c main_arg2 = m ((c : Thread nD τ).loc main_arg2) :=
  W14_untouched m c main_arg2 (by decide) (by decide) (by decide) (by decide) (by decide) (by decide) (by decide) (by decide) (by decide) (by decide) (by decide) (by decide) (by decide) (by decide)
theorem W14_main_arg3 (c : Dev nD) : W14 m c main_arg3 = m ((c : Thread nD τ).loc main_arg3) :=
  W14_untouched m c main_arg3 (by decide) (by decide) (by decide) (by decide) (by decide) (by decide) (by decide) (by decide) (by decide) (by decide) (by decide) (by decide) (by decide) (by decide)
theorem W14_main_arg4 (c : Dev nD) : W14 m c main_arg4 = m ((c : Thread nD τ).loc main_arg4) :=
  W14_untouched m c main_arg4 (by decide) (by decide) (by decide) (by decide) (by decide) (by decide) (by decide) (by decide) (by decide) (by decide) (by decide) (by decide) (by decide) (by decide)
theorem W14_main_arg5 (c : Dev nD) : W14 m c main_arg5 = m ((c : Thread nD τ).loc main_arg5) :=
  W14_untouched m c main_arg5 (by decide) (by decide) (by decide) (by decide) (by decide) (by decide) (by decide) (by decide) (by decide) (by decide) (by decide) (by decide) (by decide) (by decide)
theorem W14_main_arg6 (c : Dev nD) : W14 m c main_arg6 = m ((c : Thread nD τ).loc main_arg6) :=
  W14_untouched m c main_arg6 (by decide) (by decide) (by decide) (by decide) (by decide) (by decide) (by decide) (by decide) (by decide) (by decide) (by decide) (by decide) (by decide) (by decide)

/-! ## The arrays of each launch at its exit -/

/-- The buffers after the second launch, read at the core's references. -/
abbrev E2 : (c : Dev nD) → (b : Ref sig .tc) → Buf (Elt F) ((c : Thread nD τ).loc b) := fun c b => W13 m c b

/-- At the gather launch's exit every array of its pipeline holds what the valuation after it says: an input array is
    never written back, so it holds its entry contents, which the update at the output array leaves alone; the output
    array holds the folded write-backs, which is the message matrix by definition. -/
theorem hF0 (c : Dev nD) : ∀ w : Fin 5, (dat0 (E0 m) c).arrAt w cfg0.N = E1 m c (Pipeline.arrRef spec0 w)
  | ⟨0, _⟩ => (((dat0 (E0 m) c).arrAt_in 0 rfl _).trans (A_eq0 (E0 m) c 0)).trans (W12_of m c main_v6 (by decide)).symm
  | ⟨1, _⟩ => (((dat0 (E0 m) c).arrAt_in 1 rfl _).trans (A_eq0 (E0 m) c 1)).trans (W12_of m c main_v8 (by decide)).symm
  | ⟨2, _⟩ => (((dat0 (E0 m) c).arrAt_in 2 rfl _).trans (A_eq0 (E0 m) c 2)).trans (W12_of m c main_v11 (by decide)).symm
  | ⟨3, _⟩ => (((dat0 (E0 m) c).arrAt_in 3 rfl _).trans (A_eq0 (E0 m) c 3)).trans (W12_of m c main_v2 (by decide)).symm
  | ⟨4, _⟩ => (W12_self m c).symm
/-- Every other unscoped buffer holds what it held at entry. -/
theorem hrest0 (c : Dev nD) : ∀ b, b ∉ Finset.univ.image (Pipeline.arrRef spec0) → E1 m c b = E0 m c b :=
  fun b hb => W12_of m c b fun e => hb (Finset.mem_image.mpr ⟨(4 : Fin 5), Finset.mem_univ _, e.symm⟩)

/-- The same for the scatter launch: six input arrays (the message matrix among them), one output array. -/
theorem hF1 (c : Dev nD) : ∀ w : Fin 7, (dat1 (E1 m) c).arrAt w cfg1.N = E2 m c (Pipeline.arrRef spec1 w)
  | ⟨0, _⟩ => (((dat1 (E1 m) c).arrAt_in 0 rfl _).trans (A_eq1 (E1 m) c 0)).trans (W13_of m c main_v7 (by decide)).symm
  | ⟨1, _⟩ => (((dat1 (E1 m) c).arrAt_in 1 rfl _).trans (A_eq1 (E1 m) c 1)).trans (W13_of m c main_v23 (by decide)).symm
  | ⟨2, _⟩ => (((dat1 (E1 m) c).arrAt_in 2 rfl _).trans (A_eq1 (E1 m) c 2)).trans (W13_of m c main_v1 (by decide)).symm
  | ⟨3, _⟩ => (((dat1 (E1 m) c).arrAt_in 3 rfl _).trans (A_eq1 (E1 m) c 3)).trans (W13_of m c main_v19 (by decide)).symm
  | ⟨4, _⟩ => (((dat1 (E1 m) c).arrAt_in 4 rfl _).trans (A_eq1 (E1 m) c 4)).trans (W13_of m c main_v21 (by decide)).symm
  | ⟨5, _⟩ => (((dat1 (E1 m) c).arrAt_in 5 rfl _).trans (A_eq1 (E1 m) c 5)).trans (W13_of m c main_v22 (by decide)).symm
  | ⟨6, _⟩ => (W13_self m c).symm
theorem hrest1 (c : Dev nD) : ∀ b, b ∉ Finset.univ.image (Pipeline.arrRef spec1) → E2 m c b = E1 m c b :=
  fun b hb => W13_of m c b fun e => hb (Finset.mem_image.mpr ⟨(6 : Fin 7), Finset.mem_univ _, e.symm⟩)

/-! ## The proof data family and the thread state -/

/-- Every pipeline's proof data, each at its launch's entry contents — a literal match, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
/-- No body variant. -/
abbrev 𝒱n : Variants := Variants.none
/-- No core owes another anything: no level is assigned. -/
abbrev Lz : GSem nD τ sig → Finset Unit := fun _ => ∅
abbrev lvz : GSem nD τ sig → Unit → ℕ := fun _ _ => 0
/-- What rides beside the buffers through every item: the core's generator register at some state and its dues, at
    nothing. -/
abbrev Rst (c : Dev nD) : sProp 𝕄 := iprop((∃ r, prngReg c r) ∗ ∃ W, owes (c : Thread nD τ) (0 : CellTallies nD τ sig Unit) W)
/-- The same rest between any two items. -/
abbrev Ez : Fin 3 → Dev nD → sProp 𝕄 := fun _ c => Rst c

/-! ## The two launches as regions -/

-- `iapply` of a library lemma stated over the pinned configuration unifies with the printed one only when unification
-- may unfold plain definitions in a metavariable's type
set_option backward.isDefEq.respectTransparency.types false in
/-- The gather launch as a region over the thread state: entered from every unscoped buffer at the contents before
    it, left at those contents with its output array replaced.  Its arrays are split out of the unscoped buffers and
    put back at their exit contents; the generator register goes into the region invariant and comes back; the core
    owes nothing throughout; the kernel has no semaphore of its own. -/
def reg0 (hbody0 : ∀ c : Dev nD, BodyObligation (dat0 (F := F) (E0 m) c) (defs₀ (F := F)) Variants.none () Set.univ)
    (hin0 : ∀ c : Dev nD, (Pipeline.ΦA spec0 c : sProp 𝕄) ⊢ (dat0 (E0 m) c).Φ 0)
    (hout0 : ∀ c : Dev nD, (dat0 (E0 m) c).Φ (Fin.last cfg0.N) ⊢ (Pipeline.ΦA spec0 c : sProp 𝕄)) :
    Pipeline.RegionSeg (pcfgs (F := F)) adm (pdats m) () defs₀ 𝒱n Lz lvz 0 where
  win := launch0.win.to₀
  block_pos := launch0.block_pos
  stage_whole := launch0.stage_whole
  K := PEmpty
  osem k := k.elim
  ho := Pipeline.OwnSemFacts.none _
  hbody c := (hbody0 c).loose
  hwaits := Pipeline.hwaits_of_owed_zero _ _ _ _ Lz lvz 0 fun _ _ => rfl
  pre c := iprop(StableHlo.held (c : Thread nD τ) (Pipeline.ucRefs τ sig) (V11 m c) ∗ Rst c)
  post c := iprop(StableHlo.held (c : Thread nD τ) (Pipeline.ucRefs τ sig) (W12 m c) ∗ Rst c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- the class invariant from the register and the unstaged scoped buffers, then the given entailment into the
    -- region's own invariant at the first point
    refine (show _ ⊢ (Pipeline.ΦA spec0 c : sProp 𝕄) from ?_).trans (hin0 c)
    unfold Pipeline.ΦA
    iintro ⟨Hp, -, Hr⟩
    isplitl [Hr]; · iexact Hr
    iexact Hp
  hout c := by
    -- the region's own invariant at the last point gives the class invariant back, which is the register and the
    -- unstaged scoped buffers
    refine (hout0 c).trans (show (Pipeline.ΦA spec0 c : sProp 𝕄) ⊢ _ from ?_)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with the printed one only when unification
-- may unfold plain definitions in a metavariable's type
set_option backward.isDefEq.respectTransparency.types false in
/-- The scatter launch as a region over the thread state: entered from every unscoped buffer at the contents before
    it, left at those contents with its output array replaced.  Its arrays are split out of the unscoped buffers and
    put back at their exit contents; the generator register goes into the region invariant and comes back; the core
    owes nothing throughout; the kernel has no semaphore of its own. -/
def reg1 (hbody1 : ∀ c : Dev nD, BodyObligation (dat1 (F := F) (E1 m) c) (defs₀ (F := F)) Variants.none () Set.univ)
    (hin1 : ∀ c : Dev nD, (Pipeline.ΦA spec1 c : sProp 𝕄) ⊢ (dat1 (E1 m) c).Φ 0)
    (hout1 : ∀ c : Dev nD, (dat1 (E1 m) c).Φ (Fin.last cfg1.N) ⊢ (Pipeline.ΦA spec1 c : sProp 𝕄)) :
    Pipeline.RegionSeg (pcfgs (F := F)) adm (pdats m) () defs₀ 𝒱n Lz lvz 1 where
  win := launch1.win.to₀
  block_pos := launch1.block_pos
  stage_whole := launch1.stage_whole
  K := PEmpty
  osem k := k.elim
  ho := Pipeline.OwnSemFacts.none _
  hbody c := (hbody1 c).loose
  hwaits := Pipeline.hwaits_of_owed_zero _ _ _ _ Lz lvz 1 fun _ _ => rfl
  pre c := iprop(StableHlo.held (c : Thread nD τ) (Pipeline.ucRefs τ sig) (W12 m c) ∗ Rst c)
  post c := iprop(StableHlo.held (c : Thread nD τ) (Pipeline.ucRefs τ sig) (W13 m c) ∗ Rst c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- the class invariant from the register and the unstaged scoped buffers, then the given entailment into the
    -- region's own invariant at the first point
    refine (show _ ⊢ (Pipeline.ΦA spec1 c : sProp 𝕄) from ?_).trans (hin1 c)
    unfold Pipeline.ΦA
    iintro ⟨Hp, -, Hr⟩
    isplitl [Hr]; · iexact Hr
    iexact Hp
  hout c := by
    -- the region's own invariant at the last point gives the class invariant back, which is the register and the
    -- unstaged scoped buffers
    refine (hout1 c).trans (show (Pipeline.ΦA spec1 c : sProp 𝕄) ⊢ _ from ?_)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last stretch (the transpose and the slice) over the unscoped buffers from the contents after the second
    launch, the rest riding along. -/
def seg13H : Pipeline.HostSeg (Ix := Unit) (Name := ℕ) (U := UR sig nD τ) (Lvl := ℕ) (pcfgs (F := F)) defs₀ 𝒱n Lz lvz :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W13 m) (fun c => Rst c)

/-- @main's fourteen items in order: the eleven stretches before the launches from the chain of contents, the two
    regions, the last stretch. -/
abbrev segsH (R0 : Pipeline.RegionSeg (pcfgs (F := F)) adm (pdats m) () defs₀ 𝒱n Lz lvz 0)
    (R1 : Pipeline.RegionSeg (pcfgs (F := F)) adm (pdats m) () defs₀ 𝒱n Lz lvz 1) :
    List (Pipeline.Seg (pcfgs (F := F)) adm (pdats m) () defs₀ 𝒱n Lz lvz) :=
  [.host (seg0 m 𝒱n Lz lvz Ez), .host (seg1 m 𝒱n Lz lvz Ez), .host (seg2 m 𝒱n Lz lvz Ez), .host (seg3 m 𝒱n Lz lvz Ez),
   .host (seg4 m 𝒱n Lz lvz Ez), .host (seg5 m 𝒱n Lz lvz Ez), .host (seg6 m 𝒱n Lz lvz Ez), .host (seg7 m 𝒱n Lz lvz Ez),
   .host (seg8 m 𝒱n Lz lvz Ez), .host (seg9 m 𝒱n Lz lvz Ez), .host (seg10 m 𝒱n Lz lvz Ez), .region R0, .region R1,
   .host (seg13H m)]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- THE RUN.  From any launch memory with zero counters, given each launch's body obligation and the two entailments
    between its own invariant and the class invariant, every weakly fair execution of @main terminates, and at the end
    the result buffer holds what the last valuation of the chain says and every argument its launch contents. -/
theorem run_main_of (m : (ℓ : Loc nD τ sig) → Buf (Elt F) ℓ) (ρ : Dev nD → PrngReg)
    (hbody0 : ∀ c : Dev nD, BodyObligation (dat0 (F := F) (E0 m) c) (defs₀ (F := F)) Variants.none () Set.univ)
    (hin0 : ∀ c : Dev nD, (Pipeline.ΦA spec0 c : sProp 𝕄) ⊢ (dat0 (E0 m) c).Φ 0)
    (hout0 : ∀ c : Dev nD, (dat0 (E0 m) c).Φ (Fin.last cfg0.N) ⊢ (Pipeline.ΦA spec0 c : sProp 𝕄))
    (hbody1 : ∀ c : Dev nD, BodyObligation (dat1 (F := F) (E1 m) c) (defs₀ (F := F)) Variants.none () Set.univ)
    (hin1 : ∀ c : Dev nD, (Pipeline.ΦA spec1 c : sProp 𝕄) ⊢ (dat1 (E1 m) c).Φ 0)
    (hout1 : ∀ c : Dev nD, (dat1 (E1 m) c).Φ (Fin.last cfg1.N) ⊢ (Pipeline.ΦA spec1 c : sProp 𝕄)) :
    θ_run defs (onTc (τ := τ) (main (F := F))) ⟨m, fun _ => 0, ρ⟩ (fun r => ∀ c : Dev nD,
      r.2.mem ((c.tc : Thread nD τ).loc main_v26) = W14 m c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm (pdats m) () cellOf_inj emb₁ defs₀ 𝒱n Lz lvz m ρ main
    (fun _ => segsH m (reg0 m hbody0 hin0 hout0) (reg1 m hbody1 hin1 hout1))
    (fun c Q => by
      rewrite [main_chain c, Pipeline.Seg.run_eq_chain,
        show (segsH m (reg0 m hbody0 hin0 hout0) (reg1 m hbody1 hin1 hout1)).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          Prog.lift (.customCall (Pipeline.entry 0) ()),
          Prog.lift (.customCall (Pipeline.entry 1) ()),
          StableHlo.seq hostOps2 ] from rfl]
      exact .rfl)
    (fun c => by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ Rst c))
    (Tₙ := fun c => StableHlo.held (c : Thread nD τ) (Pipeline.ucRefs τ sig) (W14 m c))
    (hch := fun c => ⟨.rfl, .rfl, .rfl, .rfl, .rfl, .rfl, .rfl, .rfl, .rfl, .rfl, .rfl, .rfl, .rfl, .rfl,
      sep_mono .rfl (by iintro ⟨-, H⟩; iexact H)⟩)
    (hinit := ?_)
    (QY := fun c s => s.mem ((c.tc : Thread nD τ).loc main_v26) = W14 m c main_v26
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6))
    (hfin := fun c s' => ?_) (hQ := fun _ h => h)
  · -- the launch element is the pipeline library's own; no further ghost resource per core
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the launch: each core's unscoped buffers are held at the launch memory; its register and its dues make the rest
    refine Pipeline.initEach Lz lvz fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result buffer and each argument's buffer read off the last valuation
    unfold StableHlo.held
    iintro ⟨Hh, HSI⟩
    ihave Hr := (pointsTo_read_all (Pipeline.ucRefs τ sig) (fun b => ((c : Thread nD τ).1, b)) (W14 m c) s') $$ [Hh HSI]
    · isplitl [Hh] <;> iassumption
    icases Hr with ⟨%h, HSI⟩
    imodintro
    isplitr
    · ipureintro
      exact ⟨h (Proc.devRef .tc main_v26) (mem_uc main_v26 (by decide)),
        (h (Proc.devRef .tc main_arg0) (mem_uc main_arg0 (by decide))).trans (W14_main_arg0 m c),
        (h (Proc.devRef .tc main_arg1) (mem_uc main_arg1 (by decide))).trans (W14_main_arg1 m c),
        (h (Proc.devRef .tc main_arg2) (mem_uc main_arg2 (by decide))).trans (W14_main_arg2 m c),
        (h (Proc.devRef .tc main_arg3) (mem_uc main_arg3 (by decide))).trans (W14_main_arg3 m c),
        (h (Proc.devRef .tc main_arg4) (mem_uc main_arg4 (by decide))).trans (W14_main_arg4 m c),
        (h (Proc.devRef .tc main_arg5) (mem_uc main_arg5 (by decide))).trans (W14_main_arg5 m c),
        (h (Proc.devRef .tc main_arg6) (mem_uc main_arg6 (by decide))).trans (W14_main_arg6 m c)⟩
    · iexact HSI

end Cert.Kernel.Hand

end
-- ==== Proof.lean ====
/-
  The certificate of the graph-convolution kernel against its reference.

  The kernel program is two launches: the first writes, feature-major, the message of every edge — the source node's
  features, gathered by a one-hot product, plus the three edge-embedding rows, gathered by a second one-hot product —;
  the second sums the messages onto their destination nodes by a masked one-hot product, adds the node's own features,
  divides by the in-degree plus one and projects by the weights.  Over the extended reals a one-hot product is the
  gather (or the segment sum) it stands for, so both programs return the layer of Spec.lean — provided every source id
  and every edge-feature id indexes inside its table, which the precondition states.

  Frames: each launch's body is run once per control case (first node tile, middle, last) and its scratch accumulator is
  tracked from point to point; the launch theorem composes the host stretches and the two launches.  The same text
  serves the word-level program and its idealization.
-/
import proofs.«413313_j22084721836888_2_alg».proof.Defs
import proofs.«413313_j22084721836888_2_alg».proof.Proof.Assembly
import proofs.«413313_j22084721836888_2_alg».proof.Proof.K.R0Body
import proofs.«413313_j22084721836888_2_alg».proof.Proof.K.R1Body
import proofs.«413313_j22084721836888_2_alg».proof.Proof.K.Run
import proofs.«413313_j22084721836888_2_alg».proof.Proof.Gen.Kernel
import proofs.«413313_j22084721836888_2_alg».proof.Proof.Gen.KernelIdeal
import proofs.«413313_j22084721836888_2_alg».proof.Proof.Gen.ReferenceIdeal
import proofs.«413313_j22084721836888_2_alg».proof.Proof.Gen.Pre_finite_inputs

noncomputable section

namespace Cert.Proof

open Idealize.ShloMosaic Idealize.SL.Sem

/-- The word-level program's frame: the launch theorem at the bit-exact instance, its result array dropped. -/
theorem frame_k : Cert.frame_Kernel := fun m ρ _ =>
  (θ_run (Cert.Kernel.defs (F := Bits)) _ _).mono (fun _ h c => (h c).2)
    (Cert.Kernel.Hand.run_main_of (F := Bits) m ρ
      (fun c => Cert.Kernel.Hand.body_obligation0 (Cert.Kernel.Hand.E0 m) c)
      (fun c => Cert.Kernel.Hand.hin0 (Cert.Kernel.Hand.E0 m) c)
      (fun c => Cert.Kernel.Hand.hout0 (Cert.Kernel.Hand.E0 m) c)
      (fun c => Cert.Kernel.Hand.body_obligation1 (Cert.Kernel.Hand.E1 m) c)
      (fun c => Cert.Kernel.Hand.hin1 (Cert.Kernel.Hand.E1 m) c)
      (fun c => Cert.Kernel.Hand.hout1 (Cert.Kernel.Hand.E1 m) c))

theorem claim : Cert.Claim :=
  ⟨Cert.Kernel.Gen.facts, Cert.KernelIdeal.Gen.facts, Cert.ReferenceIdeal.Gen.facts, Cert.Pre_finite_inputs.Gen.facts,
    frame_k, Cert.Proof.Hand.frame_ki, Cert.Proof.Hand.frame_ri, trivial, Cert.Proof.Hand.algebraic⟩

end Cert.Proof

end
